-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S64x32 .f32) (main_arg10 : FVec F S32 .f32) (main_arg11 : FVec F S32x1 .f32) (main_arg12 : FVec F S1 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg11
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S128 .f32) (main_arg7 : FVec F S128x64 .f32) (main_arg8 : FVec F S64 .f32) (main_arg9 : FVec F S64x32 .f32) (main_arg10 : FVec F S32 .f32) (main_arg11 : FVec F S32x1 .f32) (main_arg12 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x640000 32) (main_arg2 : IVec S50000 32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x32 .f32) (main_arg10 : FVec F S32 .f32) (main_arg11 : FVec F S32x1 .f32) (main_arg12 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S50000x1 : Shape := ⟨2, ![50000, 1]⟩
abbrev S10000x128 : Shape := ⟨2, ![10000, 128]⟩
abbrev S690000x128 : Shape := ⟨2, ![690000, 128]⟩
abbrev S1x128 : Shape := ⟨2, ![1, 128]⟩
abbrev S1x64 : Shape := ⟨2, ![1, 64]⟩
abbrev S50000x64 : Shape := ⟨2, ![50000, 64]⟩
abbrev S64x128 : Shape := ⟨2, ![64, 128]⟩
abbrev S10000x64 : Shape := ⟨2, ![10000, 64]⟩
abbrev S64x1 : Shape := ⟨2, ![64, 1]⟩
abbrev S1x32 : Shape := ⟨2, ![1, 32]⟩
abbrev S1x1 : Shape := ⟨2, ![1, 1]⟩
abbrev S64x64 : Shape := ⟨2, ![64, 64]⟩

abbrev nBuf : Space → Nat
  | .hbm => 125
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S1x640000, .i32⟩
  | .hbm, ⟨14, _⟩ => ⟨S640000, .i32⟩
  | .hbm, ⟨15, _⟩ => ⟨S1x640000, .i32⟩
  | .hbm, ⟨16, _⟩ => ⟨S640000, .i32⟩
  | .hbm, ⟨17, _⟩ => ⟨S50000, .i32⟩
  | .hbm, ⟨18, _⟩ => ⟨S690000, .i32⟩
  | .hbm, ⟨19, _⟩ => ⟨S690000, .i32⟩
  | .hbm, ⟨20, _⟩ => ⟨S_, .f32⟩
  | .hbm, ⟨21, _⟩ => ⟨S50000, .f32⟩
  | .hbm, ⟨22, _⟩ => ⟨S_, .i32⟩
  | .hbm, ⟨23, _⟩ => ⟨S690000, .i32⟩
  | .hbm, ⟨24, _⟩ => ⟨S690000, .i1⟩
  | .hbm, ⟨25, _⟩ => ⟨S_, .i32⟩
  | .hbm, ⟨26, _⟩ => ⟨S690000, .i32⟩
  | .hbm, ⟨27, _⟩ => ⟨S690000, .i32⟩
  | .hbm, ⟨28, _⟩ => ⟨S690000, .i32⟩
  | .hbm, ⟨29, _⟩ => ⟨S690000x1, .i32⟩
  | .hbm, ⟨30, _⟩ => ⟨S_, .f32⟩
  | .hbm, ⟨31, _⟩ => ⟨S690000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .i1⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S690000, .i32⟩
  | .hbm, ⟨47, _⟩ => ⟨S690000, .i1⟩
  | .hbm, ⟨48, _⟩ => ⟨S_, .i32⟩
  | .hbm, ⟨49, _⟩ => ⟨S690000, .i32⟩
  | .hbm, ⟨50, _⟩ => ⟨S690000, .i32⟩
  | .hbm, ⟨51, _⟩ => ⟨S690000, .i32⟩
  | .hbm, ⟨52, _⟩ => ⟨S690000x1, .i32⟩
  | .hbm, ⟨53, _⟩ => ⟨S690000x128, .f32⟩
  | .hbm, ⟨54, _⟩ => ⟨S_, .f32⟩
  | .hbm, ⟨55, _⟩ => ⟨S50000x128, .f32⟩
  | .hbm, ⟨56, _⟩ => ⟨S_, .i32⟩
  | .hbm, ⟨57, _⟩ => ⟨S690000, .i32⟩
  | .hbm, ⟨58, _⟩ => ⟨S690000, .i1⟩
  | .hbm, ⟨59, _⟩ => ⟨S_, .i32⟩
  | .hbm, ⟨60, _⟩ => ⟨S690000, .i32⟩
  | .hbm, ⟨61, _⟩ => ⟨S690000, .i32⟩
  | .hbm, ⟨62, _⟩ => ⟨S690000, .i32⟩
  | .hbm, ⟨63, _⟩ => ⟨S690000x1, .i32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S_, .i32⟩
  | .hbm, ⟨77, _⟩ => ⟨S690000, .i32⟩
  | .hbm, ⟨78, _⟩ => ⟨S690000, .i1⟩
  | .hbm, ⟨79, _⟩ => ⟨S_, .i32⟩
  | .hbm, ⟨80, _⟩ => ⟨S690000, .i32⟩
  | .hbm, ⟨81, _⟩ => ⟨S690000, .i32⟩
  | .hbm, ⟨82, _⟩ => ⟨S690000, .i32⟩
  | .hbm, ⟨83, _⟩ => ⟨S690000x1, .i32⟩
  | .hbm, ⟨84, _⟩ => ⟨S690000x128, .f32⟩
  | .hbm, ⟨85, _⟩ => ⟨S_, .f32⟩
  | .hbm, ⟨86, _⟩ => ⟨S50000x128, .f32⟩
  | .hbm, ⟨87, _⟩ => ⟨S_, .i32⟩
  | .hbm, ⟨88, _⟩ => ⟨S690000, .i32⟩
  | .hbm, ⟨89, _⟩ => ⟨S690000, .i1⟩
  | .hbm, ⟨90, _⟩ => ⟨S_, .i32⟩
  | .hbm, ⟨91, _⟩ => ⟨S690000, .i32⟩
  | .hbm, ⟨92, _⟩ => ⟨S690000, .i32⟩
  | .hbm, ⟨93, _⟩ => ⟨S690000, .i32⟩
  | .hbm, ⟨94, _⟩ => ⟨S690000x1, .i32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .f32⟩
  | .hbm, ⟨104, _⟩ => ⟨S50000x1, .i32⟩
  | .hbm, ⟨105, _⟩ => ⟨S64, .i32⟩
  | .hbm, ⟨106, _⟩ => ⟨S1x64, .i32⟩
  | .hbm, ⟨107, _⟩ => ⟨S50000x64, .i32⟩
  | .hbm, ⟨108, _⟩ => ⟨S50000x64, .i32⟩
  | .hbm, ⟨109, _⟩ => ⟨S50000x64, .i1⟩
  | .hbm, ⟨110, _⟩ => ⟨S50000x64, .bf16⟩
  | .hbm, ⟨111, _⟩ => ⟨S64x128, .f32⟩
  | .hbm, ⟨112, _⟩ => ⟨S50000x64, .f32⟩
  | .hbm, ⟨113, _⟩ => ⟨S_, .f32⟩
  | .hbm, ⟨114, _⟩ => ⟨S64, .f32⟩
  | .hbm, ⟨115, _⟩ => ⟨S_, .f32⟩
  | .hbm, ⟨116, _⟩ => ⟨S64, .f32⟩
  | .hbm, ⟨117, _⟩ => ⟨S64, .f32⟩
  | .hbm, ⟨118, _⟩ => ⟨S64x1, .f32⟩
  | .hbm, ⟨119, _⟩ => ⟨S64x128, .f32⟩
  | .hbm, ⟨120, _⟩ => ⟨S64x128, .f32⟩
  | .hbm, ⟨121, _⟩ => ⟨S1x64, .f32⟩
  | .hbm, ⟨122, _⟩ => ⟨S1x32, .f32⟩
  | .hbm, ⟨123, _⟩ => ⟨S1x1, .f32⟩
  | .hbm, ⟨124, _⟩ => ⟨S64x1, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x64, .bf16⟩
  | .local _ .vmem, ⟨13, _⟩ => ⟨S10000x64, .bf16⟩
  | .local _ .vmem, ⟨14, _⟩ => ⟨S64x128, .f32⟩
  | .local _ .vmem, ⟨15, _⟩ => ⟨S64x128, .f32⟩
  | .local _ .vmem, ⟨16, _⟩ => ⟨S64x128, .f32⟩
  | .local _ .vmem, ⟨17, _⟩ => ⟨S128x64, .f32⟩
  | .local _ .vmem, ⟨18, _⟩ => ⟨S1x64, .f32⟩
  | .local _ .vmem, ⟨19, _⟩ => ⟨S64x32, .f32⟩
  | .local _ .vmem, ⟨20, _⟩ => ⟨S1x32, .f32⟩
  | .local _ .vmem, ⟨21, _⟩ => ⟨S32x1, .f32⟩
  | .local _ .vmem, ⟨22, _⟩ => ⟨S1x1, .f32⟩
  | .local _ .vmem, ⟨23, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_c_7 : Ref sig .tc := ⟨.hbm, 56, rfl⟩
abbrev main_v32 : Ref sig .tc := ⟨.hbm, 57, rfl⟩
abbrev main_v33 : Ref sig .tc := ⟨.hbm, 58, rfl⟩
abbrev main_c_8 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call1_cst : Ref sig .tc := ⟨.hbm, 70, rfl⟩
abbrev main_call1_v0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_9 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_11 : Ref sig .tc := ⟨.hbm, 85, rfl⟩
abbrev main_v55 : Ref sig .tc := ⟨.hbm, 86, rfl⟩
abbrev main_c_12 : Ref sig .tc := ⟨.hbm, 87, rfl⟩
abbrev main_v56 : Ref sig .tc := ⟨.hbm, 88, rfl⟩
abbrev main_v57 : Ref sig .tc := ⟨.hbm, 89, rfl⟩
abbrev main_c_13 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_call2_cst : Ref sig .tc := ⟨.hbm, 101, rfl⟩
abbrev main_call2_v0 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_14 : Ref sig .tc := ⟨.hbm, 113, rfl⟩
abbrev main_v78 : Ref sig .tc := ⟨.hbm, 114, rfl⟩
abbrev main_cst_15 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_scratch0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc3_stg4_0 : Ref sig .tc := ⟨.vmem, 20, rfl⟩
abbrev cc3_stg5_0 : Ref sig .tc := ⟨.vmem, 21, rfl⟩
abbrev cc3_stg6_0 : Ref sig .tc := ⟨.vmem, 22, rfl⟩
abbrev cc3_stg7_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem1_0 : DmaSem sig := 16
abbrev cc3_sem2_0 : DmaSem sig := 17
abbrev cc3_sem3_0 : DmaSem sig := 18
abbrev cc3_sem4_0 : DmaSem sig := 19
abbrev cc3_sem5_0 : DmaSem sig := 20
abbrev cc3_sem6_0 : DmaSem sig := 21
abbrev cc3_sem7_0 : DmaSem sig := 22

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def k2_cond2 (i : grid2.Coords) : BitVec 1 :=
  let arg0 : BitVec 32 := BitVec.ofNat 32 (i 0).val
  let c4_i32 : BitVec 32 := 4#32
  let v14 : BitVec 1 := Scalar.cmpi .eq arg0 c4_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x1 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S50000_S690000_d0 : Shape.Concatenates [S640000, S50000] S690000 0
  bcast_S_S50000 : S_.BroadcastsInDim S50000 (![] : Fin 0 → Fin S50000.rank)
  bcast_S_S690000 : S_.BroadcastsInDim S690000 (![] : Fin 0 → Fin S690000.rank)
  bcast_S690000_S690000x1_0 : S690000.BroadcastsInDim S690000x1 (![0] : Fin 1 → Fin S690000x1.rank)
  bcast_S50000_S50000x1_0 : S50000.BroadcastsInDim S50000x1 (![0] : Fin 1 → Fin S50000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S10000x128_S10000x128 : S10000x128.ShapeCasts S10000x128
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reducesTo_S50000x64_S64_d0 : S50000x64.ReducesTo [0] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S64_S1x64 : S64.ShapeCasts S1x64
  shapeCasts_S32_S1x32 : S32.ShapeCasts S1x32
  shapeCasts_S1_S1x1 : S1.ShapeCasts S1x1
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  inb_S64x1_S64x1_0_0 : ∀ a, (![0, 0] : Fin 2 → Nat) a + S64x1.size a ≤ S64x1.size a
  h_S64x1 : 0 < S64x1.numel
  scatter_S50000_S690000x1_S690000_n_0_0_1_wf : ScatterDims.WF S50000 S690000x1 S690000 [] [0] [0] 1
  dot_S10000x128_S128x128_S10000x128_1_0_0_1_n_n_wf : DotDims.WF S10000x128 S128x128 S10000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S10000x64_S10000x128_S64x128_0_0_1_1_n_n_wf : DotDims.WF S10000x64 S10000x128 S64x128 [0] [0] [1] [1] [] []
  dot_S64x128_S128x64_S64x64_1_0_0_1_n_n_wf : DotDims.WF S64x128 S128x64 S64x64 [1] [0] [0] [1] [] []
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S50000x64.size a
  hwx2_1 : ∀ i : grid2.Coords, EltTy.bits .bf16 = 32 ∨ (Rect.block (s := S50000x64) S10000x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x32.size a ≤ S64x32.size a
  hwx3_3 : ∀ i : grid3.Coords, EltTy.bits .f32 = 32 ∨ (Rect.block (s := S64x32) S64x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x1.size a ≤ S32x1.size a
  hwx3_5 : ∀ i : grid3.Coords, EltTy.bits .f32 = 32 ∨ (Rect.block (s := S32x1) S32x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x1.size a ≤ S64x1.size a
  hwx3_7 : ∀ i : grid3.Coords, EltTy.bits .f32 = 32 ∨ (Rect.block (s := S64x1) S64x1.size (cc3_transform_7 i) (hinb3_7 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S10000x64_S10000x128_S64x128_0_0_1_1_n_n : DotDims S10000x64 S10000x128 S64x128 where
  lhsContracting := [0]
  rhsContracting := [0]
  lhsNonContracting := [1]
  rhsNonContracting := [1]
  lhsBatch := []
  rhsBatch := []
  wf := dot_S10000x64_S10000x128_S64x128_0_0_1_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v68) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v76) S64x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v83) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v84) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S64x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v85) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S32x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v86) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v87) S64x1.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩
abbrev S64x128 : Shape := ⟨2, ![64, 128]⟩
abbrev S50000x1 : Shape := ⟨2, ![50000, 1]⟩
abbrev S64x1 : Shape := ⟨2, ![64, 1]⟩
abbrev S64x64 : Shape := ⟨2, ![64, 64]⟩
abbrev S1x64 : Shape := ⟨2, ![1, 64]⟩
abbrev S1x32 : Shape := ⟨2, ![1, 32]⟩
abbrev S1x1 : Shape := ⟨2, ![1, 1]⟩

abbrev nBuf : Space → Nat
  | .hbm => 197
  | .vmem => 0
  | .smem => 0
  | _ => 0

abbrev hbmTy0_0 (i : Nat) : BufTy := match i % 128 with
  | 0 => ⟨S50000x128, .f32⟩
  | 1 => ⟨S2x640000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S64x32, .f32⟩
  | 10 => ⟨S32, .f32⟩
  | 11 => ⟨S32x1, .f32⟩
  | 12 => ⟨S1, .f32⟩
  | 13 => ⟨S1x640000, .i32⟩
  | 14 => ⟨S640000, .i32⟩
  | 15 => ⟨S1x640000, .i32⟩
  | 16 => ⟨S640000, .i32⟩
  | 17 => ⟨S50000, .i32⟩
  | 18 => ⟨S690000, .i32⟩
  | 19 => ⟨S690000, .i32⟩
  | 20 => ⟨S_, .f32⟩
  | 21 => ⟨S50000, .f32⟩
  | 22 => ⟨S_, .i32⟩
  | 23 => ⟨S690000, .i32⟩
  | 24 => ⟨S690000, .i1⟩
  | 25 => ⟨S_, .i32⟩
  | 26 => ⟨S690000, .i32⟩
  | 27 => ⟨S690000, .i32⟩
  | 28 => ⟨S690000, .i32⟩
  | 29 => ⟨S690000x1, .i32⟩
  | 30 => ⟨S_, .f32⟩
  | 31 => ⟨S690000, .f32⟩
  | 32 => ⟨S50000, .f32⟩
  | 33 => ⟨S_, .f32⟩
  | 34 => ⟨S50000, .f32⟩
  | 35 => ⟨S50000, .i1⟩
  | 36 => ⟨S50000, .f32⟩
  | 37 => ⟨S_, .f32⟩
  | 38 => ⟨S_, .f32⟩
  | 39 => ⟨S50000, .f32⟩
  | 40 => ⟨S50000, .f32⟩
  | 41 => ⟨S_, .i32⟩
  | 42 => ⟨S690000, .i32⟩
  | 43 => ⟨S690000, .i1⟩
  | 44 => ⟨S_, .i32⟩
  | 45 => ⟨S690000, .i32⟩
  | 46 => ⟨S690000, .i32⟩
  | 47 => ⟨S690000, .i32⟩
  | 48 => ⟨S690000x1, .i32⟩
  | 49 => ⟨S690000, .f32⟩
  | 50 => ⟨S_, .i32⟩
  | 51 => ⟨S690000, .i32⟩
  | 52 => ⟨S690000, .i1⟩
  | 53 => ⟨S_, .i32⟩
  | 54 => ⟨S690000, .i32⟩
  | 55 => ⟨S690000, .i32⟩
  | 56 => ⟨S690000, .i32⟩
  | 57 => ⟨S690000x1, .i32⟩
  | 58 => ⟨S690000, .f32⟩
  | 59 => ⟨S690000, .f32⟩
  | 60 => ⟨S50000x128, .f32⟩
  | 61 => ⟨S_, .i32⟩
  | 62 => ⟨S690000, .i32⟩
  | 63 => ⟨S690000, .i1⟩
  | 64 => ⟨S_, .i32⟩
  | 65 => ⟨S690000, .i32⟩
  | 66 => ⟨S690000, .i32⟩
  | 67 => ⟨S690000, .i32⟩
  | 68 => ⟨S690000x1, .i32⟩
  | 69 => ⟨S690000x128, .f32⟩
  | 70 => ⟨S690000x1, .f32⟩
  | 71 => ⟨S690000x128, .f32⟩
  | 72 => ⟨S690000x128, .f32⟩
  | 73 => ⟨S_, .f32⟩
  | 74 => ⟨S50000x128, .f32⟩
  | 75 => ⟨S_, .i32⟩
  | 76 => ⟨S690000, .i32⟩
  | 77 => ⟨S690000, .i1⟩
  | 78 => ⟨S_, .i32⟩
  | 79 => ⟨S690000, .i32⟩
  | 80 => ⟨S690000, .i32⟩
  | 81 => ⟨S690000, .i32⟩
  | 82 => ⟨S690000x1, .i32⟩
  | 83 => ⟨S50000x128, .f32⟩
  | 84 => ⟨S1x128, .f32⟩
  | 85 => ⟨S50000x128, .f32⟩
  | 86 => ⟨S50000x128, .f32⟩
  | 87 => ⟨S_, .f32⟩
  | 88 => ⟨S50000x128, .f32⟩
  | 89 => ⟨S50000x128, .f32⟩
  | 90 => ⟨S50000, .i32⟩
  | 91 => ⟨S690000, .i32⟩
  | 92 => ⟨S690000, .i32⟩
  | 93 => ⟨S_, .f32⟩
  | 94 => ⟨S50000, .f32⟩
  | 95 => ⟨S_, .i32⟩
  | 96 => ⟨S690000, .i32⟩
  | 97 => ⟨S690000, .i1⟩
  | 98 => ⟨S_, .i32⟩
  | 99 => ⟨S690000, .i32⟩
  | 100 => ⟨S690000, .i32⟩
  | 101 => ⟨S690000, .i32⟩
  | 102 => ⟨S690000x1, .i32⟩
  | 103 => ⟨S_, .f32⟩
  | 104 => ⟨S690000, .f32⟩
  | 105 => ⟨S50000, .f32⟩
  | 106 => ⟨S_, .f32⟩
  | 107 => ⟨S50000, .f32⟩
  | 108 => ⟨S50000, .i1⟩
  | 109 => ⟨S50000, .f32⟩
  | 110 => ⟨S_, .f32⟩
  | 111 => ⟨S_, .f32⟩
  | 112 => ⟨S50000, .f32⟩
  | 113 => ⟨S50000, .f32⟩
  | 114 => ⟨S_, .i32⟩
  | 115 => ⟨S690000, .i32⟩
  | 116 => ⟨S690000, .i1⟩
  | 117 => ⟨S_, .i32⟩
  | 118 => ⟨S690000, .i32⟩
  | 119 => ⟨S690000, .i32⟩
  | 120 => ⟨S690000, .i32⟩
  | 121 => ⟨S690000x1, .i32⟩
  | 122 => ⟨S690000, .f32⟩
  | 123 => ⟨S_, .i32⟩
  | 124 => ⟨S690000, .i32⟩
  | 125 => ⟨S690000, .i1⟩
  | 126 => ⟨S_, .i32⟩
  | 127 => ⟨S690000, .i32⟩
  | _ => ⟨S50000x128, .f32⟩

abbrev hbmTy0_1 (i : Nat) : BufTy := match i % 128 with
  | 0 => ⟨S690000, .i32⟩
  | 1 => ⟨S690000, .i32⟩
  | 2 => ⟨S690000x1, .i32⟩
  | 3 => ⟨S690000, .f32⟩
  | 4 => ⟨S690000, .f32⟩
  | 5 => ⟨S50000x128, .f32⟩
  | 6 => ⟨S_, .i32⟩
  | 7 => ⟨S690000, .i32⟩
  | 8 => ⟨S690000, .i1⟩
  | 9 => ⟨S_, .i32⟩
  | 10 => ⟨S690000, .i32⟩
  | 11 => ⟨S690000, .i32⟩
  | 12 => ⟨S690000, .i32⟩
  | 13 => ⟨S690000x1, .i32⟩
  | 14 => ⟨S690000x128, .f32⟩
  | 15 => ⟨S690000x1, .f32⟩
  | 16 => ⟨S690000x128, .f32⟩
  | 17 => ⟨S690000x128, .f32⟩
  | 18 => ⟨S_, .f32⟩
  | 19 => ⟨S50000x128, .f32⟩
  | 20 => ⟨S_, .i32⟩
  | 21 => ⟨S690000, .i32⟩
  | 22 => ⟨S690000, .i1⟩
  | 23 => ⟨S_, .i32⟩
  | 24 => ⟨S690000, .i32⟩
  | 25 => ⟨S690000, .i32⟩
  | 26 => ⟨S690000, .i32⟩
  | 27 => ⟨S690000x1, .i32⟩
  | 28 => ⟨S50000x128, .f32⟩
  | 29 => ⟨S1x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S_, .f32⟩
  | 36 => ⟨S64x128, .f32⟩
  | 37 => ⟨S50000x1, .i32⟩
  | 38 => ⟨S64x128, .f32⟩
  | 39 => ⟨S_, .f32⟩
  | 40 => ⟨S50000, .f32⟩
  | 41 => ⟨S_, .f32⟩
  | 42 => ⟨S64, .f32⟩
  | 43 => ⟨S50000x1, .i32⟩
  | 44 => ⟨S64, .f32⟩
  | 45 => ⟨S_, .f32⟩
  | 46 => ⟨S64, .f32⟩
  | 47 => ⟨S64, .f32⟩
  | 48 => ⟨S64x1, .f32⟩
  | 49 => ⟨S64x128, .f32⟩
  | 50 => ⟨S64x128, .f32⟩
  | 51 => ⟨S64x64, .f32⟩
  | 52 => ⟨S1x64, .f32⟩
  | 53 => ⟨S64x64, .f32⟩
  | 54 => ⟨S64x64, .f32⟩
  | 55 => ⟨S_, .f32⟩
  | 56 => ⟨S64x64, .f32⟩
  | 57 => ⟨S64x64, .f32⟩
  | 58 => ⟨S64x32, .f32⟩
  | 59 => ⟨S1x32, .f32⟩
  | 60 => ⟨S64x32, .f32⟩
  | 61 => ⟨S64x32, .f32⟩
  | 62 => ⟨S_, .f32⟩
  | 63 => ⟨S64x32, .f32⟩
  | 64 => ⟨S64x32, .f32⟩
  | 65 => ⟨S64x1, .f32⟩
  | 66 => ⟨S1x1, .f32⟩
  | 67 => ⟨S64x1, .f32⟩
  | 68 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_c : Ref sig .tc := ⟨.hbm, 22, rfl⟩
abbrev main_v8 : Ref sig .tc := ⟨.hbm, 23, rfl⟩
abbrev main_v9 : Ref sig .tc := ⟨.hbm, 24, rfl⟩
abbrev main_c_0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v19 : Ref sig .tc := ⟨.hbm, 40, rfl⟩
abbrev main_c_4 : Ref sig .tc := ⟨.hbm, 41, rfl⟩
abbrev main_v20 : Ref sig .tc := ⟨.hbm, 42, rfl⟩
abbrev main_v21 : Ref sig .tc := ⟨.hbm, 43, rfl⟩
abbrev main_c_5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_c_6 : Ref sig .tc := ⟨.hbm, 50, rfl⟩
abbrev main_v27 : Ref sig .tc := ⟨.hbm, 51, rfl⟩
abbrev main_v28 : Ref sig .tc := ⟨.hbm, 52, rfl⟩
abbrev main_c_7 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_8 : Ref sig .tc := ⟨.hbm, 61, rfl⟩
abbrev main_v36 : Ref sig .tc := ⟨.hbm, 62, rfl⟩
abbrev main_v37 : Ref sig .tc := ⟨.hbm, 63, rfl⟩
abbrev main_c_9 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_c_11 : Ref sig .tc := ⟨.hbm, 75, rfl⟩
abbrev main_v47 : Ref sig .tc := ⟨.hbm, 76, rfl⟩
abbrev main_v48 : Ref sig .tc := ⟨.hbm, 77, rfl⟩
abbrev main_c_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call1_cst : Ref sig .tc := ⟨.hbm, 87, rfl⟩
abbrev main_call1_v0 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_13 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_16 : Ref sig .tc := ⟨.hbm, 103, rfl⟩
abbrev main_v68 : Ref sig .tc := ⟨.hbm, 104, rfl⟩
abbrev main_v69 : Ref sig .tc := ⟨.hbm, 105, rfl⟩
abbrev main_cst_17 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_18 : Ref sig .tc := ⟨.hbm, 110, rfl⟩
abbrev main_call2_v0 : Ref sig .tc := ⟨.hbm, 111, rfl⟩
abbrev main_call2_v1 : Ref sig .tc := ⟨.hbm, 112, rfl⟩
abbrev main_v73 : Ref sig .tc := ⟨.hbm, 113, rfl⟩
abbrev main_c_19 : Ref sig .tc := ⟨.hbm, 114, rfl⟩
abbrev main_v74 : Ref sig .tc := ⟨.hbm, 115, rfl⟩
abbrev main_v75 : Ref sig .tc := ⟨.hbm, 116, rfl⟩
abbrev main_c_20 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_c_21 : Ref sig .tc := ⟨.hbm, 123, rfl⟩
abbrev main_v81 : Ref sig .tc := ⟨.hbm, 124, rfl⟩
abbrev main_v82 : Ref sig .tc := ⟨.hbm, 125, rfl⟩
abbrev main_c_22 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_23 : Ref sig .tc := ⟨.hbm, 134, rfl⟩
abbrev main_v90 : Ref sig .tc := ⟨.hbm, 135, rfl⟩
abbrev main_v91 : Ref sig .tc := ⟨.hbm, 136, rfl⟩
abbrev main_c_24 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_cst_25 : Ref sig .tc := ⟨.hbm, 146, rfl⟩
abbrev main_v100 : Ref sig .tc := ⟨.hbm, 147, rfl⟩
abbrev main_c_26 : Ref sig .tc := ⟨.hbm, 148, rfl⟩
abbrev main_v101 : Ref sig .tc := ⟨.hbm, 149, rfl⟩
abbrev main_v102 : Ref sig .tc := ⟨.hbm, 150, rfl⟩
abbrev main_c_27 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_call3_cst : Ref sig .tc := ⟨.hbm, 160, rfl⟩
abbrev main_call3_v0 : Ref sig .tc := ⟨.hbm, 161, rfl⟩
abbrev main_v111 : Ref sig .tc := ⟨.hbm, 162, rfl⟩
abbrev main_cst_28 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_cst_29 : Ref sig .tc := ⟨.hbm, 167, rfl⟩
abbrev main_v115 : Ref sig .tc := ⟨.hbm, 168, rfl⟩
abbrev main_cst_30 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_31 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_call4_cst : Ref sig .tc := ⟨.hbm, 183, rfl⟩
abbrev main_call4_v0 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_call5_cst : Ref sig .tc := ⟨.hbm, 190, rfl⟩
abbrev main_call5_v0 : Ref sig .tc := ⟨.hbm, 191, rfl⟩
abbrev main_v133 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  concatenates_S640000_S50000_S690000_d0 : Shape.Concatenates [S640000, S50000] S690000 0
  bcast_S_S50000 : S_.BroadcastsInDim S50000 (![] : Fin 0 → Fin S50000.rank)
  bcast_S_S690000 : S_.BroadcastsInDim S690000 (![] : Fin 0 → Fin S690000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x128_S128x128_S50000x128_1_0_0_1_n_n_wf : DotDims.WF S50000x128 S128x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x64_S64x64_1_0_0_1_n_n_wf : DotDims.WF S64x128 S128x64 S64x64 [1] [0] [0] [1] [] []
  dot_S64x64_S64x32_S64x32_1_0_0_1_n_n_wf : DotDims.WF S64x64 S64x32 S64x32 [1] [0] [0] [1] [] []
  dot_S64x32_S32x1_S64x1_1_0_0_1_n_n_wf : DotDims.WF S64x32 S32x1 S64x1 [1] [0] [0] [1] [] []

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x1_S64x1_1_0_0_1_n_n : DotDims S64x32 S32x1 S64x1 where
  lhsContracting := [1]
  rhsContracting := [0]
  lhsNonContracting := [0]
  rhsNonContracting := [1]
  lhsBatch := []
  rhsBatch := []
  wf := dot_S64x32_S32x1_S64x1_1_0_0_1_n_n_wf

class Facts : Prop extends Facts₀ where

variable [Facts]
-- ==== Proof.K.Reg0.lean ====
/- REGION 0 of the kernel program, the row-blocked product x·W of the first layer (pipeline 0), at the contents `V` the region is entered with: each window's block at a point, what the body leaves in the output window's buffer, the body's triple, the pipeline's proof data and the body obligation, at any float instance. -/
import proofs.«420645_j83519934038548_2_alg».proof.Proof.Gen.Kernel.Launch
import proofs.«420645_j83519934038548_2_alg».proof.Proof.Gen.Kernel.Skeleton
import proofs.«420645_j83519934038548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every statement below is made at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S10000x128 := Rect.unit (s := S10000x128) ![0, 0] S10000x128.size inb_S10000x128_S10000x128_0_0

/-! ## What the body leaves in the output window's buffer -/

/-- Window 2's staging buffer after the body, from the input windows' blocks: its one store as a piece, the
    stored value the product of the row block of x with W, over what the loads read. -/
def out0_2 (x0 : Vec F S10000x128 .f32) (x1 : Vec F S128x128 .f32) : Vec F S10000x128 .f32 :=
  View.canon [⟨r0_2, k0_pay1 (View.ld x0 r0_0) (View.ld x1 r0_1)⟩]

/-- The store tiles the buffer (checked by evaluation), so it covers it. -/
theorem cover0_2 (p0 : Vec F S10000x128 .f32) (y : S10000x128.Idx) :
    ∃ pc ∈ ([⟨r0_2, p0⟩] : List (View.Piece (Elt F) S10000x128 .f32)), y ∈ pc.1.set :=
  View.cover_of_tiled [⟨r0_2, p0⟩] S10000x128.size (by rfl) y

/-! ## The body's triple -/

set_option maxHeartbeats 1000000 in
/-- The kernel body on whole staging memrefs, the inputs' at read contents `xW` and the output's at anything, runs
    to the continuation holding the inputs' as they were and the output's at `out0_2` of the inputs': the
    function is its loads followed by its one store, run operation by operation; the load of the output buffer
    ahead of its store reads and leaves whatever is there, and the store's pieces cover the buffer. -/
theorem sound_kernel0 (c : Dev nD) (E : Set ℕ) (i : grid0.Coords) (arg0 : Memref sig .tc .vmem S10000x128 .f32) (harg0 : arg0.IsWhole) (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Gen

end
-- ==== Proof.K.Reg1.lean ====
/- REGION 1 of the kernel program, the row-blocked product h·W of the second layer (pipeline 1), at the contents `V` the region is entered with: each window's block at a point, what the body leaves in the output window's buffer, the body's triple, the pipeline's proof data and the body obligation, at any float instance. -/
import proofs.«420645_j83519934038548_2_alg».proof.Proof.Gen.Kernel.Launch
import proofs.«420645_j83519934038548_2_alg».proof.Proof.Gen.Kernel.Skeleton
import proofs.«420645_j83519934038548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every statement below is made at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S10000x128 := Rect.unit (s := S10000x128) ![0, 0] S10000x128.size inb_S10000x128_S10000x128_0_0
abbrev r1_1 : Rect S128x128 := Rect.unit (s := S128x128) ![0, 0] S128x128.size inb_S128x128_S128x128_0_0
abbrev r1_2 : Rect S10000x128 := Rect.unit (s := S10000x128) ![0, 0] S10000x128.size inb_S10000x128_S10000x128_0_0

/-! ## What the body leaves in the output window's buffer -/

/-- Window 2's staging buffer after the body, from the input windows' blocks: its one store as a piece, the
    stored value the product of the row block of h with W, over what the loads read. -/
def out1_2 (x0 : Vec F S10000x128 .f32) (x1 : Vec F S128x128 .f32) : Vec F S10000x128 .f32 :=
  View.canon [⟨r1_2, k1_pay1 (View.ld x0 r1_0) (View.ld x1 r1_1)⟩]

/-- The store tiles the buffer (checked by evaluation), so it covers it. -/
theorem cover1_2 (p0 : Vec F S10000x128 .f32) (y : S10000x128.Idx) :
    ∃ pc ∈ ([⟨r1_2, p0⟩] : List (View.Piece (Elt F) S10000x128 .f32)), y ∈ pc.1.set :=
  View.cover_of_tiled [⟨r1_2, p0⟩] S10000x128.size (by rfl) y

/-! ## The body's triple -/

set_option maxHeartbeats 1000000 in
/-- The kernel body on whole staging memrefs, the inputs' at read contents `xW` and the output's at anything, runs
    to the continuation holding the inputs' as they were and the output's at `out1_2` of the inputs': the
    function is its loads followed by its one store, run operation by operation; the load of the output buffer
    ahead of its store reads and leaves whatever is there, and the store's pieces cover the buffer. -/
theorem sound_kernel1 (c : Dev nD) (E : Set ℕ) (i : grid1.Coords) (arg0 : Memref sig .tc .vmem S10000x128 .f32) (harg0 : arg0.IsWhole) (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__matmul_kernel i arg0 harg0 arg1 harg1 arg2 harg2) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point
    `t` each input's buffer at its block and the output's at `out1_2` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.K.Reg2.lean ====
import proofs.«420645_j83519934038548_2_alg».proof.Proof.Gen.Kernel.Launch
import proofs.«420645_j83519934038548_2_alg».proof.Proof.Gen.Kernel.Skeleton
import proofs.«420645_j83519934038548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

/-! # The pooled sum: a scratch accumulator carried over the five row blocks

The body zeroes the accumulator at the first block, adds the product of the transposed one-hot
block with the feature block at every block, and copies the accumulator to the output block at
the last. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks and the accumulator -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point n: the partial pooled sum over blocks 0 … n, from zero. -/
def acc2 (c : Dev nD) : ℕ → Vec F S64x128 .f32
  | 0 => k2_pay2 (iblk2 V c 0 t2_0) (iblk2 V c 1 t2_0) (k2_pay1 (F := F))
  | n + 1 => if h : n + 1 < cfg2.N then k2_pay2 (iblk2 V c 0 ⟨n + 1, h⟩) (iblk2 V c 1 ⟨n + 1, h⟩) (acc2 c n) else acc2 c n

theorem acc2_zero (c : Dev nD) :
    acc2 V c 0 = k2_pay2 (iblk2 V c 0 t2_0) (iblk2 V c 1 t2_0) (k2_pay1 (F := F)) := rfl

theorem acc2_succ (c : Dev nD) (n : ℕ) (h : n + 1 < cfg2.N) :
    acc2 V c (n + 1) = k2_pay2 (iblk2 V c 0 ⟨n + 1, h⟩) (iblk2 V c 1 ⟨n + 1, h⟩) (acc2 V c n) := by
  show (if h : n + 1 < cfg2.N then _ else _) = _
  rw [dif_pos h]

/-! ## The invariant -/

/-- The accumulator as a whole memref. -/
abbrev scM2 : Memref sig .tc .vmem S64x128 .f32 := Memref.whole cc2_scratch0

/-- What the body never touches: every scoped buffer but the accumulator and this call's staging
    buffers, at some contents each, and the generator register at some state. -/
def rest2 (c : Dev nD) : sProp 𝕄 :=
  iprop(Pipeline.scopedRestBut (Ix := Unit) (Name := ℕ) (U := UR sig nD τ) (Lvl := ℕ) (Val := Elt F) spec2 c [cc2_scratch0] ∗ ∃ r, prngReg c r)

/-- Before the first point the accumulator holds anything; after point n it holds the partial sum
    through n. -/
def PhiS2 (c : Dev nD) : ℕ → sProp 𝕄
  | 0 => Pipeline.ΦA spec2 c
  | n + 1 => iprop(owns (c : Thread nD τ) scM2 fullShare (acc2 V c n) ∗ rest2 (F := F) c)

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val
  Φ t := PhiS2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val := by dsimp only [dat2]

/-! ## The two conditions of the body, in closed form over the grid -/

/-- The first condition of the body (the point is the first), from the grid coordinates. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val = 0 :=
  (by decide +kernel : ∀ t : Fin grid2.N, cond2_0 (grid2.coords t) ↔ t.val = 0)
/-- The second condition of the body (the point is the last), from the grid coordinates. -/
abbrev cond2_1 (i : grid2.Coords) : Prop := k2_cond2 i = 1#1
/-- It holds at point 4 only. -/
theorem hcond2_1 : ∀ t : Fin cfg2.N, cond2_1 (grid2.coords t) ↔ t.val = 4 :=
  (by decide +kernel : ∀ t : Fin grid2.N, cond2_1 (grid2.coords t) ↔ t.val = 4)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last point the output block is idle, -/
theorem idleAt2_2 : ∀ t : Fin cfg2.N, ¬cond2_1 (grid2.coords t) → cfg2.idle 2 (grid2.coords t) = true := by decide +kernel
/-- and is not written back; -/
theorem noFlush2_2 : ∀ t : Fin cfg2.N, ¬cond2_1 (grid2.coords t) → (cfg2.win 2).flush t = false := by decide +kernel
/-- at the last point it is live. -/
theorem liveAt2_2 : ∀ t : Fin cfg2.N, cond2_1 (grid2.coords t) → cfg2.idle 2 (grid2.coords t) = false := by decide +kernel

/-- The whole-block rectangle's offsets are zero. -/
theorem hz2 : (![0, 0] : Fin 2 → ℕ) = fun _ => 0 := by funext a; fin_cases a <;> rfl

/-! ## The body on any whole memrefs, case by case -/

/-- The one whole-block piece covers the block. -/
theorem cover1 (w : S64x128.Idx → Elt F .f32) (y : S64x128.Idx) :
    ∃ p ∈ [(⟨Rect.unit ![0, 0] S64x128.size inb_S64x128_S64x128_0_0, w⟩ : View.Piece (Elt F) S64x128 .f32)], y ∈ p.1.set :=
  ⟨_, List.mem_singleton_self _, View.mem_set_unit_zero hz2 inb_S64x128_S64x128_0_0 y⟩

/-- So does the later of two. -/
theorem cover2 (w w' : S64x128.Idx → Elt F .f32) (y : S64x128.Idx) :
    ∃ p ∈ [(⟨Rect.unit ![0, 0] S64x128.size inb_S64x128_S64x128_0_0, w⟩ : View.Piece (Elt F) S64x128 .f32), ⟨Rect.unit ![0, 0] S64x128.size inb_S64x128_S64x128_0_0, w'⟩], y ∈ p.1.set :=
  ⟨_, List.mem_cons_self, View.mem_set_unit_zero hz2 inb_S64x128_S64x128_0_0 y⟩

set_option maxHeartbeats 1000000 in
/-- A middle point: the accumulator at xs becomes the block's product added to xs; the output block is untouched. -/
theorem run2_B (c : Dev nD) (i : grid2.Coords) (arg1 : Memref sig .tc .vmem S10000x128 .f32) (harg1 : arg1.IsWhole) (arg2 : Memref sig .tc .vmem S10000x64 .bf16) (harg2 : arg2.IsWhole) (arg3 : Memref sig .tc .vmem S64x128 .f32) (harg3 : arg3.IsWhole) (arg4 : Memref sig .tc .vmem S64x128 .f32) (harg4 : arg4.IsWhole)
    (hc0 : ¬cond2_0 i) (hc1 : ¬cond2_1 i)
    (x0 : Vec F S10000x128 .f32) (x1 : Vec F S10000x64 .bf16) (xi : Vec F S64x128 .f32) (xs : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare xi ∗ owns (c : Thread nD τ) arg4 fullShare xs
        ∗ (iprop(owns (c : Thread nD τ) arg1 fullShare x0 ∗ owns (c : Thread nD τ) arg2 fullShare x1 ∗ owns (c : Thread nD τ) arg3 fullShare xi ∗ owns (c : Thread nD τ) arg4 fullShare (k2_pay2 x0 x1 xs)) -∗ K ⟨⟩))
      ⊢ wp frame (wpE (defs₀ (F := F)) Variants.none c none) E (cc2__pool_sum_kernel i arg1 harg1 arg2 harg2 arg3 harg3 arg4 harg4) K := by
  simp only [cc2__pool_sum_kernel_eq_skeleton]; unfold cc2__pool_sum_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  rw [View.read_writes_eq_canon _ _ _ (cover1 _), View.canon_unit_zero hz2]
  simp only [View.readAt_eq_ld, harg1.read_unread, harg2.read_unread, harg4.read_unread, View.ld_unit_zero (S := S10000x128) hz2, View.ld_unit_zero (S := S10000x64) hz2, View.ld_unit_zero (S := S64x128) hz2]

set_option maxHeartbeats 1000000 in
/-- The first point: the accumulator, at anything, is zeroed and then takes the block's product; the output block is untouched. -/
theorem run2_A (c : Dev nD) (i : grid2.Coords) (arg1 : Memref sig .tc .vmem S10000x128 .f32) (harg1 : arg1.IsWhole) (arg2 : Memref sig .tc .vmem S10000x64 .bf16) (harg2 : arg2.IsWhole) (arg3 : Memref sig .tc .vmem S64x128 .f32) (harg3 : arg3.IsWhole) (arg4 : Memref sig .tc .vmem S64x128 .f32) (harg4 : arg4.IsWhole)
    (hc0 : cond2_0 i) (hc1 : ¬cond2_1 i)
    (x0 : Vec F S10000x128 .f32) (x1 : Vec F S10000x64 .bf16) (xi : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare xi ∗ (∃ d, owns (c : Thread nD τ) arg4 fullShare d)
        ∗ (iprop(owns (c : Thread nD τ) arg1 fullShare x0 ∗ owns (c : Thread nD τ) arg2 fullShare x1 ∗ owns (c : Thread nD τ) arg3 fullShare xi ∗ owns (c : Thread nD τ) arg4 fullShare (k2_pay2 x0 x1 (k2_pay1 (F := F)))) -∗ K ⟨⟩))
      ⊢ wp frame (wpE (defs₀ (F := F)) Variants.none c none) E (cc2__pool_sum_kernel i arg1 harg1 arg2 harg2 arg3 harg3 arg4 harg4) K := by
  simp only [cc2__pool_sum_kernel_eq_skeleton]; unfold cc2__pool_sum_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  sl_unfold_words
  rw [View.read_writes_eq_canon _ _ _ (cover2 _ _), View.canon_cons_unit_zero hz2]
  simp only [View.readAt_eq_ld, harg1.read_unread, harg2.read_unread, View.ld_unit_zero (S := S10000x128) hz2, View.ld_unit_zero (S := S10000x64) hz2, View.readCov_unit_zero (S := S64x128) _ hz2]

set_option maxHeartbeats 1000000 in
/-- The last point: the accumulator at xs takes the block's product, and the output block, at anything, takes the accumulator. -/
theorem run2_C (c : Dev nD) (i : grid2.Coords) (arg1 : Memref sig .tc .vmem S10000x128 .f32) (harg1 : arg1.IsWhole) (arg2 : Memref sig .tc .vmem S10000x64 .bf16) (harg2 : arg2.IsWhole) (arg3 : Memref sig .tc .vmem S64x128 .f32) (harg3 : arg3.IsWhole) (arg4 : Memref sig .tc .vmem S64x128 .f32) (harg4 : arg4.IsWhole)
    (hc0 : ¬cond2_0 i) (hc1 : cond2_1 i)
    (x0 : Vec F S10000x128 .f32) (x1 : Vec F S10000x64 .bf16) (xs : Vec F S64x128 .f32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k2_pay2 x0 x1 xs) ∗ owns (c : Thread nD τ) arg4 fullShare (k2_pay2 x0 x1 xs)) -∗ K ⟨⟩))
      ⊢ wp frame (wpE (defs₀ (F := F)) Variants.none c none) E (cc2__pool_sum_kernel i arg1 harg1 arg2 harg2 arg3 harg3 arg4 harg4) K := by
  simp only [cc2__pool_sum_kernel_eq_skeleton]; unfold cc2__pool_sum_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [View.read_writes_eq_canon _ _ _ (cover1 _), View.canon_unit_zero hz2]
    simp only [View.readAt_eq_ld, harg1.read_unread, harg2.read_unread, harg4.read_unread, View.ld_unit_zero (S := S10000x128) hz2, View.ld_unit_zero (S := S10000x64) hz2, View.ld_unit_zero (S := S64x128) hz2, View.readCov_unit_zero (S := S64x128) _ hz2]
  iexists _; isplitr
  swap; · iexact HS
  ipureintro
  sl_unfold_words
  rw [View.read_writes_eq_canon _ _ _ (cover1 _), View.canon_unit_zero hz2]
  simp only [View.readAt_eq_ld, harg1.read_unread, harg2.read_unread, harg4.read_unread, View.ld_unit_zero (S := S10000x128) hz2, View.ld_unit_zero (S := S10000x64) hz2, View.ld_unit_zero (S := S64x128) hz2]

/-! ## The invariant, opened -/

/-- Before the first point: the accumulator at anything, beside what the body never touches. -/
theorem PhiA2_eq (c : Dev nD) :
    (Pipeline.ΦA spec2 c : sProp 𝕄) = iprop((∃ d, owns (c : Thread nD τ) scM2 fullShare d) ∗ rest2 (F := F) c) := by
  unfold Pipeline.ΦA rest2
  rw [Pipeline.scopedRest_split_of_list spec2 c [cc2_scratch0] (by decide) (by decide)]
  simp only [bigSepL_singleton, scM2, owns_whole]
  exact equiv_iff.mp ⟨BI.sep_assoc, BI.sep_assoc'⟩

theorem PhiS2_zero (c : Dev nD) (n : ℕ) (hz : n = 0) : PhiS2 V c n = Pipeline.ΦA spec2 c := by
  subst hz; rfl

theorem PhiS2_succ (c : Dev nD) (n : ℕ) :
    PhiS2 V c (n + 1) = iprop(owns (c : Thread nD τ) scM2 fullShare (acc2 V c n) ∗ rest2 (F := F) c) := rfl

theorem PhiS2_pos (c : Dev nD) (n : ℕ) (hz : n ≠ 0) :
    PhiS2 V c n = iprop(owns (c : Thread nD τ) scM2 fullShare (acc2 V c (n - 1)) ∗ rest2 (F := F) c) := by
  cases n with
  | zero => exact absurd rfl hz
  | succ n => rfl

theorem Phi2_castSucc (c : Dev nD) (t : Fin cfg2.N) : (dat2 V c).Φ t.castSucc = PhiS2 V c t.val := by
  dsimp only [dat2]; simp only [Fin.coe_castSucc]

theorem Phi2_succ (c : Dev nD) (t : Fin cfg2.N) : (dat2 V c).Φ t.succ = PhiS2 V c (t.val + 1) := by
  dsimp only [dat2]; simp only [Fin.val_succ]

/-- The accumulator after the first point: the first block's product over zero. -/
theorem acc2_first (c : Dev nD) (t : Fin cfg2.N) (h : t.val = 0) :
    acc2 V c t.val = k2_pay2 (iblk2 V c 0 t) (iblk2 V c 1 t) (k2_pay1 (F := F)) := by
  obtain ⟨n, hn⟩ := t
  dsimp only at h; subst h; rfl

/-- The accumulator after a later point: that block's product over the accumulator before. -/
theorem acc2_next (c : Dev nD) (t : Fin cfg2.N) (h : t.val ≠ 0) :
    acc2 V c t.val = k2_pay2 (iblk2 V c 0 t) (iblk2 V c 1 t) (acc2 V c (t.val - 1)) := by
  obtain ⟨n, hn⟩ := t
  cases n with
  | zero => exact absurd rfl h
  | succ n => exact acc2_succ V c n hn

/-! ## What the body finds in the inputs' buffers -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-! ## The body obligation, at a generic point -/

/-- Each window's current staging memref at point t, and its wholeness. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x128 .f32 := win2_2.stage (cfg2.slots t 2)
abbrev hs2_2 (t : Fin cfg2.N) : (ms2_2 t).IsWhole := hstage2_2 ((cfg2.slots t 2).cast nbuf2_2)

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; the closed forms of the two conditions say which
    of the three cases the point is in; the invariant hands the body the accumulator at what the point before left
    (at anything at the first point) and takes it back at this point's partial sum; away from the last point the
    output's buffer is handed back untouched, at the last it holds the accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [Phi2_succ, PhiS2_succ, Phi2_castSucc]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 5 := lt_of_lt_of_eq t.isLt (show cfg2.N = 5 from N_2)
  by_cases h4 : t.val = 4
  · have h0 : t.val ≠ 0 := by omega
    rw [show (dat2 V c).leavesExact 2 t = owns (c : Thread nD τ) (ms2_2 t) fullShare ((dat2 V c).after 2 t) from by
      unfold Dat.leavesExact; rw [liveAt2_2 t ((hcond2_1 t).mpr h4)], after2_2]
    rw [acc2_next V c t h0, PhiS2_pos V c _ h0]
    iintro ⟨⟨HS, Hr⟩, Ho, ⟨%d0, H0⟩, ⟨%d1, H1⟩, ⟨%d2, H2⟩⟩
    iapply (run2_C c (grid2.coords t) _ _ _ _ _ _ _ _ (fun h => h0 ((hcond2_0 t).mp h)) ((hcond2_1 t).mpr h4) (iblk2 V c 0 t) (iblk2 V c 1 t) (acc2 V c (t.val - 1)) Set.univ _)
    isplitl [H0]; · iexact H0
    isplitl [H1]; · iexact H1
    isplitl [H2]; · iexists _; iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexact H2
  · rw [Dat.leavesExact_idle (dat2 V c) 2 t (idleAt2_2 t (fun h => h4 ((hcond2_1 t).mp h))) (noFlush2_2 t (fun h => h4 ((hcond2_1 t).mp h)))]
    by_cases h0 : t.val = 0
    · rw [acc2_first V c t h0, PhiS2_zero V c _ h0, PhiA2_eq]
      iintro ⟨⟨HS, Hr⟩, Ho, ⟨%d0, H0⟩, ⟨%d1, H1⟩, ⟨%d2, H2⟩⟩
      iapply (run2_A c (grid2.coords t) _ _ _ _ _ _ _ _ ((hcond2_0 t).mpr h0) (fun h => h4 ((hcond2_1 t).mp h)) (iblk2 V c 0 t) (iblk2 V c 1 t) _ Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2
    · rw [acc2_next V c t h0, PhiS2_pos V c _ h0]
      iintro ⟨⟨HS, Hr⟩, Ho, ⟨%d0, H0⟩, ⟨%d1, H1⟩, ⟨%d2, H2⟩⟩
      iapply (run2_B c (grid2.coords t) _ _ _ _ _ _ _ _ (fun h => h0 ((hcond2_0 t).mp h)) (fun h => h4 ((hcond2_1 t).mp h)) (iblk2 V c 0 t) (iblk2 V c 1 t) _ (acc2 V c (t.val - 1)) Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 from rfl, PhiS2_zero V c 0 rfl]
  try exact Idealize.SL.BI.Entails.refl _

/-- After the last point the invariant gives it back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val from rfl,
    PhiS2_pos V c _ (by rw [Fin.val_last]; have : cfg2.N = 5 := N_2; omega), PhiA2_eq]
  iintro ⟨HS, Hr⟩
  isplitl [HS]
  · iexists _; iexact HS
  iexact Hr

end Cert.Kernel.Gen

end
-- ==== Proof.K.Reg3.lean ====
/- REGION 3 of the kernel program, the three-layer perceptron on the pooled sums (pipeline 3, a grid of one point), at the contents `V` the region is entered with: each window's block, what the body leaves in the output window's buffer, the body's triple, the pipeline's proof data and the body obligation, at any float instance. -/
import proofs.«420645_j83519934038548_2_alg».proof.Proof.Gen.Kernel.Launch
import proofs.«420645_j83519934038548_2_alg».proof.Proof.Gen.Kernel.Skeleton
import proofs.«420645_j83519934038548_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every statement below is made at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s and whose body leaves the block in place: unfetched, the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S64x128 := Rect.unit (s := S64x128) ![0, 0] S64x128.size inb_S64x128_S64x128_0_0
abbrev r3_1 : Rect S128x64 := Rect.unit (s := S128x64) ![0, 0] S128x64.size inb_S128x64_S128x64_0_0
abbrev r3_2 : Rect S1x64 := Rect.unit (s := S1x64) ![0, 0] S1x64.size inb_S1x64_S1x64_0_0
abbrev r3_3 : Rect S64x32 := Rect.unit (s := S64x32) ![0, 0] S64x32.size inb_S64x32_S64x32_0_0
abbrev r3_4 : Rect S1x32 := Rect.unit (s := S1x32) ![0, 0] S1x32.size inb_S1x32_S1x32_0_0
abbrev r3_5 : Rect S32x1 := Rect.unit (s := S32x1) ![0, 0] S32x1.size inb_S32x1_S32x1_0_0
abbrev r3_6 : Rect S1x1 := Rect.unit (s := S1x1) ![0, 0] S1x1.size inb_S1x1_S1x1_0_0
abbrev r3_7 : Rect S64x1 := Rect.unit (s := S64x1) ![0, 0] S64x1.size inb_S64x1_S64x1_0_0

/-! ## What the body leaves in the output window's buffer -/

/-- Window 7's staging buffer after the body, from the input windows' blocks: its one store as a piece, the
    stored value the three-layer perceptron's output on the pooled block, over what the loads read. -/
def out3_7 (x0 : Vec F S64x128 .f32) (x1 : Vec F S128x64 .f32) (x2 : Vec F S1x64 .f32) (x3 : Vec F S64x32 .f32) (x4 : Vec F S1x32 .f32) (x5 : Vec F S32x1 .f32) (x6 : Vec F S1x1 .f32) : Vec F S64x1 .f32 :=
  View.canon [⟨r3_7, k3_pay1 (View.ld x0 r3_0) (View.ld x1 r3_1) (View.ld x2 r3_2) (View.ld x3 r3_3) (View.ld x4 r3_4) (View.ld x5 r3_5) (View.ld x6 r3_6)⟩]

/-- The store tiles the buffer (checked by evaluation), so it covers it. -/
theorem cover3_7 (p0 : Vec F S64x1 .f32) (y : S64x1.Idx) :
    ∃ pc ∈ ([⟨r3_7, p0⟩] : List (View.Piece (Elt F) S64x1 .f32)), y ∈ pc.1.set :=
  View.cover_of_tiled [⟨r3_7, p0⟩] S64x1.size (by rfl) y

/-! ## The body's triple -/

set_option maxHeartbeats 1000000 in
/-- The kernel body on whole staging memrefs, the inputs' at read contents `xW` and the output's at anything, runs
    to the continuation holding the inputs' as they were and the output's at `out3_7` of the inputs': the
    function is its loads followed by its one store, run operation by operation; the load of the output buffer
    ahead of its store reads and leaves whatever is there, and the store's pieces cover the buffer. -/
theorem sound_kernel3 (c : Dev nD) (E : Set ℕ) (i : grid3.Coords) (arg0 : Memref sig .tc .vmem S64x128 .f32) (harg0 : arg0.IsWhole) (arg1 : Memref sig .tc .vmem S128x64 .f32) (harg1 : arg1.IsWhole) (arg2 : Memref sig .tc .vmem S1x64 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x1 .f32) (harg5 : arg5.IsWhole) (arg6 : Memref sig .tc .vmem S1x1 .f32) (harg6 : arg6.IsWhole) (arg7 : Memref sig .tc .vmem S64x1 .f32) (harg7 : arg7.IsWhole)
    (x0 : Vec F S64x128 .f32) (x1 : Vec F S128x64 .f32) (x2 : Vec F S1x64 .f32) (x3 : Vec F S64x32 .f32) (x4 : Vec F S1x32 .f32) (x5 : Vec F S32x1 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out3_7 x0 x1 x2 x3 x4 x5 x6)) -∗ K ⟨⟩))
      ⊢ wp frame (wpE (defs₀ (F := F)) Variants.none c none) E (cc3__mlp_kernel i arg0 harg0 arg1 harg1 arg2 harg2 arg3 harg3 arg4 harg4 arg5 harg5 arg6 harg6 arg7 harg7) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at point
    `t` each input's buffer at its block and the output's at `out3_7` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so the body's triple applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.K.Run.lean ====
import proofs.«420645_j83519934038548_2_alg».proof.Proof.Gen.Kernel.Regions
import proofs.«420645_j83519934038548_2_alg».proof.Proof.K.Reg0
import proofs.«420645_j83519934038548_2_alg».proof.Proof.K.Reg1
import proofs.«420645_j83519934038548_2_alg».proof.Proof.K.Reg2
import proofs.«420645_j83519934038548_2_alg».proof.Proof.K.Reg3

/-! # The run: the four regions' results one after the other, the regions as segments, the launch

Between two items of the program every unscoped buffer of a core holds a known value. A host
stretch moves the values by its operations; a region replaces the value of its one output array
by what its write-backs leave and keeps every other buffer. The values are built here region
after region, each from the ones before it, and the launch of the segments then gives at once
the value of the result buffer and the arguments unchanged. -/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The values between the items, region after region -/

/-- Region 0 is entered from the launch values moved by the first three host stretches. -/
abbrev E0 : (c : Dev nD) → (b : Ref sig .tc) → Buf (Elt F) ((c : Thread nD τ).loc b) := fun c b => V3 m c b

/-- What region 0 leaves: its arrays at what the write-backs leave, every other buffer as entered. -/
def o4 (r : Ref sig .tc) (c : Dev nD) : Buf (Elt F) ((c : Thread nD τ).loc r) :=
  Pipeline.withArrays spec0 c (V3 m c) (fun w => (dat0 (E0 m) c).arrAt w cfg0.N) (Proc.devRef .tc r)

abbrev U4 (c : Dev nD) : Valuation τ sig (Elt F) := Function.update (V3 m c) main_v21 (o4 m main_v21 c)
abbrev U5 (c : Dev nD) : Valuation τ sig (Elt F) := StableHlo.after hostOps1 (U4 m c)
abbrev U6 (c : Dev nD) : Valuation τ sig (Elt F) := StableHlo.after hostOps1_1 (U5 m c)
/-- Region 1's entry values. -/
abbrev E1 : (c : Dev nD) → (b : Ref sig .tc) → Buf (Elt F) ((c : Thread nD τ).loc b) := fun c b => U6 m c b

/-- What region 1 leaves. -/
def o7 (r : Ref sig .tc) (c : Dev nD) : Buf (Elt F) ((c : Thread nD τ).loc r) :=
  Pipeline.withArrays spec1 c (U6 m c) (fun w => (dat1 (E1 m) c).arrAt w cfg1.N) (Proc.devRef .tc r)

abbrev U7 (c : Dev nD) : Valuation τ sig (Elt F) := Function.update (U6 m c) main_v45 (o7 m main_v45 c)
abbrev U8 (c : Dev nD) : Valuation τ sig (Elt F) := StableHlo.after hostOps2 (U7 m c)
abbrev U9 (c : Dev nD) : Valuation τ sig (Elt F) := StableHlo.after hostOps2_1 (U8 m c)
abbrev U10 (c : Dev nD) : Valuation τ sig (Elt F) := StableHlo.after hostOps2_2 (U9 m c)
/-- Region 2's entry values. -/
abbrev E2 : (c : Dev nD) → (b : Ref sig .tc) → Buf (Elt F) ((c : Thread nD τ).loc b) := fun c b => U10 m c b

/-- What region 2 leaves. -/
def o11 (r : Ref sig .tc) (c : Dev nD) : Buf (Elt F) ((c : Thread nD τ).loc r) :=
  Pipeline.withArrays spec2 c (U10 m c) (fun w => (dat2 (E2 m) c).arrAt w cfg2.N) (Proc.devRef .tc r)

abbrev U11 (c : Dev nD) : Valuation τ sig (Elt F) := Function.update (U10 m c) main_v76 (o11 m main_v76 c)
abbrev U12 (c : Dev nD) : Valuation τ sig (Elt F) := StableHlo.after hostOps3 (U11 m c)
/-- Region 3's entry values. -/
abbrev E3 : (c : Dev nD) → (b : Ref sig .tc) → Buf (Elt F) ((c : Thread nD τ).loc b) := fun c b => U12 m c b

/-- What region 3 leaves. -/
def o13 (r : Ref sig .tc) (c : Dev nD) : Buf (Elt F) ((c : Thread nD τ).loc r) :=
  Pipeline.withArrays spec3 c (U12 m c) (fun w => (dat3 (E3 m) c).arrAt w cfg3.N) (Proc.devRef .tc r)

abbrev U13 (c : Dev nD) : Valuation τ sig (Elt F) := Function.update (U12 m c) main_v87 (o13 m main_v87 c)

/-- What the four regions leave in their output arrays, by the item after which it is read. -/
def outs : Outs (F := F) := fun j => match j with
  | 4 => o4 m
  | 7 => o7 m
  | 11 => o11 m
  | 13 => o13 m
  | _ => o4 m

theorem V4_eq (c : Dev nD) : V4 m (outs m) c = U4 m c := rfl
theorem V6_eq (c : Dev nD) : V6 m (outs m) c = U6 m c := rfl
theorem V7_eq (c : Dev nD) : V7 m (outs m) c = U7 m c := rfl
theorem V10_eq (c : Dev nD) : V10 m (outs m) c = U10 m c := rfl
theorem V11_eq (c : Dev nD) : V11 m (outs m) c = U11 m c := rfl
theorem V12_eq (c : Dev nD) : V12 m (outs m) c = U12 m c := rfl
theorem V13_eq (c : Dev nD) : V13 m (outs m) c = U13 m c := rfl

/-! ## Each region's output array ends at what its write-backs leave -/

theorem out0_eq (c : Dev nD) : V4 m (outs m) c main_v21 = (dat0 (fun c b => V3 m c b) c).arrAt 2 cfg0.N := by
  show Function.update (V3 m c) (Proc.devRef .tc main_v21) (o4 m main_v21 c) (Proc.devRef .tc main_v21) = (dat0 (E0 m) c).arrAt 2 cfg0.N
  rw [Function.update_self]
  exact Pipeline.withArrays_arr spec0 launch0.win.arr_inj c _ _ 2

theorem out1_eq (c : Dev nD) : V7 m (outs m) c main_v45 = (dat1 (fun c b => V6 m (outs m) c b) c).arrAt 2 cfg1.N := by
  show Function.update (U6 m c) (Proc.devRef .tc main_v45) (o7 m main_v45 c) (Proc.devRef .tc main_v45) = (dat1 (E1 m) c).arrAt 2 cfg1.N
  rw [Function.update_self]
  exact Pipeline.withArrays_arr spec1 launch1.win.arr_inj c _ _ 2

theorem out2_eq (c : Dev nD) : V11 m (outs m) c main_v76 = (dat2 (fun c b => V10 m (outs m) c b) c).arrAt 2 cfg2.N := by
  show Function.update (U10 m c) (Proc.devRef .tc main_v76) (o11 m main_v76 c) (Proc.devRef .tc main_v76) = (dat2 (E2 m) c).arrAt 2 cfg2.N
  rw [Function.update_self]
  exact Pipeline.withArrays_arr spec2 launch2.win.arr_inj c _ _ 2

theorem out3_eq (c : Dev nD) : V13 m (outs m) c main_v87 = (dat3 (fun c b => V12 m (outs m) c b) c).arrAt 7 cfg3.N := by
  show Function.update (U12 m c) (Proc.devRef .tc main_v87) (o13 m main_v87 c) (Proc.devRef .tc main_v87) = (dat3 (E3 m) c).arrAt 7 cfg3.N
  rw [Function.update_self]
  exact Pipeline.withArrays_arr spec3 launch3.win.arr_inj c _ _ 7

/-! ## The two facts that put a region's arrays back among the unscoped buffers -/

/-- Region 0's entry and exit values read at the TensorCore's references. -/
abbrev N0 : (c : Dev nD) → (b : Ref sig .tc) → Buf (Elt F) ((c : Thread nD τ).loc b) := fun c b => V3 m c b
abbrev X0 : (c : Dev nD) → (b : Ref sig .tc) → Buf (Elt F) ((c : Thread nD τ).loc b) := fun c b => V4 m (outs m) c b
/-- At region 0's exit each of its arrays holds what the pipeline leaves: an input is never written back, so it
    holds its entry value, which the exit value keeps; the output is the one buffer the exit value replaces. -/
theorem hF0 (c : Dev nD) : ∀ w : Fin cfg0.W, (dat0 (N0 m) c).arrAt w cfg0.N = X0 m c (Pipeline.arrRef spec0 w)
  | ⟨0, _⟩ => (((dat0 (N0 m) c).arrAt_in 0 rfl _).trans (A_eq0 (N0 m) c 0)).trans (V4_of m (outs m) c main_arg0 (by decide)).symm
  | ⟨1, _⟩ => (((dat0 (N0 m) c).arrAt_in 1 rfl _).trans (A_eq0 (N0 m) c 1)).trans (V4_of m (outs m) c main_arg3 (by decide)).symm
  | ⟨2, _⟩ => (out0_eq m c).symm
  | ⟨_ + 3, h⟩ => absurd h (Nat.not_lt.2 (Nat.le_add_left _ _))
/-- Off the region's arrays the exit value is the entry value: only the output array is replaced. -/
theorem hrest0 (c : Dev nD) : ∀ b, b ∉ Finset.univ.image (Pipeline.arrRef spec0) → X0 m c b = N0 m c b :=
  fun b hb => V4_of m (outs m) c b fun h => hb (Finset.mem_image.mpr ⟨2, Finset.mem_univ _, (List.mem_singleton.mp h).symm⟩)

/-- Region 1's entry and exit values read at the TensorCore's references. -/
abbrev N1 : (c : Dev nD) → (b : Ref sig .tc) → Buf (Elt F) ((c : Thread nD τ).loc b) := fun c b => V6 m (outs m) c b
abbrev X1 : (c : Dev nD) → (b : Ref sig .tc) → Buf (Elt F) ((c : Thread nD τ).loc b) := fun c b => V7 m (outs m) c b
/-- At region 1's exit each of its arrays holds what the pipeline leaves: an input is never written back, so it
    holds its entry value, which the exit value keeps; the output is the one buffer the exit value replaces. -/
theorem hF1 (c : Dev nD) : ∀ w : Fin cfg1.W, (dat1 (N1 m) c).arrAt w cfg1.N = X1 m c (Pipeline.arrRef spec1 w)
  | ⟨0, _⟩ => (((dat1 (N1 m) c).arrAt_in 0 rfl _).trans (A_eq1 (N1 m) c 0)).trans (V7_of m (outs m) c main_v44 (by decide)).symm
  | ⟨1, _⟩ => (((dat1 (N1 m) c).arrAt_in 1 rfl _).trans (A_eq1 (N1 m) c 1)).trans (V7_of m (outs m) c main_arg5 (by decide)).symm
  | ⟨2, _⟩ => (out1_eq m c).symm
  | ⟨_ + 3, h⟩ => absurd h (Nat.not_lt.2 (Nat.le_add_left _ _))
/-- Off the region's arrays the exit value is the entry value: only the output array is replaced. -/
theorem hrest1 (c : Dev nD) : ∀ b, b ∉ Finset.univ.image (Pipeline.arrRef spec1) → X1 m c b = N1 m c b :=
  fun b hb => V7_of m (outs m) c b fun h => hb (Finset.mem_image.mpr ⟨2, Finset.mem_univ _, (List.mem_singleton.mp h).symm⟩)

/-- Region 2's entry and exit values read at the TensorCore's references. -/
abbrev N2 : (c : Dev nD) → (b : Ref sig .tc) → Buf (Elt F) ((c : Thread nD τ).loc b) := fun c b => V10 m (outs m) c b
abbrev X2 : (c : Dev nD) → (b : Ref sig .tc) → Buf (Elt F) ((c : Thread nD τ).loc b) := fun c b => V11 m (outs m) c b
/-- At region 2's exit each of its arrays holds what the pipeline leaves: an input is never written back, so it
    holds its entry value, which the exit value keeps; the output is the one buffer the exit value replaces. -/
theorem hF2 (c : Dev nD) : ∀ w : Fin cfg2.W, (dat2 (N2 m) c).arrAt w cfg2.N = X2 m c (Pipeline.arrRef spec2 w)
  | ⟨0, _⟩ => (((dat2 (N2 m) c).arrAt_in 0 rfl _).trans (A_eq2 (N2 m) c 0)).trans (V11_of m (outs m) c main_v68 (by decide)).symm
  | ⟨1, _⟩ => (((dat2 (N2 m) c).arrAt_in 1 rfl _).trans (A_eq2 (N2 m) c 1)).trans (V11_of m (outs m) c main_v75 (by decide)).symm
  | ⟨2, _⟩ => (out2_eq m c).symm
  | ⟨_ + 3, h⟩ => absurd h (Nat.not_lt.2 (Nat.le_add_left _ _))
/-- Off the region's arrays the exit value is the entry value: only the output array is replaced. -/
theorem hrest2 (c : Dev nD) : ∀ b, b ∉ Finset.univ.image (Pipeline.arrRef spec2) → X2 m c b = N2 m c b :=
  fun b hb => V11_of m (outs m) c b fun h => hb (Finset.mem_image.mpr ⟨2, Finset.mem_univ _, (List.mem_singleton.mp h).symm⟩)

/-- Region 3's entry and exit values read at the TensorCore's references. -/
abbrev N3 : (c : Dev nD) → (b : Ref sig .tc) → Buf (Elt F) ((c : Thread nD τ).loc b) := fun c b => V12 m (outs m) c b
abbrev X3 : (c : Dev nD) → (b : Ref sig .tc) → Buf (Elt F) ((c : Thread nD τ).loc b) := fun c b => V13 m (outs m) c b
set_option maxHeartbeats 4000000 in
/-- At region 3's exit each of its arrays holds what the pipeline leaves: an input is never written back, so it
    holds its entry value, which the exit value keeps; the output is the one buffer the exit value replaces. -/
theorem hF3 (c : Dev nD) : ∀ w : Fin cfg3.W, (dat3 (N3 m) c).arrAt w cfg3.N = X3 m c (Pipeline.arrRef spec3 w)
  | ⟨0, _⟩ => (((dat3 (N3 m) c).arrAt_in 0 rfl _).trans (A_eq3 (N3 m) c 0)).trans (V13_of m (outs m) c main_v83 (by decide)).symm
  | ⟨1, _⟩ => (((dat3 (N3 m) c).arrAt_in 1 rfl _).trans (A_eq3 (N3 m) c 1)).trans (V13_of m (outs m) c main_arg7 (by decide)).symm
  | ⟨2, _⟩ => (((dat3 (N3 m) c).arrAt_in 2 rfl _).trans (A_eq3 (N3 m) c 2)).trans (V13_of m (outs m) c main_v84 (by decide)).symm
  | ⟨3, _⟩ => (((dat3 (N3 m) c).arrAt_in 3 rfl _).trans (A_eq3 (N3 m) c 3)).trans (V13_of m (outs m) c main_arg9 (by decide)).symm
  | ⟨4, _⟩ => (((dat3 (N3 m) c).arrAt_in 4 rfl _).trans (A_eq3 (N3 m) c 4)).trans (V13_of m (outs m) c main_v85 (by decide)).symm
  | ⟨5, _⟩ => (((dat3 (N3 m) c).arrAt_in 5 rfl _).trans (A_eq3 (N3 m) c 5)).trans (V13_of m (outs m) c main_arg11 (by decide)).symm
  | ⟨6, _⟩ => (((dat3 (N3 m) c).arrAt_in 6 rfl _).trans (A_eq3 (N3 m) c 6)).trans (V13_of m (outs m) c main_v86 (by decide)).symm
  | ⟨7, _⟩ => (out3_eq m c).symm
  | ⟨_ + 8, h⟩ => absurd h (Nat.not_lt.2 (Nat.le_add_left _ _))
/-- Off the region's arrays the exit value is the entry value: only the output array is replaced. -/
theorem hrest3 (c : Dev nD) : ∀ b, b ∉ Finset.univ.image (Pipeline.arrRef spec3) → X3 m c b = N3 m c b :=
  fun b hb => V13_of m (outs m) c b fun h => hb (Finset.mem_image.mpr ⟨7, Finset.mem_univ _, (List.mem_singleton.mp h).symm⟩)

/-! ## The proof data family and the thread state -/

/-- Every pipeline's proof data, each at its region's entry values. -/
def pdats : (p : Fin 4) → (c : Dev nD) → Dat τ (Elt F) Unit ℕ (UR sig nD τ) ℕ (Pipeline.pin (pcfgs (F := F)) adm p) c
  | ⟨0, _⟩ => fun c => dat0 (fun c b => V3 m c b) c
  | ⟨1, _⟩ => fun c => dat1 (fun c b => V6 m (outs m) c b) c
  | ⟨2, _⟩ => fun c => dat2 (fun c b => V10 m (outs m) c b) c
  | ⟨3, _⟩ => fun c => dat3 (fun c b => V12 m (outs m) c b) c

/-- No core owes another anything: no level is assigned. -/
abbrev L : GSem nD τ sig → Finset Unit := fun _ => ∅
abbrev lv : GSem nD τ sig → Unit → ℕ := fun _ _ => 0
/-- What rides beside the buffers through every segment: the generator register at some state and
    the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the entry values, left at the exit values.
    Its arrays are split out of the unscoped buffers and put back at the exit values; the generator register goes into
    the invariant and comes out; nothing is owed; the kernel has no semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (N0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (N0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (N0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (N0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the entry values, left at the exit values.
    Its arrays are split out of the unscoped buffers and put back at the exit values; the generator register goes into
    the invariant and comes out; nothing is owed; the kernel has no semaphore of its own. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (N1 m) c).loose
  hwaits := Pipeline.hwaits_of_owed_zero _ _ _ _ L lv 1 fun _ _ => rfl
  pre c := iprop(StableHlo.held (c : Thread nD τ) (Pipeline.ucRefs τ sig) (V6 m (outs m) c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (N1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (N1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (N1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the entry values, left at the exit values.
    Its arrays are split out of the unscoped buffers and put back at the exit values; the generator register goes into
    the invariant and comes out; nothing is owed; the kernel has no semaphore of its own. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (N2 m) c).loose
  hwaits := Pipeline.hwaits_of_owed_zero _ _ _ _ L lv 2 fun _ _ => rfl
  pre c := iprop(StableHlo.held (c : Thread nD τ) (Pipeline.ucRefs τ sig) (V10 m (outs m) c) ∗ R c)
  post c := iprop(StableHlo.held (c : Thread nD τ) (Pipeline.ucRefs τ sig) (V11 m (outs m) c) ∗ R c)
  X c := iprop(∃ r, prngReg c r)
  Y c := iprop(∃ r, prngReg c r)
  Z c := Pipeline.unscopedRest (Ix := Unit) (Name := ℕ) (U := UR sig nD τ) (Lvl := ℕ) spec2 c (N2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (N2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (N2 m) c)
    unfold Pipeline.ΦA
    iintro ⟨Hp, -, Hr⟩
    isplitl [Hr]; · iexact Hr
    iexact Hp
  hout c := by
    refine BIBase.Entails.trans (hout2 (N2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (N2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at the entry values, left at the exit values.
    Its arrays are split out of the unscoped buffers and put back at the exit values; the generator register goes into
    the invariant and comes out; nothing is owed; the kernel has no semaphore of its own. -/
def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (N3 m) c).loose
  hwaits := Pipeline.hwaits_of_owed_zero _ _ _ _ L lv 3 fun _ _ => rfl
  pre c := iprop(StableHlo.held (c : Thread nD τ) (Pipeline.ucRefs τ sig) (V12 m (outs m) c) ∗ R c)
  post c := iprop(StableHlo.held (c : Thread nD τ) (Pipeline.ucRefs τ sig) (V13 m (outs m) c) ∗ R c)
  X c := iprop(∃ r, prngReg c r)
  Y c := iprop(∃ r, prngReg c r)
  Z c := Pipeline.unscopedRest (Ix := Unit) (Name := ℕ) (U := UR sig nD τ) (Lvl := ℕ) spec3 c (N3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (N3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (N3 m c) (X3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch of the segments -/

/-- What rides beside the buffers ends owing nothing. -/
theorem R_owes (c : Dev nD) : (R (F := F) c) ⊢ (iprop(∃ W, owes (c : Thread nD τ) (0 : CellTallies nD τ sig Unit) W) : sProp 𝕄) := by
  iintro ⟨-, H⟩; iexact H

set_option backward.isDefEq.respectTransparency.types false in
/-- THE RUN: every weakly fair execution of the program from memory `m` with zero counters ends, and in every final
    memory the result buffer holds what the last region's write-backs leave and every argument its launch value:
    the program is the chain of its thirteen segments, each entered from what the one before left; the last thread
    state, every unscoped buffer at the last values, is read against the final memory. -/
theorem run_all (ρ : Dev nD → PrngReg) : θ_run defs (onTc (τ := τ) (main (F := F))) ⟨m, fun _ => 0, ρ⟩ (fun r => ∀ c : Dev nD,
      r.2.mem ((c.tc : Thread nD τ).loc main_v87) = V13 m (outs m) c main_v87
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm (pdats m) () cellOf_inj emb₁ defs₀ Variants.none L lv m ρ main
    (segs m (outs m) Variants.none L lv (fun _ => R (F := F)) () (pdats m) (reg0 m) (reg1 m) (reg2 m) (reg3 m))
    (fun c Q => by
      rewrite [main_chain c, Seg.run_eq_chain,
        show (segs m (outs m) Variants.none L lv (fun _ => R (F := F)) () (pdats m) (reg0 m) (reg1 m) (reg2 m) (reg3 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, .rfl, .rfl, sep_mono .rfl (R_owes c)⟩)
    (hinit := ?_)
    (QY := fun c s => s.mem ((c.tc : Thread nD τ).loc main_v87) = V13 m (outs m) c main_v87 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  · -- the launch: each core's unscoped buffers are held at the launch values; its generator register and its owing
    -- nothing ride beside them
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result buffer and each argument's buffer read off the last values
    unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr
    · ipureintro
      exact ⟨h (Proc.devRef .tc main_v87) (Finset.mem_filter.mpr ⟨StableHlo.devRef_mem_tcRefs main_v87, by decide⟩),
        (h (Proc.devRef .tc main_arg0) (Finset.mem_filter.mpr ⟨StableHlo.devRef_mem_tcRefs main_arg0, by decide⟩)).trans (V13_main_arg0 m (outs m) c),
        (h (Proc.devRef .tc main_arg1) (Finset.mem_filter.mpr ⟨StableHlo.devRef_mem_tcRefs main_arg1, by decide⟩)).trans (V13_main_arg1 m (outs m) c),
        (h (Proc.devRef .tc main_arg2) (Finset.mem_filter.mpr ⟨StableHlo.devRef_mem_tcRefs main_arg2, by decide⟩)).trans (V13_main_arg2 m (outs m) c),
        (h (Proc.devRef .tc main_arg3) (Finset.mem_filter.mpr ⟨StableHlo.devRef_mem_tcRefs main_arg3, by decide⟩)).trans (V13_main_arg3 m (outs m) c),
        (h (Proc.devRef .tc main_arg4) (Finset.mem_filter.mpr ⟨StableHlo.devRef_mem_tcRefs main_arg4, by decide⟩)).trans (V13_main_arg4 m (outs m) c),
        (h (Proc.devRef .tc main_arg5) (Finset.mem_filter.mpr ⟨StableHlo.devRef_mem_tcRefs main_arg5, by decide⟩)).trans (V13_main_arg5 m (outs m) c),
        (h (Proc.devRef .tc main_arg6) (Finset.mem_filter.mpr ⟨StableHlo.devRef_mem_tcRefs main_arg6, by decide⟩)).trans (V13_main_arg6 m (outs m) c),
        (h (Proc.devRef .tc main_arg7) (Finset.mem_filter.mpr ⟨StableHlo.devRef_mem_tcRefs main_arg7, by decide⟩)).trans (V13_main_arg7 m (outs m) c),
        (h (Proc.devRef .tc main_arg8) (Finset.mem_filter.mpr ⟨StableHlo.devRef_mem_tcRefs main_arg8, by decide⟩)).trans (V13_main_arg8 m (outs m) c),
        (h (Proc.devRef .tc main_arg9) (Finset.mem_filter.mpr ⟨StableHlo.devRef_mem_tcRefs main_arg9, by decide⟩)).trans (V13_main_arg9 m (outs m) c),
        (h (Proc.devRef .tc main_arg10) (Finset.mem_filter.mpr ⟨StableHlo.devRef_mem_tcRefs main_arg10, by decide⟩)).trans (V13_main_arg10 m (outs m) c),
        (h (Proc.devRef .tc main_arg11) (Finset.mem_filter.mpr ⟨StableHlo.devRef_mem_tcRefs main_arg11, by decide⟩)).trans (V13_main_arg11 m (outs m) c),
        (h (Proc.devRef .tc main_arg12) (Finset.mem_filter.mpr ⟨StableHlo.devRef_mem_tcRefs main_arg12, by decide⟩)).trans (V13_main_arg12 m (outs m) c)⟩
    · iexact HSI

/-- THE FRAME: every argument ends at its launch value. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_all m ρ)

end Cert.Kernel.Gen

end
-- ==== Proof.KI.Reg0.lean ====
/- REGION 0 of the kernel program, the row-blocked product x·W of the first layer (pipeline 0), at the contents `V` the region is entered with: each window's block at a point, what the body leaves in the output window's buffer, the body's triple, the pipeline's proof data and the body obligation, at any float instance. -/
import proofs.«420645_j83519934038548_2_alg».proof.Proof.Gen.KernelIdeal.Launch
import proofs.«420645_j83519934038548_2_alg».proof.Proof.Gen.KernelIdeal.Skeleton
import proofs.«420645_j83519934038548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every statement below is made at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S10000x128 := Rect.unit (s := S10000x128) ![0, 0] S10000x128.size inb_S10000x128_S10000x128_0_0

/-! ## What the body leaves in the output window's buffer -/

/-- Window 2's staging buffer after the body, from the input windows' blocks: its one store as a piece, the
    stored value the product of the row block of x with W, over what the loads read. -/
def out0_2 (x0 : Vec F S10000x128 .f32) (x1 : Vec F S128x128 .f32) : Vec F S10000x128 .f32 :=
  View.canon [⟨r0_2, k0_pay1 (View.ld x0 r0_0) (View.ld x1 r0_1)⟩]

/-- The store tiles the buffer (checked by evaluation), so it covers it. -/
theorem cover0_2 (p0 : Vec F S10000x128 .f32) (y : S10000x128.Idx) :
    ∃ pc ∈ ([⟨r0_2, p0⟩] : List (View.Piece (Elt F) S10000x128 .f32)), y ∈ pc.1.set :=
  View.cover_of_tiled [⟨r0_2, p0⟩] S10000x128.size (by rfl) y

/-! ## The body's triple -/

set_option maxHeartbeats 1000000 in
/-- The kernel body on whole staging memrefs, the inputs' at read contents `xW` and the output's at anything, runs
    to the continuation holding the inputs' as they were and the output's at `out0_2` of the inputs': the
    function is its loads followed by its one store, run operation by operation; the load of the output buffer
    ahead of its store reads and leaves whatever is there, and the store's pieces cover the buffer. -/
theorem sound_kernel0 (c : Dev nD) (E : Set ℕ) (i : grid0.Coords) (arg0 : Memref sig .tc .vmem S10000x128 .f32) (harg0 : arg0.IsWhole) (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at point
    `t` each input's buffer at its block and the output's at `out0_2` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Gen

end
-- ==== Proof.KI.Reg1.lean ====
/- REGION 1 of the kernel program, the row-blocked product h·W of the second layer (pipeline 1), at the contents `V` the region is entered with: each window's block at a point, what the body leaves in the output window's buffer, the body's triple, the pipeline's proof data and the body obligation, at any float instance. -/
import proofs.«420645_j83519934038548_2_alg».proof.Proof.Gen.KernelIdeal.Launch
import proofs.«420645_j83519934038548_2_alg».proof.Proof.Gen.KernelIdeal.Skeleton
import proofs.«420645_j83519934038548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every statement below is made at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S10000x128 := Rect.unit (s := S10000x128) ![0, 0] S10000x128.size inb_S10000x128_S10000x128_0_0
abbrev r1_1 : Rect S128x128 := Rect.unit (s := S128x128) ![0, 0] S128x128.size inb_S128x128_S128x128_0_0
abbrev r1_2 : Rect S10000x128 := Rect.unit (s := S10000x128) ![0, 0] S10000x128.size inb_S10000x128_S10000x128_0_0

/-! ## What the body leaves in the output window's buffer -/

/-- Window 2's staging buffer after the body, from the input windows' blocks: its one store as a piece, the
    stored value the product of the row block of h with W, over what the loads read. -/
def out1_2 (x0 : Vec F S10000x128 .f32) (x1 : Vec F S128x128 .f32) : Vec F S10000x128 .f32 :=
  View.canon [⟨r1_2, k1_pay1 (View.ld x0 r1_0) (View.ld x1 r1_1)⟩]

/-- The store tiles the buffer (checked by evaluation), so it covers it. -/
theorem cover1_2 (p0 : Vec F S10000x128 .f32) (y : S10000x128.Idx) :
    ∃ pc ∈ ([⟨r1_2, p0⟩] : List (View.Piece (Elt F) S10000x128 .f32)), y ∈ pc.1.set :=
  View.cover_of_tiled [⟨r1_2, p0⟩] S10000x128.size (by rfl) y

/-! ## The body's triple -/

set_option maxHeartbeats 1000000 in
/-- The kernel body on whole staging memrefs, the inputs' at read contents `xW` and the output's at anything, runs
    to the continuation holding the inputs' as they were and the output's at `out1_2` of the inputs': the
    function is its loads followed by its one store, run operation by operation; the load of the output buffer
    ahead of its store reads and leaves whatever is there, and the store's pieces cover the buffer. -/
theorem sound_kernel1 (c : Dev nD) (E : Set ℕ) (i : grid1.Coords) (arg0 : Memref sig .tc .vmem S10000x128 .f32) (harg0 : arg0.IsWhole) (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out1_2 x0 x1)) -∗ K ⟨⟩))
      ⊢ wp frame (wpE (defs₀ (F := F)) Variants.none c none) E (cc1__matmul_kernel i arg0 harg0 arg1 harg1 arg2 harg2) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at point
    `t` each input's buffer at its block and the output's at `out1_2` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.KI.Reg2.lean ====
import proofs.«420645_j83519934038548_2_alg».proof.Proof.Gen.KernelIdeal.Launch
import proofs.«420645_j83519934038548_2_alg».proof.Proof.Gen.KernelIdeal.Skeleton
import proofs.«420645_j83519934038548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

/-! # The pooled sum: a scratch accumulator carried over the five row blocks

The body zeroes the accumulator at the first block, adds the product of the transposed one-hot
block with the feature block at every block, and copies the accumulator to the output block at
the last. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks and the accumulator -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after point n: the partial pooled sum over blocks 0 … n, from zero. -/
def acc2 (c : Dev nD) : ℕ → Vec F S64x128 .f32
  | 0 => k2_pay2 (iblk2 V c 0 t2_0) (iblk2 V c 1 t2_0) (k2_pay1 (F := F))
  | n + 1 => if h : n + 1 < cfg2.N then k2_pay2 (iblk2 V c 0 ⟨n + 1, h⟩) (iblk2 V c 1 ⟨n + 1, h⟩) (acc2 c n) else acc2 c n

theorem acc2_zero (c : Dev nD) :
    acc2 V c 0 = k2_pay2 (iblk2 V c 0 t2_0) (iblk2 V c 1 t2_0) (k2_pay1 (F := F)) := rfl

theorem acc2_succ (c : Dev nD) (n : ℕ) (h : n + 1 < cfg2.N) :
    acc2 V c (n + 1) = k2_pay2 (iblk2 V c 0 ⟨n + 1, h⟩) (iblk2 V c 1 ⟨n + 1, h⟩) (acc2 V c n) := by
  show (if h : n + 1 < cfg2.N then _ else _) = _
  rw [dif_pos h]

/-! ## The invariant -/

/-- The accumulator as a whole memref. -/
abbrev scM2 : Memref sig .tc .vmem S64x128 .f32 := Memref.whole cc2_scratch0

/-- What the body never touches: every scoped buffer but the accumulator and this call's staging
    buffers, at some contents each, and the generator register at some state. -/
def rest2 (c : Dev nD) : sProp 𝕄 :=
  iprop(Pipeline.scopedRestBut (Ix := Unit) (Name := ℕ) (U := UR sig nD τ) (Lvl := ℕ) (Val := Elt F) spec2 c [cc2_scratch0] ∗ ∃ r, prngReg c r)

/-- Before the first point the accumulator holds anything; after point n it holds the partial sum
    through n. -/
def PhiS2 (c : Dev nD) : ℕ → sProp 𝕄
  | 0 => Pipeline.ΦA spec2 c
  | n + 1 => iprop(owns (c : Thread nD τ) scM2 fullShare (acc2 V c n) ∗ rest2 (F := F) c)

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val
  Φ t := PhiS2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val := by dsimp only [dat2]

/-! ## The two conditions of the body, in closed form over the grid -/

/-- The first condition of the body (the point is the first), from the grid coordinates. -/
abbrev cond2_0 (i : grid2.Coords) : Prop := (Scalar.cmpi .ne (Scalar.extui (Scalar.cmpi .eq (BitVec.ofNat 32 (i 0).val) 0#32)) 0#32) = 1#1
/-- It holds at point 0 only. -/
theorem hcond2_0 : ∀ t : Fin cfg2.N, cond2_0 (grid2.coords t) ↔ t.val = 0 :=
  (by decide +kernel : ∀ t : Fin grid2.N, cond2_0 (grid2.coords t) ↔ t.val = 0)
/-- The second condition of the body (the point is the last), from the grid coordinates. -/
abbrev cond2_1 (i : grid2.Coords) : Prop := k2_cond2 i = 1#1
/-- It holds at point 4 only. -/
theorem hcond2_1 : ∀ t : Fin cfg2.N, cond2_1 (grid2.coords t) ↔ t.val = 4 :=
  (by decide +kernel : ∀ t : Fin grid2.N, cond2_1 (grid2.coords t) ↔ t.val = 4)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from the last point the output block is idle, -/
theorem idleAt2_2 : ∀ t : Fin cfg2.N, ¬cond2_1 (grid2.coords t) → cfg2.idle 2 (grid2.coords t) = true := by decide +kernel
/-- and is not written back; -/
theorem noFlush2_2 : ∀ t : Fin cfg2.N, ¬cond2_1 (grid2.coords t) → (cfg2.win 2).flush t = false := by decide +kernel
/-- at the last point it is live. -/
theorem liveAt2_2 : ∀ t : Fin cfg2.N, cond2_1 (grid2.coords t) → cfg2.idle 2 (grid2.coords t) = false := by decide +kernel

/-- The whole-block rectangle's offsets are zero. -/
theorem hz2 : (![0, 0] : Fin 2 → ℕ) = fun _ => 0 := by funext a; fin_cases a <;> rfl

/-! ## The body on any whole memrefs, case by case -/

/-- The one whole-block piece covers the block. -/
theorem cover1 (w : S64x128.Idx → Elt F .f32) (y : S64x128.Idx) :
    ∃ p ∈ [(⟨Rect.unit ![0, 0] S64x128.size inb_S64x128_S64x128_0_0, w⟩ : View.Piece (Elt F) S64x128 .f32)], y ∈ p.1.set :=
  ⟨_, List.mem_singleton_self _, View.mem_set_unit_zero hz2 inb_S64x128_S64x128_0_0 y⟩

/-- So does the later of two. -/
theorem cover2 (w w' : S64x128.Idx → Elt F .f32) (y : S64x128.Idx) :
    ∃ p ∈ [(⟨Rect.unit ![0, 0] S64x128.size inb_S64x128_S64x128_0_0, w⟩ : View.Piece (Elt F) S64x128 .f32), ⟨Rect.unit ![0, 0] S64x128.size inb_S64x128_S64x128_0_0, w'⟩], y ∈ p.1.set :=
  ⟨_, List.mem_cons_self, View.mem_set_unit_zero hz2 inb_S64x128_S64x128_0_0 y⟩

set_option maxHeartbeats 1000000 in
/-- A middle point: the accumulator at xs becomes the block's product added to xs; the output block is untouched. -/
theorem run2_B (c : Dev nD) (i : grid2.Coords) (arg1 : Memref sig .tc .vmem S10000x128 .f32) (harg1 : arg1.IsWhole) (arg2 : Memref sig .tc .vmem S10000x64 .bf16) (harg2 : arg2.IsWhole) (arg3 : Memref sig .tc .vmem S64x128 .f32) (harg3 : arg3.IsWhole) (arg4 : Memref sig .tc .vmem S64x128 .f32) (harg4 : arg4.IsWhole)
    (hc0 : ¬cond2_0 i) (hc1 : ¬cond2_1 i)
    (x0 : Vec F S10000x128 .f32) (x1 : Vec F S10000x64 .bf16) (xi : Vec F S64x128 .f32) (xs : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare xi ∗ owns (c : Thread nD τ) arg4 fullShare xs
        ∗ (iprop(owns (c : Thread nD τ) arg1 fullShare x0 ∗ owns (c : Thread nD τ) arg2 fullShare x1 ∗ owns (c : Thread nD τ) arg3 fullShare xi ∗ owns (c : Thread nD τ) arg4 fullShare (k2_pay2 x0 x1 xs)) -∗ K ⟨⟩))
      ⊢ wp frame (wpE (defs₀ (F := F)) Variants.none c none) E (cc2__pool_sum_kernel i arg1 harg1 arg2 harg2 arg3 harg3 arg4 harg4) K := by
  simp only [cc2__pool_sum_kernel_eq_skeleton]; unfold cc2__pool_sum_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  rw [View.read_writes_eq_canon _ _ _ (cover1 _), View.canon_unit_zero hz2]
  simp only [View.readAt_eq_ld, harg1.read_unread, harg2.read_unread, harg4.read_unread, View.ld_unit_zero (S := S10000x128) hz2, View.ld_unit_zero (S := S10000x64) hz2, View.ld_unit_zero (S := S64x128) hz2]

set_option maxHeartbeats 1000000 in
/-- The first point: the accumulator, at anything, is zeroed and then takes the block's product; the output block is untouched. -/
theorem run2_A (c : Dev nD) (i : grid2.Coords) (arg1 : Memref sig .tc .vmem S10000x128 .f32) (harg1 : arg1.IsWhole) (arg2 : Memref sig .tc .vmem S10000x64 .bf16) (harg2 : arg2.IsWhole) (arg3 : Memref sig .tc .vmem S64x128 .f32) (harg3 : arg3.IsWhole) (arg4 : Memref sig .tc .vmem S64x128 .f32) (harg4 : arg4.IsWhole)
    (hc0 : cond2_0 i) (hc1 : ¬cond2_1 i)
    (x0 : Vec F S10000x128 .f32) (x1 : Vec F S10000x64 .bf16) (xi : Vec F S64x128 .f32)
    (E : Set ℕ) (K : PUnit → sProp 𝕄) :
    iprop(owns (c : Thread nD τ) arg1 fullShare x0 ∗ owns (c : Thread nD τ) arg2 fullShare x1 ∗ owns (c : Thread nD τ) arg3 fullShare xi ∗ (∃ d, owns (c : Thread nD τ) arg4 fullShare d)
        ∗ (iprop(owns (c : Thread nD τ) arg1 fullShare x0 ∗ owns (c : Thread nD τ) arg2 fullShare x1 ∗ owns (c : Thread nD τ) arg3 fullShare xi ∗ owns (c : Thread nD τ) arg4 fullShare (k2_pay2 x0 x1 (k2_pay1 (F := F)))) -∗ K ⟨⟩))
      ⊢ wp frame (wpE (defs₀ (F := F)) Variants.none c none) E (cc2__pool_sum_kernel i arg1 harg1 arg2 harg2 arg3 harg3 arg4 harg4) K := by
  simp only [cc2__pool_sum_kernel_eq_skeleton]; unfold cc2__pool_sum_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact HS
  ipureintro
  sl_unfold_words
  rw [View.read_writes_eq_canon _ _ _ (cover2 _ _), View.canon_cons_unit_zero hz2]
  simp only [View.readAt_eq_ld, harg1.read_unread, harg2.read_unread, View.ld_unit_zero (S := S10000x128) hz2, View.ld_unit_zero (S := S10000x64) hz2, View.readCov_unit_zero (S := S64x128) _ hz2]

set_option maxHeartbeats 1000000 in
/-- The last point: the accumulator at xs takes the block's product, and the output block, at anything, takes the accumulator. -/
theorem run2_C (c : Dev nD) (i : grid2.Coords) (arg1 : Memref sig .tc .vmem S10000x128 .f32) (harg1 : arg1.IsWhole) (arg2 : Memref sig .tc .vmem S10000x64 .bf16) (harg2 : arg2.IsWhole) (arg3 : Memref sig .tc .vmem S64x128 .f32) (harg3 : arg3.IsWhole) (arg4 : Memref sig .tc .vmem S64x128 .f32) (harg4 : arg4.IsWhole)
    (hc0 : ¬cond2_0 i) (hc1 : cond2_1 i)
    (x0 : Vec F S10000x128 .f32) (x1 : Vec F S10000x64 .bf16) (xs : Vec F S64x128 .f32)
    (E : Set ℕ) (K : PUnit → sProp 𝕄) :
    iprop(owns (c : Thread nD τ) arg1 fullShare x0 ∗ owns (c : Thread nD τ) arg2 fullShare x1 ∗ (∃ d, owns (c : Thread nD τ) arg3 fullShare d) ∗ owns (c : Thread nD τ) arg4 fullShare xs
        ∗ (iprop(owns (c : Thread nD τ) arg1 fullShare x0 ∗ owns (c : Thread nD τ) arg2 fullShare x1 ∗ owns (c : Thread nD τ) arg3 fullShare (k2_pay2 x0 x1 xs) ∗ owns (c : Thread nD τ) arg4 fullShare (k2_pay2 x0 x1 xs)) -∗ K ⟨⟩))
      ⊢ wp frame (wpE (defs₀ (F := F)) Variants.none c none) E (cc2__pool_sum_kernel i arg1 harg1 arg2 harg2 arg3 harg3 arg4 harg4) K := by
  simp only [cc2__pool_sum_kernel_eq_skeleton]; unfold cc2__pool_sum_kernel_skel
  unfold owns
  iintro ⟨⟨%f0, %hf0, H0⟩, ⟨%f1, %hf1, H1⟩, ⟨%d2, %f2, -, H2⟩, ⟨%fs, %hfs, HS⟩, Hk⟩
  obtain rfl := harg1.eq_unread hf0; obtain rfl := harg2.eq_unread hf1; obtain rfl := harg4.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [View.read_writes_eq_canon _ _ _ (cover1 _), View.canon_unit_zero hz2]
    simp only [View.readAt_eq_ld, harg1.read_unread, harg2.read_unread, harg4.read_unread, View.ld_unit_zero (S := S10000x128) hz2, View.ld_unit_zero (S := S10000x64) hz2, View.ld_unit_zero (S := S64x128) hz2, View.readCov_unit_zero (S := S64x128) _ hz2]
  iexists _; isplitr
  swap; · iexact HS
  ipureintro
  sl_unfold_words
  rw [View.read_writes_eq_canon _ _ _ (cover1 _), View.canon_unit_zero hz2]
  simp only [View.readAt_eq_ld, harg1.read_unread, harg2.read_unread, harg4.read_unread, View.ld_unit_zero (S := S10000x128) hz2, View.ld_unit_zero (S := S10000x64) hz2, View.ld_unit_zero (S := S64x128) hz2]

/-! ## The invariant, opened -/

/-- Before the first point: the accumulator at anything, beside what the body never touches. -/
theorem PhiA2_eq (c : Dev nD) :
    (Pipeline.ΦA spec2 c : sProp 𝕄) = iprop((∃ d, owns (c : Thread nD τ) scM2 fullShare d) ∗ rest2 (F := F) c) := by
  unfold Pipeline.ΦA rest2
  rw [Pipeline.scopedRest_split_of_list spec2 c [cc2_scratch0] (by decide) (by decide)]
  simp only [bigSepL_singleton, scM2, owns_whole]
  exact equiv_iff.mp ⟨BI.sep_assoc, BI.sep_assoc'⟩

theorem PhiS2_zero (c : Dev nD) (n : ℕ) (hz : n = 0) : PhiS2 V c n = Pipeline.ΦA spec2 c := by
  subst hz; rfl

theorem PhiS2_succ (c : Dev nD) (n : ℕ) :
    PhiS2 V c (n + 1) = iprop(owns (c : Thread nD τ) scM2 fullShare (acc2 V c n) ∗ rest2 (F := F) c) := rfl

theorem PhiS2_pos (c : Dev nD) (n : ℕ) (hz : n ≠ 0) :
    PhiS2 V c n = iprop(owns (c : Thread nD τ) scM2 fullShare (acc2 V c (n - 1)) ∗ rest2 (F := F) c) := by
  cases n with
  | zero => exact absurd rfl hz
  | succ n => rfl

theorem Phi2_castSucc (c : Dev nD) (t : Fin cfg2.N) : (dat2 V c).Φ t.castSucc = PhiS2 V c t.val := by
  dsimp only [dat2]; simp only [Fin.coe_castSucc]

theorem Phi2_succ (c : Dev nD) (t : Fin cfg2.N) : (dat2 V c).Φ t.succ = PhiS2 V c (t.val + 1) := by
  dsimp only [dat2]; simp only [Fin.val_succ]

/-- The accumulator after the first point: the first block's product over zero. -/
theorem acc2_first (c : Dev nD) (t : Fin cfg2.N) (h : t.val = 0) :
    acc2 V c t.val = k2_pay2 (iblk2 V c 0 t) (iblk2 V c 1 t) (k2_pay1 (F := F)) := by
  obtain ⟨n, hn⟩ := t
  dsimp only at h; subst h; rfl

/-- The accumulator after a later point: that block's product over the accumulator before. -/
theorem acc2_next (c : Dev nD) (t : Fin cfg2.N) (h : t.val ≠ 0) :
    acc2 V c t.val = k2_pay2 (iblk2 V c 0 t) (iblk2 V c 1 t) (acc2 V c (t.val - 1)) := by
  obtain ⟨n, hn⟩ := t
  cases n with
  | zero => exact absurd rfl h
  | succ n => exact acc2_succ V c n hn

/-! ## What the body finds in the inputs' buffers -/

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-! ## The body obligation, at a generic point -/

/-- Each window's current staging memref at point t, and its wholeness. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S10000x64 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S64x128 .f32 := win2_2.stage (cfg2.slots t 2)
abbrev hs2_2 (t : Fin cfg2.N) : (ms2_2 t).IsWhole := hstage2_2 ((cfg2.slots t 2).cast nbuf2_2)

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' buffers hold their blocks; the closed forms of the two conditions say which
    of the three cases the point is in; the invariant hands the body the accumulator at what the point before left
    (at anything at the first point) and takes it back at this point's partial sum; away from the last point the
    output's buffer is handed back untouched, at the last it holds the accumulator. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [Phi2_succ, PhiS2_succ, Phi2_castSucc]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 5 := lt_of_lt_of_eq t.isLt (show cfg2.N = 5 from N_2)
  by_cases h4 : t.val = 4
  · have h0 : t.val ≠ 0 := by omega
    rw [show (dat2 V c).leavesExact 2 t = owns (c : Thread nD τ) (ms2_2 t) fullShare ((dat2 V c).after 2 t) from by
      unfold Dat.leavesExact; rw [liveAt2_2 t ((hcond2_1 t).mpr h4)], after2_2]
    rw [acc2_next V c t h0, PhiS2_pos V c _ h0]
    iintro ⟨⟨HS, Hr⟩, Ho, ⟨%d0, H0⟩, ⟨%d1, H1⟩, ⟨%d2, H2⟩⟩
    iapply (run2_C c (grid2.coords t) _ _ _ _ _ _ _ _ (fun h => h0 ((hcond2_0 t).mp h)) ((hcond2_1 t).mpr h4) (iblk2 V c 0 t) (iblk2 V c 1 t) (acc2 V c (t.val - 1)) Set.univ _)
    isplitl [H0]; · iexact H0
    isplitl [H1]; · iexact H1
    isplitl [H2]; · iexists _; iexact H2
    isplitl [HS]; · iexact HS
    iintro ⟨H0, H1, H2, HS⟩
    isplitl [HS Hr]
    · isplitl [HS]; · iexact HS
      iexact Hr
    isplitl [Ho]; · iexact Ho
    isplitl [H0]; · iexact H0
    isplitl [H1]; · iexact H1
    iexact H2
  · rw [Dat.leavesExact_idle (dat2 V c) 2 t (idleAt2_2 t (fun h => h4 ((hcond2_1 t).mp h))) (noFlush2_2 t (fun h => h4 ((hcond2_1 t).mp h)))]
    by_cases h0 : t.val = 0
    · rw [acc2_first V c t h0, PhiS2_zero V c _ h0, PhiA2_eq]
      iintro ⟨⟨HS, Hr⟩, Ho, ⟨%d0, H0⟩, ⟨%d1, H1⟩, ⟨%d2, H2⟩⟩
      iapply (run2_A c (grid2.coords t) _ _ _ _ _ _ _ _ ((hcond2_0 t).mpr h0) (fun h => h4 ((hcond2_1 t).mp h)) (iblk2 V c 0 t) (iblk2 V c 1 t) _ Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2
    · rw [acc2_next V c t h0, PhiS2_pos V c _ h0]
      iintro ⟨⟨HS, Hr⟩, Ho, ⟨%d0, H0⟩, ⟨%d1, H1⟩, ⟨%d2, H2⟩⟩
      iapply (run2_B c (grid2.coords t) _ _ _ _ _ _ _ _ (fun h => h0 ((hcond2_0 t).mp h)) (fun h => h4 ((hcond2_1 t).mp h)) (iblk2 V c 0 t) (iblk2 V c 1 t) _ (acc2 V c (t.val - 1)) Set.univ _)
      isplitl [H0]; · iexact H0
      isplitl [H1]; · iexact H1
      isplitl [H2]; · iexact H2
      isplitl [HS]; · iexact HS
      iintro ⟨H0, H1, H2, HS⟩
      isplitl [HS Hr]
      · isplitl [HS]; · iexact HS
        iexact Hr
      isplitl [Ho]; · iexact Ho
      isplitl [H0]; · iexact H0
      isplitl [H1]; · iexact H1
      iexists _; iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 from rfl, PhiS2_zero V c 0 rfl]
  try exact Idealize.SL.BI.Entails.refl _

/-- After the last point the invariant gives it back: the accumulator's named contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val from rfl,
    PhiS2_pos V c _ (by rw [Fin.val_last]; have : cfg2.N = 5 := N_2; omega), PhiA2_eq]
  iintro ⟨HS, Hr⟩
  isplitl [HS]
  · iexists _; iexact HS
  iexact Hr

end Cert.KernelIdeal.Gen

end
-- ==== Proof.KI.Reg3.lean ====
/- REGION 3 of the kernel program, the three-layer perceptron on the pooled sums (pipeline 3, a grid of one point), at the contents `V` the region is entered with: each window's block, what the body leaves in the output window's buffer, the body's triple, the pipeline's proof data and the body obligation, at any float instance. -/
import proofs.«420645_j83519934038548_2_alg».proof.Proof.Gen.KernelIdeal.Launch
import proofs.«420645_j83519934038548_2_alg».proof.Proof.Gen.KernelIdeal.Skeleton
import proofs.«420645_j83519934038548_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter every statement below is made at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof
    data whose array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's current staging buffer holds its block at every point, fetched there or not, for any proof
    data whose array is `V`'s and whose body leaves the block in place: unfetched, the block index has not moved. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S64x128 := Rect.unit (s := S64x128) ![0, 0] S64x128.size inb_S64x128_S64x128_0_0
abbrev r3_1 : Rect S128x64 := Rect.unit (s := S128x64) ![0, 0] S128x64.size inb_S128x64_S128x64_0_0
abbrev r3_2 : Rect S1x64 := Rect.unit (s := S1x64) ![0, 0] S1x64.size inb_S1x64_S1x64_0_0
abbrev r3_3 : Rect S64x32 := Rect.unit (s := S64x32) ![0, 0] S64x32.size inb_S64x32_S64x32_0_0
abbrev r3_4 : Rect S1x32 := Rect.unit (s := S1x32) ![0, 0] S1x32.size inb_S1x32_S1x32_0_0
abbrev r3_5 : Rect S32x1 := Rect.unit (s := S32x1) ![0, 0] S32x1.size inb_S32x1_S32x1_0_0
abbrev r3_6 : Rect S1x1 := Rect.unit (s := S1x1) ![0, 0] S1x1.size inb_S1x1_S1x1_0_0
abbrev r3_7 : Rect S64x1 := Rect.unit (s := S64x1) ![0, 0] S64x1.size inb_S64x1_S64x1_0_0

/-! ## What the body leaves in the output window's buffer -/

/-- Window 7's staging buffer after the body, from the input windows' blocks: its one store as a piece, the
    stored value the three-layer perceptron's output on the pooled block, over what the loads read. -/
def out3_7 (x0 : Vec F S64x128 .f32) (x1 : Vec F S128x64 .f32) (x2 : Vec F S1x64 .f32) (x3 : Vec F S64x32 .f32) (x4 : Vec F S1x32 .f32) (x5 : Vec F S32x1 .f32) (x6 : Vec F S1x1 .f32) : Vec F S64x1 .f32 :=
  View.canon [⟨r3_7, k3_pay1 (View.ld x0 r3_0) (View.ld x1 r3_1) (View.ld x2 r3_2) (View.ld x3 r3_3) (View.ld x4 r3_4) (View.ld x5 r3_5) (View.ld x6 r3_6)⟩]

/-- The store tiles the buffer (checked by evaluation), so it covers it. -/
theorem cover3_7 (p0 : Vec F S64x1 .f32) (y : S64x1.Idx) :
    ∃ pc ∈ ([⟨r3_7, p0⟩] : List (View.Piece (Elt F) S64x1 .f32)), y ∈ pc.1.set :=
  View.cover_of_tiled [⟨r3_7, p0⟩] S64x1.size (by rfl) y

/-! ## The body's triple -/

set_option maxHeartbeats 1000000 in
/-- The kernel body on whole staging memrefs, the inputs' at read contents `xW` and the output's at anything, runs
    to the continuation holding the inputs' as they were and the output's at `out3_7` of the inputs': the
    function is its loads followed by its one store, run operation by operation; the load of the output buffer
    ahead of its store reads and leaves whatever is there, and the store's pieces cover the buffer. -/
theorem sound_kernel3 (c : Dev nD) (E : Set ℕ) (i : grid3.Coords) (arg0 : Memref sig .tc .vmem S64x128 .f32) (harg0 : arg0.IsWhole) (arg1 : Memref sig .tc .vmem S128x64 .f32) (harg1 : arg1.IsWhole) (arg2 : Memref sig .tc .vmem S1x64 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x1 .f32) (harg5 : arg5.IsWhole) (arg6 : Memref sig .tc .vmem S1x1 .f32) (harg6 : arg6.IsWhole) (arg7 : Memref sig .tc .vmem S64x1 .f32) (harg7 : arg7.IsWhole)
    (x0 : Vec F S64x128 .f32) (x1 : Vec F S128x64 .f32) (x2 : Vec F S1x64 .f32) (x3 : Vec F S64x32 .f32) (x4 : Vec F S1x32 .f32) (x5 : Vec F S32x1 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out3_7 x0 x1 x2 x3 x4 x5 x6)) -∗ K ⟨⟩))
      ⊢ wp frame (wpE (defs₀ (F := F)) Variants.none c none) E (cc3__mlp_kernel i arg0 harg0 arg1 harg1 arg2 harg2 arg3 harg3 arg4 harg4 arg5 harg5 arg6 harg6 arg7 harg7) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover3_7 _)

/-! ## The pipeline's proof data -/

/-- The proof data of pipeline 3 on core `c`: the arrays as the region finds them (`V`); after the body at point
    `t` each input's buffer at its block and the output's at `out3_7` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out3_7 (iblk3 V c 0 t) (iblk3 V c 1 t) (iblk3 V c 2 t) (iblk3 V c 3 t) (iblk3 V c 4 t) (iblk3 V c 5 t) (iblk3 V c 6 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = out3_7 (iblk3 V c 0 t) (iblk3 V c 1 t) (iblk3 V c 2 t) (iblk3 V c 3 t) (iblk3 V c 4 t) (iblk3 V c 5 t) (iblk3 V c 6 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t))

/-- The body at any point: the inputs' memrefs hold their blocks, so the body's triple applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel3 c Set.univ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.KI.Run.lean ====
import proofs.«420645_j83519934038548_2_alg».proof.Proof.Gen.KernelIdeal.Regions
import proofs.«420645_j83519934038548_2_alg».proof.Proof.KI.Reg0
import proofs.«420645_j83519934038548_2_alg».proof.Proof.KI.Reg1
import proofs.«420645_j83519934038548_2_alg».proof.Proof.KI.Reg2
import proofs.«420645_j83519934038548_2_alg».proof.Proof.KI.Reg3

/-! # The run: the four regions' results one after the other, the regions as segments, the launch

Between two items of the program every unscoped buffer of a core holds a known value. A host
stretch moves the values by its operations; a region replaces the value of its one output array
by what its write-backs leave and keeps every other buffer. The values are built here region
after region, each from the ones before it, and the launch of the segments then gives at once
the value of the result buffer and the arguments unchanged. -/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The values between the items, region after region -/

/-- Region 0 is entered from the launch values moved by the first three host stretches. -/
abbrev E0 : (c : Dev nD) → (b : Ref sig .tc) → Buf (Elt F) ((c : Thread nD τ).loc b) := fun c b => V3 m c b

/-- What region 0 leaves: its arrays at what the write-backs leave, every other buffer as entered. -/
def o4 (r : Ref sig .tc) (c : Dev nD) : Buf (Elt F) ((c : Thread nD τ).loc r) :=
  Pipeline.withArrays spec0 c (V3 m c) (fun w => (dat0 (E0 m) c).arrAt w cfg0.N) (Proc.devRef .tc r)

abbrev U4 (c : Dev nD) : Valuation τ sig (Elt F) := Function.update (V3 m c) main_v21 (o4 m main_v21 c)
abbrev U5 (c : Dev nD) : Valuation τ sig (Elt F) := StableHlo.after hostOps1 (U4 m c)
abbrev U6 (c : Dev nD) : Valuation τ sig (Elt F) := StableHlo.after hostOps1_1 (U5 m c)
/-- Region 1's entry values. -/
abbrev E1 : (c : Dev nD) → (b : Ref sig .tc) → Buf (Elt F) ((c : Thread nD τ).loc b) := fun c b => U6 m c b

/-- What region 1 leaves. -/
def o7 (r : Ref sig .tc) (c : Dev nD) : Buf (Elt F) ((c : Thread nD τ).loc r) :=
  Pipeline.withArrays spec1 c (U6 m c) (fun w => (dat1 (E1 m) c).arrAt w cfg1.N) (Proc.devRef .tc r)

abbrev U7 (c : Dev nD) : Valuation τ sig (Elt F) := Function.update (U6 m c) main_v45 (o7 m main_v45 c)
abbrev U8 (c : Dev nD) : Valuation τ sig (Elt F) := StableHlo.after hostOps2 (U7 m c)
abbrev U9 (c : Dev nD) : Valuation τ sig (Elt F) := StableHlo.after hostOps2_1 (U8 m c)
abbrev U10 (c : Dev nD) : Valuation τ sig (Elt F) := StableHlo.after hostOps2_2 (U9 m c)
/-- Region 2's entry values. -/
abbrev E2 : (c : Dev nD) → (b : Ref sig .tc) → Buf (Elt F) ((c : Thread nD τ).loc b) := fun c b => U10 m c b

/-- What region 2 leaves. -/
def o11 (r : Ref sig .tc) (c : Dev nD) : Buf (Elt F) ((c : Thread nD τ).loc r) :=
  Pipeline.withArrays spec2 c (U10 m c) (fun w => (dat2 (E2 m) c).arrAt w cfg2.N) (Proc.devRef .tc r)

abbrev U11 (c : Dev nD) : Valuation τ sig (Elt F) := Function.update (U10 m c) main_v76 (o11 m main_v76 c)
abbrev U12 (c : Dev nD) : Valuation τ sig (Elt F) := StableHlo.after hostOps3 (U11 m c)
/-- Region 3's entry values. -/
abbrev E3 : (c : Dev nD) → (b : Ref sig .tc) → Buf (Elt F) ((c : Thread nD τ).loc b) := fun c b => U12 m c b

/-- What region 3 leaves. -/
def o13 (r : Ref sig .tc) (c : Dev nD) : Buf (Elt F) ((c : Thread nD τ).loc r) :=
  Pipeline.withArrays spec3 c (U12 m c) (fun w => (dat3 (E3 m) c).arrAt w cfg3.N) (Proc.devRef .tc r)

abbrev U13 (c : Dev nD) : Valuation τ sig (Elt F) := Function.update (U12 m c) main_v87 (o13 m main_v87 c)

/-- What the four regions leave in their output arrays, by the item after which it is read. -/
def outs : Outs (F := F) := fun j => match j with
  | 4 => o4 m
  | 7 => o7 m
  | 11 => o11 m
  | 13 => o13 m
  | _ => o4 m

theorem V4_eq (c : Dev nD) : V4 m (outs m) c = U4 m c := rfl
theorem V6_eq (c : Dev nD) : V6 m (outs m) c = U6 m c := rfl
theorem V7_eq (c : Dev nD) : V7 m (outs m) c = U7 m c := rfl
theorem V10_eq (c : Dev nD) : V10 m (outs m) c = U10 m c := rfl
theorem V11_eq (c : Dev nD) : V11 m (outs m) c = U11 m c := rfl
theorem V12_eq (c : Dev nD) : V12 m (outs m) c = U12 m c := rfl
theorem V13_eq (c : Dev nD) : V13 m (outs m) c = U13 m c := rfl

/-! ## Each region's output array ends at what its write-backs leave -/

theorem out0_eq (c : Dev nD) : V4 m (outs m) c main_v21 = (dat0 (fun c b => V3 m c b) c).arrAt 2 cfg0.N := by
  show Function.update (V3 m c) (Proc.devRef .tc main_v21) (o4 m main_v21 c) (Proc.devRef .tc main_v21) = (dat0 (E0 m) c).arrAt 2 cfg0.N
  rw [Function.update_self]
  exact Pipeline.withArrays_arr spec0 launch0.win.arr_inj c _ _ 2

theorem out1_eq (c : Dev nD) : V7 m (outs m) c main_v45 = (dat1 (fun c b => V6 m (outs m) c b) c).arrAt 2 cfg1.N := by
  show Function.update (U6 m c) (Proc.devRef .tc main_v45) (o7 m main_v45 c) (Proc.devRef .tc main_v45) = (dat1 (E1 m) c).arrAt 2 cfg1.N
  rw [Function.update_self]
  exact Pipeline.withArrays_arr spec1 launch1.win.arr_inj c _ _ 2

theorem out2_eq (c : Dev nD) : V11 m (outs m) c main_v76 = (dat2 (fun c b => V10 m (outs m) c b) c).arrAt 2 cfg2.N := by
  show Function.update (U10 m c) (Proc.devRef .tc main_v76) (o11 m main_v76 c) (Proc.devRef .tc main_v76) = (dat2 (E2 m) c).arrAt 2 cfg2.N
  rw [Function.update_self]
  exact Pipeline.withArrays_arr spec2 launch2.win.arr_inj c _ _ 2

theorem out3_eq (c : Dev nD) : V13 m (outs m) c main_v87 = (dat3 (fun c b => V12 m (outs m) c b) c).arrAt 7 cfg3.N := by
  show Function.update (U12 m c) (Proc.devRef .tc main_v87) (o13 m main_v87 c) (Proc.devRef .tc main_v87) = (dat3 (E3 m) c).arrAt 7 cfg3.N
  rw [Function.update_self]
  exact Pipeline.withArrays_arr spec3 launch3.win.arr_inj c _ _ 7

/-! ## The two facts that put a region's arrays back among the unscoped buffers -/

/-- Region 0's entry and exit values read at the TensorCore's references. -/
abbrev N0 : (c : Dev nD) → (b : Ref sig .tc) → Buf (Elt F) ((c : Thread nD τ).loc b) := fun c b => V3 m c b
abbrev X0 : (c : Dev nD) → (b : Ref sig .tc) → Buf (Elt F) ((c : Thread nD τ).loc b) := fun c b => V4 m (outs m) c b
/-- At region 0's exit each of its arrays holds what the pipeline leaves: an input is never written back, so it
    holds its entry value, which the exit value keeps; the output is the one buffer the exit value replaces. -/
theorem hF0 (c : Dev nD) : ∀ w : Fin cfg0.W, (dat0 (N0 m) c).arrAt w cfg0.N = X0 m c (Pipeline.arrRef spec0 w)
  | ⟨0, _⟩ => (((dat0 (N0 m) c).arrAt_in 0 rfl _).trans (A_eq0 (N0 m) c 0)).trans (V4_of m (outs m) c main_arg0 (by decide)).symm
  | ⟨1, _⟩ => (((dat0 (N0 m) c).arrAt_in 1 rfl _).trans (A_eq0 (N0 m) c 1)).trans (V4_of m (outs m) c main_arg3 (by decide)).symm
  | ⟨2, _⟩ => (out0_eq m c).symm
  | ⟨_ + 3, h⟩ => absurd h (Nat.not_lt.2 (Nat.le_add_left _ _))
/-- Off the region's arrays the exit value is the entry value: only the output array is replaced. -/
theorem hrest0 (c : Dev nD) : ∀ b, b ∉ Finset.univ.image (Pipeline.arrRef spec0) → X0 m c b = N0 m c b :=
  fun b hb => V4_of m (outs m) c b fun h => hb (Finset.mem_image.mpr ⟨2, Finset.mem_univ _, (List.mem_singleton.mp h).symm⟩)

/-- Region 1's entry and exit values read at the TensorCore's references. -/
abbrev N1 : (c : Dev nD) → (b : Ref sig .tc) → Buf (Elt F) ((c : Thread nD τ).loc b) := fun c b => V6 m (outs m) c b
abbrev X1 : (c : Dev nD) → (b : Ref sig .tc) → Buf (Elt F) ((c : Thread nD τ).loc b) := fun c b => V7 m (outs m) c b
/-- At region 1's exit each of its arrays holds what the pipeline leaves: an input is never written back, so it
    holds its entry value, which the exit value keeps; the output is the one buffer the exit value replaces. -/
theorem hF1 (c : Dev nD) : ∀ w : Fin cfg1.W, (dat1 (N1 m) c).arrAt w cfg1.N = X1 m c (Pipeline.arrRef spec1 w)
  | ⟨0, _⟩ => (((dat1 (N1 m) c).arrAt_in 0 rfl _).trans (A_eq1 (N1 m) c 0)).trans (V7_of m (outs m) c main_v44 (by decide)).symm
  | ⟨1, _⟩ => (((dat1 (N1 m) c).arrAt_in 1 rfl _).trans (A_eq1 (N1 m) c 1)).trans (V7_of m (outs m) c main_arg5 (by decide)).symm
  | ⟨2, _⟩ => (out1_eq m c).symm
  | ⟨_ + 3, h⟩ => absurd h (Nat.not_lt.2 (Nat.le_add_left _ _))
/-- Off the region's arrays the exit value is the entry value: only the output array is replaced. -/
theorem hrest1 (c : Dev nD) : ∀ b, b ∉ Finset.univ.image (Pipeline.arrRef spec1) → X1 m c b = N1 m c b :=
  fun b hb => V7_of m (outs m) c b fun h => hb (Finset.mem_image.mpr ⟨2, Finset.mem_univ _, (List.mem_singleton.mp h).symm⟩)

/-- Region 2's entry and exit values read at the TensorCore's references. -/
abbrev N2 : (c : Dev nD) → (b : Ref sig .tc) → Buf (Elt F) ((c : Thread nD τ).loc b) := fun c b => V10 m (outs m) c b
abbrev X2 : (c : Dev nD) → (b : Ref sig .tc) → Buf (Elt F) ((c : Thread nD τ).loc b) := fun c b => V11 m (outs m) c b
/-- At region 2's exit each of its arrays holds what the pipeline leaves: an input is never written back, so it
    holds its entry value, which the exit value keeps; the output is the one buffer the exit value replaces. -/
theorem hF2 (c : Dev nD) : ∀ w : Fin cfg2.W, (dat2 (N2 m) c).arrAt w cfg2.N = X2 m c (Pipeline.arrRef spec2 w)
  | ⟨0, _⟩ => (((dat2 (N2 m) c).arrAt_in 0 rfl _).trans (A_eq2 (N2 m) c 0)).trans (V11_of m (outs m) c main_v68 (by decide)).symm
  | ⟨1, _⟩ => (((dat2 (N2 m) c).arrAt_in 1 rfl _).trans (A_eq2 (N2 m) c 1)).trans (V11_of m (outs m) c main_v75 (by decide)).symm
  | ⟨2, _⟩ => (out2_eq m c).symm
  | ⟨_ + 3, h⟩ => absurd h (Nat.not_lt.2 (Nat.le_add_left _ _))
/-- Off the region's arrays the exit value is the entry value: only the output array is replaced. -/
theorem hrest2 (c : Dev nD) : ∀ b, b ∉ Finset.univ.image (Pipeline.arrRef spec2) → X2 m c b = N2 m c b :=
  fun b hb => V11_of m (outs m) c b fun h => hb (Finset.mem_image.mpr ⟨2, Finset.mem_univ _, (List.mem_singleton.mp h).symm⟩)

/-- Region 3's entry and exit values read at the TensorCore's references. -/
abbrev N3 : (c : Dev nD) → (b : Ref sig .tc) → Buf (Elt F) ((c : Thread nD τ).loc b) := fun c b => V12 m (outs m) c b
abbrev X3 : (c : Dev nD) → (b : Ref sig .tc) → Buf (Elt F) ((c : Thread nD τ).loc b) := fun c b => V13 m (outs m) c b
set_option maxHeartbeats 4000000 in
/-- At region 3's exit each of its arrays holds what the pipeline leaves: an input is never written back, so it
    holds its entry value, which the exit value keeps; the output is the one buffer the exit value replaces. -/
theorem hF3 (c : Dev nD) : ∀ w : Fin cfg3.W, (dat3 (N3 m) c).arrAt w cfg3.N = X3 m c (Pipeline.arrRef spec3 w)
  | ⟨0, _⟩ => (((dat3 (N3 m) c).arrAt_in 0 rfl _).trans (A_eq3 (N3 m) c 0)).trans (V13_of m (outs m) c main_v83 (by decide)).symm
  | ⟨1, _⟩ => (((dat3 (N3 m) c).arrAt_in 1 rfl _).trans (A_eq3 (N3 m) c 1)).trans (V13_of m (outs m) c main_arg7 (by decide)).symm
  | ⟨2, _⟩ => (((dat3 (N3 m) c).arrAt_in 2 rfl _).trans (A_eq3 (N3 m) c 2)).trans (V13_of m (outs m) c main_v84 (by decide)).symm
  | ⟨3, _⟩ => (((dat3 (N3 m) c).arrAt_in 3 rfl _).trans (A_eq3 (N3 m) c 3)).trans (V13_of m (outs m) c main_arg9 (by decide)).symm
  | ⟨4, _⟩ => (((dat3 (N3 m) c).arrAt_in 4 rfl _).trans (A_eq3 (N3 m) c 4)).trans (V13_of m (outs m) c main_v85 (by decide)).symm
  | ⟨5, _⟩ => (((dat3 (N3 m) c).arrAt_in 5 rfl _).trans (A_eq3 (N3 m) c 5)).trans (V13_of m (outs m) c main_arg11 (by decide)).symm
  | ⟨6, _⟩ => (((dat3 (N3 m) c).arrAt_in 6 rfl _).trans (A_eq3 (N3 m) c 6)).trans (V13_of m (outs m) c main_v86 (by decide)).symm
  | ⟨7, _⟩ => (out3_eq m c).symm
  | ⟨_ + 8, h⟩ => absurd h (Nat.not_lt.2 (Nat.le_add_left _ _))
/-- Off the region's arrays the exit value is the entry value: only the output array is replaced. -/
theorem hrest3 (c : Dev nD) : ∀ b, b ∉ Finset.univ.image (Pipeline.arrRef spec3) → X3 m c b = N3 m c b :=
  fun b hb => V13_of m (outs m) c b fun h => hb (Finset.mem_image.mpr ⟨7, Finset.mem_univ _, (List.mem_singleton.mp h).symm⟩)

/-! ## The proof data family and the thread state -/

/-- Every pipeline's proof data, each at its region's entry values. -/
def pdats : (p : Fin 4) → (c : Dev nD) → Dat τ (Elt F) Unit ℕ (UR sig nD τ) ℕ (Pipeline.pin (pcfgs (F := F)) adm p) c
  | ⟨0, _⟩ => fun c => dat0 (fun c b => V3 m c b) c
  | ⟨1, _⟩ => fun c => dat1 (fun c b => V6 m (outs m) c b) c
  | ⟨2, _⟩ => fun c => dat2 (fun c b => V10 m (outs m) c b) c
  | ⟨3, _⟩ => fun c => dat3 (fun c b => V12 m (outs m) c b) c

/-- No core owes another anything: no level is assigned. -/
abbrev L : GSem nD τ sig → Finset Unit := fun _ => ∅
abbrev lv : GSem nD τ sig → Unit → ℕ := fun _ _ => 0
/-- What rides beside the buffers through every segment: the generator register at some state and
    the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the entry values, left at the exit values.
    Its arrays are split out of the unscoped buffers and put back at the exit values; the generator register goes into
    the invariant and comes out; nothing is owed; the kernel has no semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (N0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (N0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (N0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (N0 m c) (X0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the entry values, left at the exit values.
    Its arrays are split out of the unscoped buffers and put back at the exit values; the generator register goes into
    the invariant and comes out; nothing is owed; the kernel has no semaphore of its own. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (N1 m) c).loose
  hwaits := Pipeline.hwaits_of_owed_zero _ _ _ _ L lv 1 fun _ _ => rfl
  pre c := iprop(StableHlo.held (c : Thread nD τ) (Pipeline.ucRefs τ sig) (V6 m (outs m) c) ∗ R c)
  post c := iprop(StableHlo.held (c : Thread nD τ) (Pipeline.ucRefs τ sig) (V7 m (outs m) c) ∗ R c)
  X c := iprop(∃ r, prngReg c r)
  Y c := iprop(∃ r, prngReg c r)
  Z c := Pipeline.unscopedRest (Ix := Unit) (Name := ℕ) (U := UR sig nD τ) (Lvl := ℕ) spec1 c (N1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (N1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (N1 m c) (X1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the entry values, left at the exit values.
    Its arrays are split out of the unscoped buffers and put back at the exit values; the generator register goes into
    the invariant and comes out; nothing is owed; the kernel has no semaphore of its own. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (N2 m) c).loose
  hwaits := Pipeline.hwaits_of_owed_zero _ _ _ _ L lv 2 fun _ _ => rfl
  pre c := iprop(StableHlo.held (c : Thread nD τ) (Pipeline.ucRefs τ sig) (V10 m (outs m) c) ∗ R c)
  post c := iprop(StableHlo.held (c : Thread nD τ) (Pipeline.ucRefs τ sig) (V11 m (outs m) c) ∗ R c)
  X c := iprop(∃ r, prngReg c r)
  Y c := iprop(∃ r, prngReg c r)
  Z c := Pipeline.unscopedRest (Ix := Unit) (Name := ℕ) (U := UR sig nD τ) (Lvl := ℕ) spec2 c (N2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (N2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (N2 m) c)
    unfold Pipeline.ΦA
    iintro ⟨Hp, -, Hr⟩
    isplitl [Hr]; · iexact Hr
    iexact Hp
  hout c := by
    refine BIBase.Entails.trans (hout2 (N2 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (N2 m c) (X2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at the entry values, left at the exit values.
    Its arrays are split out of the unscoped buffers and put back at the exit values; the generator register goes into
    the invariant and comes out; nothing is owed; the kernel has no semaphore of its own. -/
def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (N3 m) c).loose
  hwaits := Pipeline.hwaits_of_owed_zero _ _ _ _ L lv 3 fun _ _ => rfl
  pre c := iprop(StableHlo.held (c : Thread nD τ) (Pipeline.ucRefs τ sig) (V12 m (outs m) c) ∗ R c)
  post c := iprop(StableHlo.held (c : Thread nD τ) (Pipeline.ucRefs τ sig) (V13 m (outs m) c) ∗ R c)
  X c := iprop(∃ r, prngReg c r)
  Y c := iprop(∃ r, prngReg c r)
  Z c := Pipeline.unscopedRest (Ix := Unit) (Name := ℕ) (U := UR sig nD τ) (Lvl := ℕ) spec3 c (N3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (N3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (N3 m c) (X3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch of the segments -/

/-- What rides beside the buffers ends owing nothing. -/
theorem R_owes (c : Dev nD) : (R (F := F) c) ⊢ (iprop(∃ W, owes (c : Thread nD τ) (0 : CellTallies nD τ sig Unit) W) : sProp 𝕄) := by
  iintro ⟨-, H⟩; iexact H

set_option backward.isDefEq.respectTransparency.types false in
/-- THE RUN: every weakly fair execution of the program from memory `m` with zero counters ends, and in every final
    memory the result buffer holds what the last region's write-backs leave and every argument its launch value:
    the program is the chain of its thirteen segments, each entered from what the one before left; the last thread
    state, every unscoped buffer at the last values, is read against the final memory. -/
theorem run_all (ρ : Dev nD → PrngReg) : θ_run defs (onTc (τ := τ) (main (F := F))) ⟨m, fun _ => 0, ρ⟩ (fun r => ∀ c : Dev nD,
      r.2.mem ((c.tc : Thread nD τ).loc main_v87) = V13 m (outs m) c main_v87
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine Pipeline.θ_run_regions_kit_dev (pcfgs (F := F)) adm (pdats m) () cellOf_inj emb₁ defs₀ Variants.none L lv m ρ main
    (segs m (outs m) Variants.none L lv (fun _ => R (F := F)) () (pdats m) (reg0 m) (reg1 m) (reg2 m) (reg3 m))
    (fun c Q => by
      rewrite [main_chain c, Seg.run_eq_chain,
        show (segs m (outs m) Variants.none L lv (fun _ => R (F := F)) () (pdats m) (reg0 m) (reg1 m) (reg2 m) (reg3 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, .rfl, .rfl, sep_mono .rfl (R_owes c)⟩)
    (hinit := ?_)
    (QY := fun c s => s.mem ((c.tc : Thread nD τ).loc main_v87) = V13 m (outs m) c main_v87 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12))
    (hfin := fun c s' => ?_) (hQ := fun _ h => h)
  · -- the launch: each core's unscoped buffers are held at the launch values; its generator register and its owing
    -- nothing ride beside them
    refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the result buffer and each argument's buffer read off the last values
    unfold StableHlo.held
    iintro ⟨Hh, HSI⟩
    ihave Hr := (pointsTo_read_all (Pipeline.ucRefs τ sig) (fun b => ((c : Thread nD τ).1, b)) (V13 m (outs m) c) s') $$ [Hh HSI]
    · isplitl [Hh] <;> iassumption
    icases Hr with ⟨%h, HSI⟩
    imodintro
    isplitr
    · ipureintro
      exact ⟨h (Proc.devRef .tc main_v87) (Finset.mem_filter.mpr ⟨StableHlo.devRef_mem_tcRefs main_v87, by decide⟩),
        (h (Proc.devRef .tc main_arg0) (Finset.mem_filter.mpr ⟨StableHlo.devRef_mem_tcRefs main_arg0, by decide⟩)).trans (V13_main_arg0 m (outs m) c),
        (h (Proc.devRef .tc main_arg1) (Finset.mem_filter.mpr ⟨StableHlo.devRef_mem_tcRefs main_arg1, by decide⟩)).trans (V13_main_arg1 m (outs m) c),
        (h (Proc.devRef .tc main_arg2) (Finset.mem_filter.mpr ⟨StableHlo.devRef_mem_tcRefs main_arg2, by decide⟩)).trans (V13_main_arg2 m (outs m) c),
        (h (Proc.devRef .tc main_arg3) (Finset.mem_filter.mpr ⟨StableHlo.devRef_mem_tcRefs main_arg3, by decide⟩)).trans (V13_main_arg3 m (outs m) c),
        (h (Proc.devRef .tc main_arg4) (Finset.mem_filter.mpr ⟨StableHlo.devRef_mem_tcRefs main_arg4, by decide⟩)).trans (V13_main_arg4 m (outs m) c),
        (h (Proc.devRef .tc main_arg5) (Finset.mem_filter.mpr ⟨StableHlo.devRef_mem_tcRefs main_arg5, by decide⟩)).trans (V13_main_arg5 m (outs m) c),
        (h (Proc.devRef .tc main_arg6) (Finset.mem_filter.mpr ⟨StableHlo.devRef_mem_tcRefs main_arg6, by decide⟩)).trans (V13_main_arg6 m (outs m) c),
        (h (Proc.devRef .tc main_arg7) (Finset.mem_filter.mpr ⟨StableHlo.devRef_mem_tcRefs main_arg7, by decide⟩)).trans (V13_main_arg7 m (outs m) c),
        (h (Proc.devRef .tc main_arg8) (Finset.mem_filter.mpr ⟨StableHlo.devRef_mem_tcRefs main_arg8, by decide⟩)).trans (V13_main_arg8 m (outs m) c),
        (h (Proc.devRef .tc main_arg9) (Finset.mem_filter.mpr ⟨StableHlo.devRef_mem_tcRefs main_arg9, by decide⟩)).trans (V13_main_arg9 m (outs m) c),
        (h (Proc.devRef .tc main_arg10) (Finset.mem_filter.mpr ⟨StableHlo.devRef_mem_tcRefs main_arg10, by decide⟩)).trans (V13_main_arg10 m (outs m) c),
        (h (Proc.devRef .tc main_arg11) (Finset.mem_filter.mpr ⟨StableHlo.devRef_mem_tcRefs main_arg11, by decide⟩)).trans (V13_main_arg11 m (outs m) c),
        (h (Proc.devRef .tc main_arg12) (Finset.mem_filter.mpr ⟨StableHlo.devRef_mem_tcRefs main_arg12, by decide⟩)).trans (V13_main_arg12 m (outs m) c)⟩
    · iexact HSI

/-- THE FRAME: every argument ends at its launch value. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => (h c).2) (run_all m ρ)

end Cert.KernelIdeal.Gen

end
-- ==== Proof.Law.GcnDefs.lean ====
/-
  One graph-convolution layer at the ideal values, in the two association orders the two programs print: the
  definitions. With hl the transformed features [N, C], dv the vector of inverse square-root degrees [N], s and t the
  source and target node of each edge (self loops included) and b the bias, both forms are
      max ( A + b, 0 ),     A[p, c] = ∑ over the edges k with target p of  dv[s k] * hl[s k, c] * dv[p].
  One form scales the rows of hl by dv before the rows are taken along the edges and scales the accumulated rows by dv
  afterwards; the other takes the rows of hl, multiplies each taken row by the product of the two gathered degrees, and
  accumulates.
-/
import proofs.«420645_j83519934038548_2_alg».proof.KernelIdeal
import proofs.«420645_j83519934038548_2_alg».proof.ReferenceIdeal
import Idealize.ShloMosaic.PureOps.Ideal

noncomputable section

open scoped BigOperators

namespace Cert.Law

open Idealize.ShloMosaic

namespace K

open Cert.KernelIdeal Cert.KernelIdeal.Facts₀

variable [Cert.KernelIdeal.Facts₀]

/-- Index normalisation: a negative node id counts from the end; the result is the column [K, 1] of ids. -/
def nrm (v : (⟨S690000, .i32⟩ : BufTy).Contents (Elt Ideal)) : (⟨S690000x1, .i32⟩ : BufTy).Contents (Elt Ideal) :=
  broadcastInDim S690000x1 ![0] bcast_S690000_S690000x1_0
    (select (cmpi .slt v (broadcastInDim S690000 ![] bcast_S_S690000 (constantI S_ 32 0#32)))
      (addi v (broadcastInDim S690000 ![] bcast_S_S690000 (constantI S_ 32 50000#32))) v)

/-- The degree vector as a column [N, 1]. -/
def dcol (dv : (⟨S50000, .f32⟩ : BufTy).Contents (Elt Ideal)) : (⟨S50000x1, .f32⟩ : BufTy).Contents (Elt Ideal) :=
  broadcastInDim S50000x1 ![0] bcast_S50000_S50000x1_0 dv

/-- The layer with the rows scaled before they are taken and the accumulated rows scaled after. -/
def layer (hl : (⟨S50000x128, .f32⟩ : BufTy).Contents (Elt Ideal))
    (dcol : (⟨S50000x1, .f32⟩ : BufTy).Contents (Elt Ideal))
    (s5 d6 : (⟨S690000, .i32⟩ : BufTy).Contents (Elt Ideal))
    (b : (⟨S128, .f32⟩ : BufTy).Contents (Elt Ideal)) : (⟨S50000x128, .f32⟩ : BufTy).Contents (Elt Ideal) :=
  maximumf (F := Ideal) (φ := .f32)
    (addf (F := Ideal) (φ := .f32)
      (mulf (F := Ideal) (φ := .f32)
        (Host.scatterAdd (F := Ideal) (φ := .f32) scatter_S50000x128_S690000x1_S690000x128_1_0_0_1
          (broadcastInDim S50000x128 ![] bcast_S_S50000x128 (constant (F := Ideal) S_ .f32 0x00000000#32))
          (nrm d6)
          (Host.gather gather_S50000x128_S690000x1_S690000x128_1_0_n_n_0_1_1128
            (mulf (F := Ideal) (φ := .f32) hl (broadcastInDim S50000x128 ![0, 1] bcast_S50000x1_S50000x128_0_1 dcol))
            (nrm s5)))
        (broadcastInDim S50000x128 ![0, 1] bcast_S50000x1_S50000x128_0_1 dcol))
      (broadcastInDim S50000x128 ![0, 1] bcast_S1x128_S50000x128_0_1
        (broadcastInDim S1x128 ![1] bcast_S128_S1x128_1 b)))
    (broadcastInDim S50000x128 ![] bcast_S_S50000x128 (constant (F := Ideal) S_ .f32 0x00000000#32))

end K

namespace R

open Cert.ReferenceIdeal Cert.ReferenceIdeal.Facts₀

variable [Cert.ReferenceIdeal.Facts₀]

/-- Index normalisation: a negative node id counts from the end; the result is the column [K, 1] of ids. -/
def nrm (v : (⟨S690000, .i32⟩ : BufTy).Contents (Elt Ideal)) : (⟨S690000x1, .i32⟩ : BufTy).Contents (Elt Ideal) :=
  broadcastInDim S690000x1 ![0] bcast_S690000_S690000x1_0
    (select (cmpi .slt v (broadcastInDim S690000 ![] bcast_S_S690000 (constantI S_ 32 0#32)))
      (addi v (broadcastInDim S690000 ![] bcast_S_S690000 (constantI S_ 32 50000#32))) v)

/-- The inverse square-root degree: 1 / √deg where deg is positive, 0 elsewhere. -/
def dinv (deg : (⟨S50000, .f32⟩ : BufTy).Contents (Elt Ideal)) : (⟨S50000, .f32⟩ : BufTy).Contents (Elt Ideal) :=
  select (cmpf (F := Ideal) (φ := .f32) .ogt deg (broadcastInDim S50000 ![] bcast_S_S50000 (constant (F := Ideal) S_ .f32 0x00000000#32)))
    (Host.rsqrt (F := Ideal) (φ := .f32) deg)
    (broadcastInDim S50000 ![] bcast_S_S50000 (id (constant (F := Ideal) S_ .f32 0x00000000#32)))

/-- The layer with each taken row multiplied by the product of the two gathered degrees before accumulation. -/
def layer (hl : (⟨S50000x128, .f32⟩ : BufTy).Contents (Elt Ideal))
    (dv : (⟨S50000, .f32⟩ : BufTy).Contents (Elt Ideal))
    (s5 d6 : (⟨S690000, .i32⟩ : BufTy).Contents (Elt Ideal))
    (b : (⟨S128, .f32⟩ : BufTy).Contents (Elt Ideal)) : (⟨S50000x128, .f32⟩ : BufTy).Contents (Elt Ideal) :=
  maximumf (F := Ideal) (φ := .f32)
    (addf (F := Ideal) (φ := .f32)
      (Host.scatterAdd (F := Ideal) (φ := .f32) scatter_S50000x128_S690000x1_S690000x128_1_0_0_1
        (broadcastInDim S50000x128 ![] bcast_S_S50000x128 (constant (F := Ideal) S_ .f32 0x00000000#32))
        (nrm d6)
        (mulf (F := Ideal) (φ := .f32)
          (Host.gather gather_S50000x128_S690000x1_S690000x128_1_0_n_n_0_1_1128 hl (nrm s5))
          (broadcastInDim S690000x128 ![0, 1] bcast_S690000x1_S690000x128_0_1
            (broadcastInDim S690000x1 ![0] bcast_S690000_S690000x1_0
              (mulf (F := Ideal) (φ := .f32)
                (Host.gather gather_S50000_S690000x1_S690000_n_0_n_n_0_1_1 dv (nrm s5))
                (Host.gather gather_S50000_S690000x1_S690000_n_0_n_n_0_1_1 dv (nrm d6)))))))
      (broadcastInDim S50000x128 ![0, 1] bcast_S1x128_S50000x128_0_1
        (broadcastInDim S1x128 ![1] bcast_S128_S1x128_1 b)))
    (broadcastInDim S50000x128 ![] bcast_S_S50000x128 (constant (F := Ideal) S_ .f32 0x00000000#32))

end R

end Cert.Law

end
-- ==== Proof.Law.PoolDefs.lean ====
/-
  Mean pooling over 64 graphs, the kernel's way and the reference's, as the printed programs spell them, at the
  ideal values (extended reals).

  The kernel builds the membership table onehot[n, g] = (batch[n] = g) as 0/1, its counts are the column sums of
  the table, and it divides its sums by max(count, 1). The reference accumulates the rows of h, and ones, at the
  row index batch[n], and divides the same way.
-/
import proofs.«420645_j83519934038548_2_alg».proof.KernelIdeal
import proofs.«420645_j83519934038548_2_alg».proof.ReferenceIdeal
import Idealize.ShloMosaic.PureOps.Ideal

noncomputable section

namespace Cert.Law

open Idealize.ShloMosaic Idealize.SL.Sem

variable [Cert.KernelIdeal.Facts₀] [Cert.ReferenceIdeal.Facts₀]

namespace K
open Cert.KernelIdeal Cert.KernelIdeal.Facts₀

/-- The membership table: entry (n, g) is 1 when node n's graph word is g, else 0. -/
def onehot (batch : (⟨S50000, .i32⟩ : BufTy).Contents (Elt Ideal)) : (⟨S50000x64, .bf16⟩ : BufTy).Contents (Elt Ideal) :=
  uitofp (F := Ideal) .bf16 (cmpi .eq
    (broadcastInDim S50000x64 ![0, 1] bcast_S50000x1_S50000x64_0_1 (broadcastInDim S50000x1 ![0] bcast_S50000_S50000x1_0 batch))
    (broadcastInDim S50000x64 ![0, 1] bcast_S1x64_S50000x64_0_1 (broadcastInDim S1x64 ![1] bcast_S64_S1x64_1 (iotaInDim S64 32 0))))

/-- The means: the sums over max(count, 1), the divisor spread over the columns. -/
def mean (sums : (⟨S64x128, .f32⟩ : BufTy).Contents (Elt Ideal)) (oh : (⟨S50000x64, .bf16⟩ : BufTy).Contents (Elt Ideal)) :
    (⟨S64x128, .f32⟩ : BufTy).Contents (Elt Ideal) :=
  Host.divf (F := Ideal) sums (broadcastInDim S64x128 ![0, 1] bcast_S64x1_S64x128_0_1 (broadcastInDim S64x1 ![0] bcast_S64_S64x1_0
    (maximumf (Host.reduceAdd (F := Ideal) (extf .f32 oh bitsLt_bf16_f32) (constant S_ .f32 0x00000000#32) reducesTo_S50000x64_S64_d0 h_S_)
      (broadcastInDim S64 ![] bcast_S_S64 (constant S_ .f32 0x3F800000#32)))))

end K

namespace R
open Cert.ReferenceIdeal Cert.ReferenceIdeal.Facts₀

/-- The sums: the rows of h accumulated at their graph index, from zero. -/
def pool (h : (⟨S50000x128, .f32⟩ : BufTy).Contents (Elt Ideal)) (batch : (⟨S50000, .i32⟩ : BufTy).Contents (Elt Ideal)) :
    (⟨S64x128, .f32⟩ : BufTy).Contents (Elt Ideal) :=
  Host.scatterAdd (F := Ideal) scatter_S64x128_S50000x1_S50000x128_1_0_0_1
    (broadcastInDim S64x128 ![] bcast_S_S64x128 (constant S_ .f32 0x00000000#32))
    (broadcastInDim S50000x1 ![0] bcast_S50000_S50000x1_0 batch) h

/-- The counts: ones accumulated at the graph index, from zero. -/
def cnt (batch : (⟨S50000, .i32⟩ : BufTy).Contents (Elt Ideal)) : (⟨S64, .f32⟩ : BufTy).Contents (Elt Ideal) :=
  Host.scatterAdd (F := Ideal) scatter_S64_S50000x1_S50000_n_0_0_1
    (broadcastInDim S64 ![] bcast_S_S64 (constant S_ .f32 0x00000000#32))
    (broadcastInDim S50000x1 ![0] bcast_S50000_S50000x1_0 batch)
    (broadcastInDim S50000 ![] bcast_S_S50000 (constant S_ .f32 0x3F800000#32))

/-- The means: the sums over max(count, 1), the divisor spread over the columns. -/
def mean (sums : (⟨S64x128, .f32⟩ : BufTy).Contents (Elt Ideal)) (batch : (⟨S50000, .i32⟩ : BufTy).Contents (Elt Ideal)) :
    (⟨S64x128, .f32⟩ : BufTy).Contents (Elt Ideal) :=
  Host.divf (F := Ideal) sums (broadcastInDim S64x128 ![0, 1] bcast_S64x1_S64x128_0_1 (broadcastInDim S64x1 ![0] bcast_S64_S64x1_0
    (maximumf (cnt batch) (broadcastInDim S64 ![] bcast_S_S64 (constant S_ .f32 0x3F800000#32)))))

end R

end Cert.Law

end
-- ==== Proof.Law.DenseDefs.lean ====
import proofs.«420645_j83519934038548_2_alg».proof.KernelIdeal
import proofs.«420645_j83519934038548_2_alg».proof.ReferenceIdeal
import Idealize.ShloMosaic.PureOps.Ideal

/-! # The dense stages of the reference, and the bias rows, as functions of their inputs

Floats are the extended reals. `R.lin` is the whole-array linear transform, `R.mlp` the three-layer
head (product, bias, maximum against zero, twice; then product and bias), each the literal composition
of the reference's operators. `K.brow64`, `K.brow32`, `K.brow1` are the bias vectors recast as one-row
matrices. -/

set_option synthInstance.maxSize 4096

noncomputable section

namespace Cert.Law

open Idealize.ShloMosaic Idealize.SL.Sem

namespace R

open Cert.ReferenceIdeal Cert.ReferenceIdeal.Facts₀

variable [Cert.ReferenceIdeal.Facts₀]

/-- The reference's whole-array linear transform: `dot_general` of the [50000,128] features with the
    [128,128] weights. -/
def lin (x : (⟨S50000x128, .f32⟩ : BufTy).Contents (Elt Ideal)) (W : (⟨S128x128, .f32⟩ : BufTy).Contents (Elt Ideal)) : (⟨S50000x128, .f32⟩ : BufTy).Contents (Elt Ideal) :=
  Host.dotGeneral (F := Ideal) (φ₁ := .f32) (φ₂ := .f32) dot_S50000x128_S128x128_S50000x128_1_0_0_1_n_n none x W

/-- The reference's three-layer head over the pooled features: product, bias, maximum against zero,
    twice; then product and bias. -/
def mlp (g : (⟨S64x128, .f32⟩ : BufTy).Contents (Elt Ideal)) (W1 : (⟨S128x64, .f32⟩ : BufTy).Contents (Elt Ideal)) (b1 : (⟨S64, .f32⟩ : BufTy).Contents (Elt Ideal))
    (W2 : (⟨S64x32, .f32⟩ : BufTy).Contents (Elt Ideal)) (b2 : (⟨S32, .f32⟩ : BufTy).Contents (Elt Ideal)) (W3 : (⟨S32x1, .f32⟩ : BufTy).Contents (Elt Ideal)) (b3 : (⟨S1, .f32⟩ : BufTy).Contents (Elt Ideal)) : (⟨S64x1, .f32⟩ : BufTy).Contents (Elt Ideal) :=
  addf (F := Ideal) (Host.dotGeneral (F := Ideal) (φ₁ := .f32) (φ₂ := .f32) dot_S64x32_S32x1_S64x1_1_0_0_1_n_n none
    (maximumf (F := Ideal) (addf (F := Ideal) (Host.dotGeneral (F := Ideal) (φ₁ := .f32) (φ₂ := .f32) dot_S64x64_S64x32_S64x32_1_0_0_1_n_n none
      (maximumf (F := Ideal) (addf (F := Ideal) (Host.dotGeneral (F := Ideal) (φ₁ := .f32) (φ₂ := .f32) dot_S64x128_S128x64_S64x64_1_0_0_1_n_n none g W1)
          (broadcastInDim S64x64 ![0, 1] bcast_S1x64_S64x64_0_1 (broadcastInDim S1x64 ![1] bcast_S64_S1x64_1 b1)))
        (broadcastInDim S64x64 ![] bcast_S_S64x64 (constant (F := Ideal) S_ .f32 0x00000000#32))) W2)
        (broadcastInDim S64x32 ![0, 1] bcast_S1x32_S64x32_0_1 (broadcastInDim S1x32 ![1] bcast_S32_S1x32_1 b2)))
      (broadcastInDim S64x32 ![] bcast_S_S64x32 (constant (F := Ideal) S_ .f32 0x00000000#32))) W3)
    (broadcastInDim S64x1 ![0, 1] bcast_S1x1_S64x1_0_1 (broadcastInDim S1x1 ![1] bcast_S1_S1x1_1 b3))

end R

namespace K

open Cert.KernelIdeal Cert.KernelIdeal.Facts₀

variable [Cert.KernelIdeal.Facts₀]

/-- The [64] bias as the [1,64] row the head reads. -/
def brow64 (b : (⟨S64, .f32⟩ : BufTy).Contents (Elt Ideal)) : (⟨S1x64, .f32⟩ : BufTy).Contents (Elt Ideal) := shapeCast _ b shapeCasts_S64_S1x64
/-- The [32] bias as a [1,32] row. -/
def brow32 (b : (⟨S32, .f32⟩ : BufTy).Contents (Elt Ideal)) : (⟨S1x32, .f32⟩ : BufTy).Contents (Elt Ideal) := shapeCast _ b shapeCasts_S32_S1x32
/-- The [1] bias as a [1,1] row. -/
def brow1 (b : (⟨S1, .f32⟩ : BufTy).Contents (Elt Ideal)) : (⟨S1x1, .f32⟩ : BufTy).Contents (Elt Ideal) := shapeCast _ b shapeCasts_S1_S1x1

end K

end Cert.Law

end
-- ==== Proof.Law.RefForms.lean ====
/-
  The reference program's stages, taken operation by operation, are the
  compositions the laws are stated over: one GCN layer (the linear transform, the degree normalisation per
  message, the row scatter-add, bias and rectifier), the pooled means, and the three dense layers of the head.
  Each equation is the reference's own text folded back: definitional unfolding, no mathematics.
-/
import proofs.«420645_j83519934038548_2_alg».proof.Proof.RefRead
import proofs.«420645_j83519934038548_2_alg».proof.Proof.Law.GcnDefs
import proofs.«420645_j83519934038548_2_alg».proof.Proof.Law.PoolDefs
import proofs.«420645_j83519934038548_2_alg».proof.Proof.Law.DenseDefs

noncomputable section

namespace Cert.Law.Ref

open Idealize.ShloMosaic Cert.ReferenceIdeal Cert.ReferenceIdeal.Gen Cert.ReferenceIdeal.ReadP

variable (x0 : (⟨S50000x128, .f32⟩ : BufTy).Contents (Elt Ideal)) (x1 : (⟨S2x640000, .i32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (x9 : (⟨S64x32, .f32⟩ : BufTy).Contents (Elt Ideal)) (x10 : (⟨S32, .f32⟩ : BufTy).Contents (Elt Ideal)) (x11 : (⟨S32x1, .f32⟩ : BufTy).Contents (Elt Ideal)) (x12 : (⟨S1, .f32⟩ : BufTy).Contents (Elt Ideal))

/-- The degree normaliser is the guarded reciprocal square root of the degree vector. -/
theorem dinv_eq : val_main_v19 (F := Ideal) x1 = Cert.Law.R.dinv (val_main_v15 (F := Ideal) x1) := rfl

/-- The first layer's linear transform. -/
theorem lin1_eq : val_main_v35 (F := Ideal) x0 x3 = Cert.Law.R.lin x0 x3 := rfl

/-- The first layer. -/
theorem layer1_eq : val_main_v57 (F := Ideal) x0 x1 x3 x4
    = Cert.Law.R.layer (Cert.Law.R.lin x0 x3) (val_main_v19 (F := Ideal) x1) (val_main_v5 (F := Ideal) x1) (val_main_v6 (F := Ideal) x1) x4 := rfl

/-- The second layer: the same composition over the first layer's output; its own copies of the index and
    degree chains are the first layer's. -/
theorem layer2_eq : val_main_v111 (F := Ideal) x0 x1 x3 x4 x5 x6
    = Cert.Law.R.layer (Cert.Law.R.lin (val_main_v57 (F := Ideal) x0 x1 x3 x4) x5) (val_main_v19 (F := Ideal) x1) (val_main_v5 (F := Ideal) x1) (val_main_v6 (F := Ideal) x1) x6 := rfl

/-- The pooled means. -/
theorem mean_eq : val_main_v123 (F := Ideal) x0 x1 x2 x3 x4 x5 x6
    = Cert.Law.R.mean (Cert.Law.R.pool (val_main_v111 (F := Ideal) x0 x1 x3 x4 x5 x6) x2) x2 := rfl

/-- The head. -/
theorem mlp_eq : val_main_v137 (F := Ideal) x0 x1 x2 x3 x4 x5 x6 x7 x8 x9 x10 x11 x12
    = Cert.Law.R.mlp (val_main_v123 (F := Ideal) x0 x1 x2 x3 x4 x5 x6) x7 x8 x9 x10 x11 x12 := rfl

end Cert.Law.Ref

end
-- ==== Proof.LibRows.lean ====
/-
  General lemmas: jnp's row take `x[idx, :]` and row accumulation `zeros.at[idx].add(u)` read at an index.

  `Host.gather` with offset_dims [1], collapsed_slice_dims [0], start_index_map [0], index_vector_dim 1 and
  slice sizes [1, C], over an operand [N, C] and start indices [K, 1], reads at (k, c) the operand's row
  idx[k, 0] (read signed, clamped into [0, N − 1]) at column c.
  The host's float scatter with an add body at the ideal values (`Ideal.hostScatterAdd`), with
  inserted_window_dims [0], scatter_dims_to_operand_dims [0], index_vector_dim 1 over indices [K, 1]:
  into a vector [N] from updates [K] (no window axis), and into an array [N, C] from updates [K, C]
  (update_window_dims [1]): entry i (resp. (i, c)) is the operand's plus the sum of the updates k
  (resp. (k, c)) whose index word idx[k, 0], read signed, is i.
-/
import Idealize.ShloMosaic.PureOps.Ideal
import Idealize.ShloMosaic.Lib.ValueIdx
import Idealize.ShloMosaic.Lib.ValueIdxRank1

noncomputable section

open scoped BigOperators

namespace Cert.Lib.Rows

open Idealize.ShloMosaic Idealize.ShloMosaic.ValueIdx

/-- The dimension numbers of a row take: operand [N, C], start indices [K, 1], result [K, C]. -/
abbrev gatherDims (N C K : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- THE ROW TAKE READ AT (k, c): the operand at row idx[k, 0], read signed and clamped into [0, N − 1], column c. -/
theorem gather_rows_apply {α : Type} {N C K w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (c : Fin C) :
    Host.gather (gatherDims N C K wf) x idx (ix2 k c)
      = x (ix2 ⟨min (idx (ix2 k (0 : Fin 1))).toInt.toNat (N - 1), by omega⟩ c) := by
  unfold Host.gather
  congr 1
  funext a
  refine Fin.ext ?_
  match a with
  | ⟨0, _⟩ =>
    -- the collapsed axis: the clamped start index, no batching and no offset coordinate
    show (gatherDims N C K wf).start (ix2 k c) idx 0 + (gatherDims N C K wf).batchCoord (ix2 k c) 0
      + (gatherDims N C K wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N C K wf).startIndexMap from List.mem_singleton.mpr rfl)]
    have hsi : (gatherDims N C K wf).siIdx (ix2 k c) ⟨List.idxOf (0 : Fin 2) (gatherDims N C K wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    -- the offset axis: start 0, no batching coordinate, the result's column
    show (gatherDims N C K wf).start (ix2 k c) idx 1 + (gatherDims N C K wf).batchCoord (ix2 k c) 1
      + (gatherDims N C K wf).offCoord (ix2 k c) 1 = c.val
    rw [GatherDims.batchCoord_eq_zero _ _ _ List.not_mem_nil]
    have hst : (gatherDims N C K wf).start (ix2 k c) idx 1 = 0 := by
      unfold GatherDims.start
      rw [dif_neg (show (1 : Fin 2) ∉ (gatherDims N C K wf).startIndexMap from by
        intro h; exact Nat.one_ne_zero (congrArg Fin.val (List.mem_singleton.mp h)))]
    have hoff : (gatherDims N C K wf).offCoord (ix2 k c) 1 = c.val := by
      unfold GatherDims.offCoord
      rw [dif_pos (show (1 : Fin 2) ∈ (gatherDims N C K wf).sKept from
        (GatherDims.mem_sKept _ _).mpr ⟨fun h => Nat.one_ne_zero (congrArg Fin.val (List.mem_singleton.mp h)), List.not_mem_nil⟩)]
      rfl
    rw [hst, hoff]; simp

/-- An update lands at `i` exactly when, on every axis, its start plus its window coordinate is `i`'s coordinate,
    as integers (which forces the landing index into range on that axis). -/
private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  constructor
  · intro h a
    split at h
    · rename_i hr
      have hv : (d.start j idx a + (d.window j a : Int)).toNat = (i a).val :=
        congrArg Fin.val (congrFun (Option.some.inj h) a)
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    show (d.start j idx a + (d.window j a : Int)).toNat = (i a).val
    have := h a
    omega

/-- A sum over a rank-1 index set is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulation into a vector [N] from updates [K] at indices [K, 1]. -/
abbrev scatterVecDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- On the vector's one axis the start of update k is its index word idx[k, 0], read signed. -/
private theorem vec_start {N K w : Nat}
    (wf : ScatterDims.WF ⟨1, ![N]⟩ ⟨2, ![K, 1]⟩ ⟨1, ![K]⟩ [] [0] [0] 1)
    (idx : IVec ⟨2, ![K, 1]⟩ w) (k : Fin K) :
    (scatterVecDims N K wf).start (ix1 k) idx (0 : Fin 1) = (idx (ix2 k (0 : Fin 1))).toInt := by
  unfold ScatterDims.start
  rw [dif_pos (show (0 : Fin 1) ∈ (scatterVecDims N K wf).scatterDimsToOperandDims from List.mem_singleton.mpr rfl)]
  have hsi : (scatterVecDims N K wf).siIdx (ix1 k)
      ⟨List.idxOf (0 : Fin 1) (scatterVecDims N K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The vector's one axis is an inserted window axis: no window coordinate. -/
private theorem vec_window {N K : Nat}
    (wf : ScatterDims.WF ⟨1, ![N]⟩ ⟨2, ![K, 1]⟩ ⟨1, ![K]⟩ [] [0] [0] 1) (k : Fin K) :
    (scatterVecDims N K wf).window (ix1 k) (0 : Fin 1) = 0 := rfl

/-- Update k lands at entry i exactly when its index word, read signed, is i. -/
private theorem vec_resultIdx? {N K w : Nat}
    (wf : ScatterDims.WF ⟨1, ![N]⟩ ⟨2, ![K, 1]⟩ ⟨1, ![K]⟩ [] [0] [0] 1)
    (idx : IVec ⟨2, ![K, 1]⟩ w) (k : Fin K) (i : Fin N) :
    (scatterVecDims N K wf).resultIdx? (ix1 k) idx = some (ix1 i)
      ↔ (idx (ix2 k (0 : Fin 1))).toInt = (i.val : Int) := by
  rw [resultIdx?_eq_some_iff]
  constructor
  · intro h
    have h0 := h (0 : Fin 1)
    rw [vec_start, vec_window] at h0
    simpa using h0
  · intro h a
    obtain rfl : a = (0 : Fin 1) := Subsingleton.elim _ _
    rw [vec_start, vec_window]
    simpa using h

/-- Entry i of the accumulated vector: the operand's plus the updates whose index word is i. -/
theorem hostScatterAdd_vec_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal) (i : Fin N) :
    Ideal.hostScatterAdd (scatterVecDims N K wf) x idx upd (ix1 i)
      = x (ix1 i) + ∑ k : Fin K, if (idx (ix2 k (0 : Fin 1))).toInt = (i.val : Int) then upd (ix1 k) else 0 := by
  unfold Ideal.hostScatterAdd
  refine congrArg (x (ix1 i) + ·) ?_
  rw [Finset.sum_filter, sum_idx1]
  refine Finset.sum_congr rfl fun k _ => ?_
  exact if_congr (vec_resultIdx? wf idx k i) rfl rfl

/-- The dimension numbers of an accumulation of rows into [N, C] from updates [K, C] at indices [K, 1]. -/
abbrev scatterRowsDims (N C K : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

/-- On the row axis the start of update (k, c') is its index word idx[k, 0], read signed. -/
private theorem rows_start0 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (0 : Fin 2) = (idx (ix2 k (0 : Fin 1))).toInt := by
  unfold ScatterDims.start
  rw [dif_pos (show (0 : Fin 2) ∈ (scatterRowsDims N C K wf).scatterDimsToOperandDims from List.mem_singleton.mpr rfl)]
  have hsi : (scatterRowsDims N C K wf).siIdx (ix2 k c')
      ⟨List.idxOf (0 : Fin 2) (scatterRowsDims N C K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The column axis is not named by the index map: its start is 0. -/
private theorem rows_start1 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (1 : Fin 2) = 0 := by
  unfold ScatterDims.start
  rw [dif_neg (show (1 : Fin 2) ∉ (scatterRowsDims N C K wf).scatterDimsToOperandDims from fun h =>
    Nat.one_ne_zero (congrArg Fin.val (List.mem_singleton.mp h)))]

/-- The row axis is an inserted window axis: no window coordinate. -/
private theorem rows_window0 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (0 : Fin 2) = 0 := rfl

/-- The column axis carries the update's window axis: the window coordinate is the update's column. -/
private theorem rows_window1 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (1 : Fin 2) = c'.val := rfl

/-- Update (k, c') lands at entry (i, c) exactly when its index word, read signed, is i and its column is c. -/
private theorem rows_resultIdx? {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) (i : Fin N) (c : Fin C) :
    (scatterRowsDims N C K wf).resultIdx? (ix2 k c') idx = some (ix2 i c)
      ↔ (idx (ix2 k (0 : Fin 1))).toInt = (i.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    have h0' : (idx (ix2 k (0 : Fin 1))).toInt + ((0 : Nat) : Int) = (i.val : Int) := h0
    have h1' : (0 : Int) + (c'.val : Int) = (c.val : Int) := h1
    exact ⟨by omega, Fin.ext (by omega)⟩
  · rintro ⟨h, rfl⟩ a
    match a with
    | ⟨0, _⟩ =>
      show (scatterRowsDims N C K wf).start (ix2 k c') idx (0 : Fin 2)
        + ((scatterRowsDims N C K wf).window (ix2 k c') (0 : Fin 2) : Int) = (i.val : Int)
      rw [rows_start0, rows_window0]
      omega
    | ⟨1, _⟩ =>
      show (scatterRowsDims N C K wf).start (ix2 k c') idx (1 : Fin 2)
        + ((scatterRowsDims N C K wf).window (ix2 k c') (1 : Fin 2) : Int) = (c'.val : Int)
      rw [rows_start1, rows_window1]
      omega

/-- Entry (i, c) of the accumulated array: the operand's plus the updates (k, c) whose index word is i. -/
theorem hostScatterAdd_rows_apply {N C K w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (c : Fin C) :
    Ideal.hostScatterAdd (scatterRowsDims N C K wf) x idx upd (ix2 i c)
      = x (ix2 i c) + ∑ k : Fin K, if (idx (ix2 k (0 : Fin 1))).toInt = (i.val : Int) then upd (ix2 k c) else 0 := by
  unfold Ideal.hostScatterAdd
  refine congrArg (x (ix2 i c) + ·) ?_
  rw [Finset.sum_filter, sum_idx2]
  refine Finset.sum_congr rfl fun k _ => ?_
  simp only [rows_resultIdx?]
  by_cases h : (idx (ix2 k (0 : Fin 1))).toInt = (i.val : Int)
  · -- the row matches: of the columns only c' = c survives
    simp only [h, true_and, if_true]
    rw [Finset.sum_ite_eq' Finset.univ c (fun c' => upd (ix2 k c'))]
    simp
  · -- the row does not match: every term is 0
    simp only [h, false_and, if_false]
    exact Finset.sum_const_zero

end Cert.Lib.Rows

end
-- ==== Proof.Law.Pool.lean ====
/-
  Mean pooling over 64 graphs, the kernel's way and the reference's, at the ideal values (extended reals): the
  laws that join them.

  The kernel builds the membership table onehot[n, g] = (batch[n] = g) as 0/1 and accumulates, over 5 blocks
  of 10000 rows, acc ← acc + onehot_blkᵀ · h_blk from acc = 0; its counts are the column sums of the table.
  The reference accumulates the rows of h, and ones, at the row index batch[n]. Both divide the sums by
  max(count, 1). Here 1 · x = x and 0 · x = 0 for every extended real, the format changes are the identity,
  and the sum over the 50000 nodes regroups through 5 blocks of 10000.
-/
import proofs.«420645_j83519934038548_2_alg».proof.Proof.Law.PoolDefs
import proofs.«420645_j83519934038548_2_alg».proof.Proof.Gen.KernelIdeal.Skeleton
import proofs.«420645_j83519934038548_2_alg».proof.Proof.LibRows
import Idealize.ShloMosaic.PureOps.Ideal
import Idealize.ShloMosaic.PureOps.Ideal.Laws
import Idealize.ShloMosaic.Lib.ValueIdx
import Idealize.ShloMosaic.Lib.ValueIdxRank1
import Idealize.ShloMosaic.Lib.IdealHost
import Idealize.ShloMosaic.Lib.WordArith
import Idealize.ShloMosaic.Lib.Pipeline.Value
import Idealize.ShloMosaic.Lib.ValueLayout

noncomputable section

open scoped BigOperators

namespace Cert.Law

open Idealize.ShloMosaic Idealize.ShloMosaic.ValueIdx Idealize.SL.Sem

-- the reference program's side conditions on its shapes are a parameter of every statement below
variable [Cert.ReferenceIdeal.Facts₀]

namespace K
open Cert.KernelIdeal Cert.KernelIdeal.Facts₀

/-- The node's graph word spread over the 64 columns reads the word at the node. -/
theorem batch_spread (batch : (⟨S50000, .i32⟩ : BufTy).Contents (Elt Ideal)) (n : Fin 50000) (g : Fin 64) :
    broadcastInDim S50000x64 ![0, 1] bcast_S50000x1_S50000x64_0_1 (broadcastInDim S50000x1 ![0] bcast_S50000_S50000x1_0 batch) (ix2 n g)
      = batch (ix1 n) := by
  rw [broadcastInDim_apply _ _ _ (ix2 n g) (ix2 n (0 : Fin 1)) (fun a => match a with | ⟨0, _⟩ => rfl | ⟨1, _⟩ => rfl),
    broadcastInDim_apply _ _ _ (ix2 n (0 : Fin 1)) (ix1 n) (fun a => match a with | ⟨0, _⟩ => rfl)]

/-- The column numbers spread over the 50000 rows read the column number as a word. -/
theorem iota_spread (n : Fin 50000) (g : Fin 64) :
    broadcastInDim S50000x64 ![0, 1] bcast_S1x64_S50000x64_0_1 (broadcastInDim S1x64 ![1] bcast_S64_S1x64_1 (iotaInDim S64 32 0)) (ix2 n g)
      = BitVec.ofNat 32 g.val := by
  rw [broadcastInDim_apply _ _ _ (ix2 n g) (ix2 (0 : Fin 1) g) (fun a => match a with | ⟨0, _⟩ => rfl | ⟨1, _⟩ => rfl),
    broadcastInDim_apply _ _ _ (ix2 (0 : Fin 1) g) (ix1 g) (fun a => match a with | ⟨0, _⟩ => rfl)]
  rfl

end K

/-- The membership table at (n, g). -/
theorem onehot_apply (batch : (⟨Cert.KernelIdeal.S50000, .i32⟩ : BufTy).Contents (Elt Ideal)) (n : Fin 50000) (g : Fin 64) :
    K.onehot batch (ix2 n g) = if batch (ix1 n) = BitVec.ofNat 32 g.val then (1 : EReal) else 0 := by
  show FloatOps.uitofp (F := Ideal) .bf16 (IntOp.cmpi .eq
    (broadcastInDim _ _ _ (broadcastInDim _ _ _ batch) (ix2 n g))
    (broadcastInDim _ _ _ (broadcastInDim _ _ _ (iotaInDim _ 32 0)) (ix2 n g))) = _
  rw [K.batch_spread, K.iota_spread]
  show (((IntOp.cmpi .eq (batch (ix1 n)) (BitVec.ofNat 32 g.val)).toNat : ℝ) : EReal) = _
  by_cases h : batch (ix1 n) = BitVec.ofNat 32 g.val
  · rw [if_pos h, h]; simp [IntOp.cmpi]
  · rw [if_neg h]; simp [IntOp.cmpi, h]

namespace K
open Cert.KernelIdeal Cert.KernelIdeal.Facts₀

/-- The contracted row on the table's side: axis 0 of the left operand is the contraction coordinate. -/
theorem lhs_pool_0 (i : S64x128.Idx) (q : dot_S10000x64_S10000x128_S64x128_0_0_1_1_n_n.contr.Idx) :
    (dot_S10000x64_S10000x128_S64x128_0_0_1_1_n_n.lhsIdx i q 0).val = (q ⟨0, by decide⟩).val :=
  dot_S10000x64_S10000x128_S64x128_0_0_1_1_n_n.lhsIdx_val_of_single rfl i q
/-- The table's column is the result's row. -/
theorem lhs_pool_1 (i : S64x128.Idx) (q : dot_S10000x64_S10000x128_S64x128_0_0_1_1_n_n.contr.Idx) :
    (dot_S10000x64_S10000x128_S64x128_0_0_1_1_n_n.lhsIdx i q 1).val = (i 0).val := by
  unfold DotDims.lhsIdx
  rw [dif_neg (show ¬(1 : Fin S10000x64.rank) ∈ dot_S10000x64_S10000x128_S64x128_0_0_1_1_n_n.lhsBatch by decide), dif_pos (show (1 : Fin S10000x64.rank) ∈ dot_S10000x64_S10000x128_S64x128_0_0_1_1_n_n.lhsNonContracting by decide)]
  rfl
/-- The contracted row on the rows' side: axis 0 of the right operand is the contraction coordinate. -/
theorem rhs_pool_0 (i : S64x128.Idx) (q : dot_S10000x64_S10000x128_S64x128_0_0_1_1_n_n.contr.Idx) :
    (dot_S10000x64_S10000x128_S64x128_0_0_1_1_n_n.rhsIdx i q 0).val = (q ⟨0, by decide⟩).val :=
  dot_S10000x64_S10000x128_S64x128_0_0_1_1_n_n.rhsIdx_val_of_single rfl i q
/-- The rows' column is the result's column. -/
theorem rhs_pool_1 (i : S64x128.Idx) (q : dot_S10000x64_S10000x128_S64x128_0_0_1_1_n_n.contr.Idx) :
    (dot_S10000x64_S10000x128_S64x128_0_0_1_1_n_n.rhsIdx i q 1).val = (i 1).val := by
  unfold DotDims.rhsIdx
  rw [dif_neg (show ¬(1 : Fin S10000x128.rank) ∈ dot_S10000x64_S10000x128_S64x128_0_0_1_1_n_n.rhsBatch by decide), dif_pos (show (1 : Fin S10000x128.rank) ∈ dot_S10000x64_S10000x128_S64x128_0_0_1_1_n_n.rhsNonContracting by decide)]
  rfl

end K

/-- The accumulator's first value is zero everywhere. -/
theorem pay1_apply (i : Cert.KernelIdeal.S64x128.Idx) : Cert.KernelIdeal.Gen.k2_pay1 (F := Ideal) i = 0 := by
  unfold Cert.KernelIdeal.Gen.k2_pay1
  rw [shapeCast_self]
  show Ideal.ofBits .f32 0x00000000#32 = 0
  exact Ideal.ofBits_zero_f32

/-- One block's step: the accumulator plus the block's table transposed times the block's rows. -/
theorem pay2_apply (v3 : Vec Ideal Cert.KernelIdeal.S10000x128 .f32) (v6 : Vec Ideal Cert.KernelIdeal.S10000x64 .bf16)
    (v9 : Vec Ideal Cert.KernelIdeal.S64x128 .f32) (g : Fin 64) (c : Fin 128) :
    Cert.KernelIdeal.Gen.k2_pay2 v3 v6 v9 (ix2 g c) = v9 (ix2 g c) + ∑ k : Fin 10000, v6 (ix2 k g) * v3 (ix2 k c) := by
  unfold Cert.KernelIdeal.Gen.k2_pay2
  simp only [shapeCast_self]
  show v9 (ix2 g c) + FloatOps.matmul (F := Ideal) Cert.KernelIdeal.dot_S10000x64_S10000x128_S64x128_0_0_1_1_n_n none v6
    (truncf .bf16 v3 Cert.KernelIdeal.Facts₀.bitsLt_bf16_f32) (constant Cert.KernelIdeal.S64x128 .f32 0x00000000#32) (ix2 g c) = _
  rw [Ideal.matmul_constant_zero_apply,
    ← Equiv.sum_comp (contrEquiv1 Cert.KernelIdeal.dot_S10000x64_S10000x128_S64x128_0_0_1_1_n_n 10000 rfl rfl).symm]
  refine congrArg (v9 (ix2 g c) + ·) (Finset.sum_congr rfl fun k _ => ?_)
  have hk := contrEquiv1_symm_val Cert.KernelIdeal.dot_S10000x64_S10000x128_S64x128_0_0_1_1_n_n 10000 rfl rfl k
  have el : Cert.KernelIdeal.dot_S10000x64_S10000x128_S64x128_0_0_1_1_n_n.lhsIdx (ix2 g c)
      ((contrEquiv1 Cert.KernelIdeal.dot_S10000x64_S10000x128_S64x128_0_0_1_1_n_n 10000 rfl rfl).symm k) = ix2 k g :=
    funext fun a => Fin.ext (by
      match a with
      | ⟨0, _⟩ => exact (K.lhs_pool_0 _ _).trans hk
      | ⟨1, _⟩ => exact K.lhs_pool_1 _ _)
  have er : Cert.KernelIdeal.dot_S10000x64_S10000x128_S64x128_0_0_1_1_n_n.rhsIdx (ix2 g c)
      ((contrEquiv1 Cert.KernelIdeal.dot_S10000x64_S10000x128_S64x128_0_0_1_1_n_n 10000 rfl rfl).symm k) = ix2 k c :=
    funext fun a => Fin.ext (by
      match a with
      | ⟨0, _⟩ => exact (K.rhs_pool_0 _ _).trans hk
      | ⟨1, _⟩ => exact K.rhs_pool_1 _ _)
  rw [el, er]
  rfl

/-- A node of block t at row k within it. -/
abbrev node (t : Fin 5) (k : Fin 10000) : Fin 50000 := ⟨10000 * t.val + k.val, by omega⟩

/-- A graph word is the number g exactly when, read signed, it is g: g is below 64, far inside the signed range. -/
theorem word_eq_iff (b : BitVec 32) (g : Fin 64) : b = BitVec.ofNat 32 g.val ↔ b.toInt = (g.val : Int) := by
  have hg : (BitVec.ofNat 32 g.val).toInt = (g.val : Int) := WordArith.toInt_ofNat_small g.val (by omega)
  constructor
  · rintro rfl; exact hg
  · intro h; exact BitVec.eq_of_toInt_eq (h.trans hg.symm)

/-- A 0/1 weight times a value is the value or nothing: 1 · x = x and 0 · x = 0 for every extended real. -/
theorem weight_mul (b : BitVec 32) (g : Fin 64) (x : EReal) :
    (if b = BitVec.ofNat 32 g.val then (1 : EReal) else 0) * x = if b.toInt = (g.val : Int) then x else 0 := by
  by_cases h : b = BitVec.ofNat 32 g.val
  · rw [if_pos h, if_pos ((word_eq_iff b g).mp h), one_mul]
  · rw [if_neg h, if_neg (fun h' => h ((word_eq_iff b g).mpr h')), zero_mul]

/-- The 50000 nodes are the 5 blocks of 10000: a sum over the nodes is the sum over the blocks of the sums within. -/
theorem sum_blocks {M : Type*} [AddCommMonoid M] (f : Fin 50000 → M) :
    ∑ t : Fin 5, ∑ k : Fin 10000, f (node t k) = ∑ n : Fin 50000, f n := by
  rw [← Fintype.sum_prod_type' (f := fun t k => f (node t k))]
  exact Fintype.sum_equiv (finProdFinEquiv (m := 5) (n := 10000)) _ _ (fun x => congrArg f (Fin.ext (by
    show 10000 * x.1.val + x.2.val = x.2.val + 10000 * x.1.val
    omega)))

/-- The blocks below m of a sum over the 5 blocks: none at m = 0 … -/
theorem upto_zero {M : Type*} [AddCommMonoid M] (B : Fin 5 → M) : (∑ t : Fin 5, if t.val < 0 then B t else 0) = 0 := by
  simp
/-- … and block m joins the blocks below it. -/
theorem upto_succ {M : Type*} [AddCommMonoid M] (B : Fin 5 → M) (m : Fin 5) :
    (∑ t : Fin 5, if t.val < m.val + 1 then B t else 0) = (∑ t : Fin 5, if t.val < m.val then B t else 0) + B m := by
  have : ∀ t : Fin 5, (if t.val < m.val + 1 then B t else 0) = (if t.val < m.val then B t else 0) + (if t = m then B t else 0) := by
    intro t
    by_cases h1 : t.val < m.val
    · rw [if_pos h1, if_pos (by omega), if_neg (fun h => by rw [h] at h1; omega), add_zero]
    · by_cases h2 : t = m
      · rw [if_neg h1, if_pos h2, if_pos (by rw [h2]; omega), zero_add]
      · have : ¬ t.val < m.val + 1 := fun h => h2 (Fin.ext (by omega))
        rw [if_neg h1, if_neg h2, if_neg this, add_zero]
  rw [Finset.sum_congr rfl (fun t _ => this t), Finset.sum_add_distrib, Finset.sum_ite_eq' Finset.univ m B]
  simp
/-- All 5 blocks are below 5. -/
theorem upto_five {M : Type*} [AddCommMonoid M] (B : Fin 5 → M) : (∑ t : Fin 5, if t.val < 5 then B t else 0) = ∑ t : Fin 5, B t :=
  Finset.sum_congr rfl fun t _ => if_pos t.isLt

/-- The blocks below m of the table-weighted sum are the matching rows below 10000 · m. -/
theorem pool_sum_upto (h : Fin 50000 → Fin 128 → EReal) (batch : Fin 50000 → BitVec 32) (g : Fin 64) (c : Fin 128) (m : Nat) :
    (∑ t : Fin 5, if t.val < m then ∑ k : Fin 10000,
        (if batch (node t k) = BitVec.ofNat 32 g.val then (1 : EReal) else 0) * h (node t k) c else 0)
      = ∑ n : Fin 50000, if n.val < 10000 * m then (if (batch n).toInt = (g.val : Int) then h n c else 0) else 0 := by
  rw [← sum_blocks]
  refine Finset.sum_congr rfl fun t _ => ?_
  by_cases ht : t.val < m
  · rw [if_pos ht]
    refine Finset.sum_congr rfl fun k _ => ?_
    rw [weight_mul, if_pos (show (node t k).val < 10000 * m by show 10000 * t.val + k.val < 10000 * m; omega)]
  · rw [if_neg ht]
    refine (Finset.sum_eq_zero fun k _ => ?_).symm
    rw [if_neg (show ¬ (node t k).val < 10000 * m by show ¬ 10000 * t.val + k.val < 10000 * m; omega)]

/-- The table-weighted sum over the 5 blocks of 10000 rows is the sum of the rows whose graph index is g. -/
theorem pool_sum (h : Fin 50000 → Fin 128 → EReal) (batch : Fin 50000 → BitVec 32) (g : Fin 64) (c : Fin 128) :
    (∑ t : Fin 5, ∑ k : Fin 10000,
        (if batch (node t k) = BitVec.ofNat 32 g.val then (1 : EReal) else 0) * h (node t k) c)
      = ∑ n : Fin 50000, if (batch n).toInt = (g.val : Int) then h n c else 0 := by
  rw [← sum_blocks]
  exact Finset.sum_congr rfl fun t _ => Finset.sum_congr rfl fun k _ => weight_mul _ _ _

/-- The reference's sums at (g, c). -/
theorem pool_apply (h : (⟨Cert.ReferenceIdeal.S50000x128, .f32⟩ : BufTy).Contents (Elt Ideal))
    (batch : (⟨Cert.ReferenceIdeal.S50000, .i32⟩ : BufTy).Contents (Elt Ideal)) (g : Fin 64) (c : Fin 128) :
    R.pool h batch (ix2 g c) = 0 + ∑ n : Fin 50000, if (batch (ix1 n)).toInt = (g.val : Int) then h (ix2 n c) else 0 := by
  have hd : Cert.ReferenceIdeal.scatter_S64x128_S50000x1_S50000x128_1_0_0_1
      = Cert.Lib.Rows.scatterRowsDims 64 128 50000 Cert.ReferenceIdeal.Facts₀.scatter_S64x128_S50000x1_S50000x128_1_0_0_1_wf := rfl
  unfold R.pool Host.scatterAdd
  rw [Ideal.hostScatterAdd_def, hd, Cert.Lib.Rows.hostScatterAdd_rows_apply]
  refine congrArg₂ (· + ·) ?_ ?_
  · show Ideal.ofBits .f32 0x00000000#32 = 0
    exact Ideal.ofBits_zero_f32
  · refine Finset.sum_congr rfl fun n _ => ?_
    rw [broadcastInDim_apply _ _ _ (ix2 n (0 : Fin 1)) (ix1 n) (fun a => match a with | ⟨0, _⟩ => rfl)]

/-- The reference's counts at g: the number of nodes whose graph index is g. -/
theorem rcnt_apply (batch : (⟨Cert.ReferenceIdeal.S50000, .i32⟩ : BufTy).Contents (Elt Ideal)) (g : Fin 64) :
    R.cnt batch (ix1 g) = 0 + ∑ n : Fin 50000, if (batch (ix1 n)).toInt = (g.val : Int) then (1 : EReal) else 0 := by
  have hd : Cert.ReferenceIdeal.scatter_S64_S50000x1_S50000_n_0_0_1
      = Cert.Lib.Rows.scatterVecDims 64 50000 Cert.ReferenceIdeal.Facts₀.scatter_S64_S50000x1_S50000_n_0_0_1_wf := rfl
  unfold R.cnt Host.scatterAdd
  rw [Ideal.hostScatterAdd_def, hd, Cert.Lib.Rows.hostScatterAdd_vec_apply]
  refine congrArg₂ (· + ·) ?_ ?_
  · show Ideal.ofBits .f32 0x00000000#32 = 0
    exact Ideal.ofBits_zero_f32
  · refine Finset.sum_congr rfl fun n _ => ?_
    rw [broadcastInDim_apply _ _ _ (ix2 n (0 : Fin 1)) (ix1 n) (fun a => match a with | ⟨0, _⟩ => rfl)]
    refine if_congr Iff.rfl ?_ rfl
    show Ideal.ofBits .f32 0x3F800000#32 = 1
    exact Ideal.ofBits_one_f32

/-- The kernel's counts at g: the column sum of the membership table. -/
theorem kcnt_apply (batch : (⟨Cert.KernelIdeal.S50000, .i32⟩ : BufTy).Contents (Elt Ideal)) (g : Fin 64) :
    Host.reduceAdd (F := Ideal) (extf .f32 (K.onehot batch) Cert.KernelIdeal.Facts₀.bitsLt_bf16_f32) (constant Cert.KernelIdeal.S_ .f32 0x00000000#32)
      Cert.KernelIdeal.Facts₀.reducesTo_S50000x64_S64_d0 Cert.KernelIdeal.Facts₀.h_S_ (ix1 g)
      = 0 + ∑ n : Fin 50000, if batch (ix1 n) = BitVec.ofNat 32 g.val then (1 : EReal) else 0 := by
  -- the reduction's shape fact, with the result's rank positive
  have hR : Cert.KernelIdeal.S50000x64.Reduces [0] Cert.KernelIdeal.S64 :=
    ⟨Cert.KernelIdeal.Facts₀.reducesTo_S50000x64_S64_d0.1, Nat.one_pos, Cert.KernelIdeal.Facts₀.reducesTo_S50000x64_S64_d0.2⟩
  rw [hostReduceAdd_apply, Ideal.hostReduceAdd_single _ hR]
  refine congrArg₂ (· + ·) ?_ ?_
  · show Ideal.ofBits .f32 0x00000000#32 = 0
    exact Ideal.ofBits_zero_f32
  · refine Finset.sum_congr rfl fun n _ => ?_
    -- the column's index with row n put back on the summed axis is (n, g)
    have e : hR.lift (ix1 g) n = ix2 n g := funext fun a => Fin.ext (by
      match a with
      | ⟨0, _⟩ => rfl
      | ⟨1, _⟩ => rfl)
    rw [e]
    exact onehot_apply batch n g

/-- The two counts agree. -/
theorem cnt_eq (batch : (⟨Cert.KernelIdeal.S50000, .i32⟩ : BufTy).Contents (Elt Ideal)) :
    Host.reduceAdd (F := Ideal) (extf .f32 (K.onehot batch) Cert.KernelIdeal.Facts₀.bitsLt_bf16_f32) (constant Cert.KernelIdeal.S_ .f32 0x00000000#32)
      Cert.KernelIdeal.Facts₀.reducesTo_S50000x64_S64_d0 Cert.KernelIdeal.Facts₀.h_S_ = R.cnt batch := by
  funext j
  obtain ⟨g, rfl⟩ : ∃ g : Fin 64, j = ix1 g := ⟨j 0, eq_ix1 j⟩
  rw [kcnt_apply, rcnt_apply]
  exact congrArg (0 + ·) (Finset.sum_congr rfl fun n _ => if_congr (word_eq_iff _ g) rfl rfl)

/-- The two means agree on the same sums. -/
theorem mean_eq (sums : (⟨Cert.KernelIdeal.S64x128, .f32⟩ : BufTy).Contents (Elt Ideal))
    (batch : (⟨Cert.KernelIdeal.S50000, .i32⟩ : BufTy).Contents (Elt Ideal)) :
    K.mean sums (K.onehot batch) = R.mean sums batch := by
  unfold K.mean R.mean
  rw [cnt_eq]

/-- The blocks' table-weighted sums, read off the membership table itself, are the reference's sums at (g, c). -/
theorem pool_eq (h : (⟨Cert.KernelIdeal.S50000x128, .f32⟩ : BufTy).Contents (Elt Ideal))
    (batch : (⟨Cert.KernelIdeal.S50000, .i32⟩ : BufTy).Contents (Elt Ideal)) (g : Fin 64) (c : Fin 128) :
    (∑ t : Fin 5, ∑ k : Fin 10000, K.onehot batch (ix2 (node t k) g) * h (ix2 (node t k) c)) = R.pool h batch (ix2 g c) := by
  rw [pool_apply, zero_add]
  simp only [onehot_apply]
  exact pool_sum (fun n c => h (ix2 n c)) (fun n => batch (ix1 n)) g c

/-- The blocks below m, read off the membership table itself: the matching rows below 10000 · m. -/
theorem pool_upto_eq (h : (⟨Cert.KernelIdeal.S50000x128, .f32⟩ : BufTy).Contents (Elt Ideal))
    (batch : (⟨Cert.KernelIdeal.S50000, .i32⟩ : BufTy).Contents (Elt Ideal)) (g : Fin 64) (c : Fin 128) (m : Nat) :
    (∑ t : Fin 5, if t.val < m then ∑ k : Fin 10000, K.onehot batch (ix2 (node t k) g) * h (ix2 (node t k) c) else 0)
      = ∑ n : Fin 50000, if n.val < 10000 * m then (if (batch (ix1 n)).toInt = (g.val : Int) then h (ix2 n c) else 0) else 0 := by
  simp only [onehot_apply]
  exact pool_sum_upto (fun n c => h (ix2 n c)) (fun n => batch (ix1 n)) g c m

end Cert.Law

end
-- ==== Proof.Law.Dense.lean ====
import proofs.«420645_j83519934038548_2_alg».proof.KernelIdeal
import proofs.«420645_j83519934038548_2_alg».proof.ReferenceIdeal
import proofs.«420645_j83519934038548_2_alg».proof.Proof.Gen.KernelIdeal.Skeleton
import proofs.«420645_j83519934038548_2_alg».proof.Proof.Gen.ReferenceIdeal
import proofs.«420645_j83519934038548_2_alg».proof.Proof.Law.DenseDefs
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.KernelVsHost

/-! # The dense laws at the ideal values

Floats are the extended reals. A block product into a zero accumulator is the plain sum of
products over the contraction axis, and rounding to a narrower format is the identity; so
(1) the blockwise linear transform and the whole-array `dot_general` read the same sum at an
element, and (2) the three-layer head computed over one-row biases equals the reference chain
of `dot_general`, bias broadcast, add and maximum against zero. -/

set_option synthInstance.maxSize 4096

noncomputable section

namespace Cert.Law

open Idealize.ShloMosaic Idealize.SL.Sem Idealize.ShloMosaic.ValueIdx

/-! ## A plain product's contraction sum, by coordinates -/

/-- For a rows-by-contraction times contraction-by-columns product with one contracting axis, whose operand
    indices at output (p, q) and contraction position k are (p, k) and (k, q), the sum over the contraction
    index set is the sum over k of the products of the operands there. -/
theorem sum_contr {a n b : Nat} (d : DotDims ⟨2, ![a, n]⟩ ⟨2, ![n, b]⟩ ⟨2, ![a, b]⟩)
    (hr : d.contr.rank = 1) (hs : d.contr.size ⟨0, by omega⟩ = n)
    (hl0 : ∀ (i : (⟨2, ![a, b]⟩ : Shape).Idx) (c : d.contr.Idx), (d.lhsIdx i c 0).val = (i 0).val)
    (hl1 : ∀ (i : (⟨2, ![a, b]⟩ : Shape).Idx) (c : d.contr.Idx), (d.lhsIdx i c 1).val = (c ⟨0, by omega⟩).val)
    (hr0 : ∀ (i : (⟨2, ![a, b]⟩ : Shape).Idx) (c : d.contr.Idx), (d.rhsIdx i c 0).val = (c ⟨0, by omega⟩).val)
    (hr1 : ∀ (i : (⟨2, ![a, b]⟩ : Shape).Idx) (c : d.contr.Idx), (d.rhsIdx i c 1).val = (i 1).val)
    (l : (⟨2, ![a, n]⟩ : Shape).Idx → EReal) (r : (⟨2, ![n, b]⟩ : Shape).Idx → EReal) (p : Fin a) (q : Fin b) :
    ∑ c : d.contr.Idx, l (d.lhsIdx (ix2 p q) c) * r (d.rhsIdx (ix2 p q) c) = ∑ k : Fin n, l (ix2 p k) * r (ix2 k q) := by
  rw [← Equiv.sum_comp (contrEquiv1 d n hr hs).symm]
  refine Finset.sum_congr rfl fun k _ => ?_
  have hk := contrEquiv1_symm_val d n hr hs k
  have el : d.lhsIdx (ix2 p q) ((contrEquiv1 d n hr hs).symm k) = ix2 p k := funext fun ax => Fin.ext (by
    match ax with
    | ⟨0, _⟩ => exact hl0 _ _
    | ⟨1, _⟩ => exact (hl1 _ _).trans hk)
  have er : d.rhsIdx (ix2 p q) ((contrEquiv1 d n hr hs).symm k) = ix2 k q := funext fun ax => Fin.ext (by
    match ax with
    | ⟨0, _⟩ => exact (hr0 _ _).trans hk
    | ⟨1, _⟩ => exact hr1 _ _)
  rw [el, er]

/-- Rounding a vector to a narrower format is the identity on the extended reals. -/
theorem truncf_id {s : Shape} {φ : FTy} (ψ : FTy) (x : FVec Ideal s φ) (h : ψ.bits < φ.bits) :
    truncf (F := Ideal) ψ x h = x := rfl

/-! ## The block product of regions 0 and 1 at an element -/

section Block
open Cert.KernelIdeal Cert.KernelIdeal.Gen

theorem lhs_blk_0 (i : S10000x128.Idx) (c : dot_S10000x128_S128x128_S10000x128_1_0_0_1_n_n.contr.Idx) :
    (dot_S10000x128_S128x128_S10000x128_1_0_0_1_n_n.lhsIdx i c 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_blk_1 (i : S10000x128.Idx) (c : dot_S10000x128_S128x128_S10000x128_1_0_0_1_n_n.contr.Idx) :
    (dot_S10000x128_S128x128_S10000x128_1_0_0_1_n_n.lhsIdx i c 1).val = (c ⟨0, by decide⟩).val :=
  dot_S10000x128_S128x128_S10000x128_1_0_0_1_n_n.lhsIdx_val_of_single rfl i c
theorem rhs_blk_0 (i : S10000x128.Idx) (c : dot_S10000x128_S128x128_S10000x128_1_0_0_1_n_n.contr.Idx) :
    (dot_S10000x128_S128x128_S10000x128_1_0_0_1_n_n.rhsIdx i c 0).val = (c ⟨0, by decide⟩).val :=
  dot_S10000x128_S128x128_S10000x128_1_0_0_1_n_n.rhsIdx_val_of_single rfl i c
theorem rhs_blk_1 (i : S10000x128.Idx) (c : dot_S10000x128_S128x128_S10000x128_1_0_0_1_n_n.contr.Idx) :
    (dot_S10000x128_S128x128_S10000x128_1_0_0_1_n_n.rhsIdx i c 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A [10000,128] block times the [128,128] weights into a zero accumulator, at (p, q): the sum over k of
    block (p, k) times weights (k, q). -/
theorem blk_apply (l : FVec Ideal S10000x128 .f32) (r : FVec Ideal S128x128 .f32) (p : Fin 10000) (q : Fin 128) :
    matmul (F := Ideal) dot_S10000x128_S128x128_S10000x128_1_0_0_1_n_n none l r (constant S10000x128 .f32 0x00000000#32) (ix2 p q)
      = ∑ k : Fin 128, l (ix2 p k) * r (ix2 k q) := by
  show FloatOps.matmul dot_S10000x128_S128x128_S10000x128_1_0_0_1_n_n none l r (constant S10000x128 .f32 0x00000000#32) (ix2 p q) = _
  rw [Ideal.matmul_constant_zero_apply]
  exact sum_contr dot_S10000x128_S128x128_S10000x128_1_0_0_1_n_n rfl rfl lhs_blk_0 lhs_blk_1 rhs_blk_0 rhs_blk_1 l r p q

end Block

theorem pay0_apply (x0 : Vec Ideal Cert.KernelIdeal.S10000x128 .f32) (x1 : Vec Ideal Cert.KernelIdeal.S128x128 .f32)
    (p : Fin 10000) (q : Fin 128) :
    Cert.KernelIdeal.Gen.k0_pay1 (F := Ideal) x0 x1 (ix2 p q) = ∑ k : Fin 128, x0 (ix2 p k) * x1 (ix2 k q) :=
  blk_apply x0 x1 p q

theorem pay1_apply' (x0 : Vec Ideal Cert.KernelIdeal.S10000x128 .f32) (x1 : Vec Ideal Cert.KernelIdeal.S128x128 .f32)
    (p : Fin 10000) (q : Fin 128) :
    Cert.KernelIdeal.Gen.k1_pay1 (F := Ideal) x0 x1 (ix2 p q) = ∑ k : Fin 128, x0 (ix2 p k) * x1 (ix2 k q) := by
  unfold Cert.KernelIdeal.Gen.k1_pay1
  simp only [shapeCast_self, truncf_id]
  exact blk_apply x0 x1 p q

/-! ## The reference's whole-array product at an element -/

section Whole
open Cert.ReferenceIdeal Cert.ReferenceIdeal.Gen

theorem lhs_whole_0 (i : S50000x128.Idx) (c : dot_S50000x128_S128x128_S50000x128_1_0_0_1_n_n.contr.Idx) :
    (dot_S50000x128_S128x128_S50000x128_1_0_0_1_n_n.lhsIdx i c 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhs_whole_1 (i : S50000x128.Idx) (c : dot_S50000x128_S128x128_S50000x128_1_0_0_1_n_n.contr.Idx) :
    (dot_S50000x128_S128x128_S50000x128_1_0_0_1_n_n.lhsIdx i c 1).val = (c ⟨0, by decide⟩).val :=
  dot_S50000x128_S128x128_S50000x128_1_0_0_1_n_n.lhsIdx_val_of_single rfl i c
theorem rhs_whole_0 (i : S50000x128.Idx) (c : dot_S50000x128_S128x128_S50000x128_1_0_0_1_n_n.contr.Idx) :
    (dot_S50000x128_S128x128_S50000x128_1_0_0_1_n_n.rhsIdx i c 0).val = (c ⟨0, by decide⟩).val :=
  dot_S50000x128_S128x128_S50000x128_1_0_0_1_n_n.rhsIdx_val_of_single rfl i c
theorem rhs_whole_1 (i : S50000x128.Idx) (c : dot_S50000x128_S128x128_S50000x128_1_0_0_1_n_n.contr.Idx) :
    (dot_S50000x128_S128x128_S50000x128_1_0_0_1_n_n.rhsIdx i c 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

end Whole

theorem lin_apply (x : (⟨Cert.ReferenceIdeal.S50000x128, .f32⟩ : BufTy).Contents (Elt Ideal))
    (W : (⟨Cert.ReferenceIdeal.S128x128, .f32⟩ : BufTy).Contents (Elt Ideal)) (r : Fin 50000) (q : Fin 128) :
    R.lin x W (ix2 r q) = ∑ k : Fin 128, x (ix2 r k) * W (ix2 k q) := by
  unfold R.lin
  simp only [Host.dotGeneral]
  rw [Ideal.dotGeneral_apply]
  exact sum_contr Cert.ReferenceIdeal.dot_S50000x128_S128x128_S50000x128_1_0_0_1_n_n rfl rfl lhs_whole_0 lhs_whole_1 rhs_whole_0 rhs_whole_1 x W r q

/-! ## The head, layer by layer -/

section Rows
variable {α : Type}

/-- A vector of n entries recast as one row and laid along each of m rows is the vector broadcast along
    axis 1 to one row, then down the rows. -/
theorem bias_rows {m n : Nat} (b : (⟨1, ![n]⟩ : Shape).Idx → α)
    (hc : (⟨1, ![n]⟩ : Shape).ShapeCasts ⟨2, ![1, n]⟩) (hs : (⟨2, ![1, n]⟩ : Shape).ShapeCasts ⟨2, ![1, n]⟩)
    (hb : (⟨2, ![1, n]⟩ : Shape).Broadcasts ⟨2, ![m, n]⟩)
    (h1 : (⟨1, ![n]⟩ : Shape).BroadcastsInDim ⟨2, ![1, n]⟩ ![1])
    (h01 : (⟨2, ![1, n]⟩ : Shape).BroadcastsInDim ⟨2, ![m, n]⟩ ![0, 1]) :
    broadcastTo ⟨2, ![m, n]⟩ (shapeCast ⟨2, ![1, n]⟩ (shapeCast ⟨2, ![1, n]⟩ b hc) hs) hb
      = broadcastInDim ⟨2, ![m, n]⟩ ![0, 1] h01 (broadcastInDim ⟨2, ![1, n]⟩ ![1] h1 b) := by
  funext i
  obtain ⟨p, c, rfl⟩ : ∃ (p : Fin m) (c : Fin n), i = ix2 p c := ⟨i 0, i 1, eq_ix2 i⟩
  rw [shapeCast_self, broadcastTo_1b_ab_apply, shapeCast_a_1a_apply, broadcastInDim_oneRow_apply]
  refine (broadcastInDim_apply ![1] h1 b (ix2 (0 : Fin 1) c) (ix1 c) fun ax => ?_).symm
  match ax with
  | ⟨0, _⟩ =>
    show c.val = if n = 1 then 0 else c.val
    split
    · have := c.isLt; omega
    · rfl

end Rows

section Head
open Cert.KernelIdeal Cert.KernelIdeal.Gen

/-- First layer's product: the [64,128] pooled features, recast to their own shape and rounded, times the
    rounded [128,64] weights into zero, is the reference's `dot_general`. -/
theorem head_dot1 (a : FVec Ideal S64x128 .f32) (W : FVec Ideal S128x64 .f32) :
    matmul (F := Ideal) dot_S64x128_S128x64_S64x64_1_0_0_1_n_n none
        (truncf .bf16 (shapeCast S64x128 a shapeCasts_S64x128_S64x128) bitsLt_bf16_f32) (truncf .bf16 W bitsLt_bf16_f32)
        (constant S64x64 .f32 0x00000000#32)
      = Host.dotGeneral (F := Ideal) (φ₁ := .f32) (φ₂ := .f32) Cert.ReferenceIdeal.dot_S64x128_S128x64_S64x64_1_0_0_1_n_n none a W := by
  rw [shapeCast_self, truncf_id, truncf_id]
  exact matmul_zero_eq_dotGeneral dot_S64x128_S128x64_S64x64_1_0_0_1_n_n none a W

/-- Second layer's product. -/
theorem head_dot2 (a : FVec Ideal S64x64 .f32) (W : FVec Ideal S64x32 .f32) :
    matmul (F := Ideal) dot_S64x64_S64x32_S64x32_1_0_0_1_n_n none
        (truncf .bf16 a bitsLt_bf16_f32) (truncf .bf16 W bitsLt_bf16_f32) (constant S64x32 .f32 0x00000000#32)
      = Host.dotGeneral (F := Ideal) (φ₁ := .f32) (φ₂ := .f32) Cert.ReferenceIdeal.dot_S64x64_S64x32_S64x32_1_0_0_1_n_n none a W := by
  rw [truncf_id, truncf_id]
  exact matmul_zero_eq_dotGeneral dot_S64x64_S64x32_S64x32_1_0_0_1_n_n none a W

/-- Third layer's product. -/
theorem head_dot3 (a : FVec Ideal S64x32 .f32) (W : FVec Ideal S32x1 .f32) :
    matmul (F := Ideal) dot_S64x32_S32x1_S64x1_1_0_0_1_n_n none
        (truncf .bf16 a bitsLt_bf16_f32) (truncf .bf16 W bitsLt_bf16_f32) (constant S64x1 .f32 0x00000000#32)
      = Host.dotGeneral (F := Ideal) (φ₁ := .f32) (φ₂ := .f32) Cert.ReferenceIdeal.dot_S64x32_S32x1_S64x1_1_0_0_1_n_n none a W := by
  rw [truncf_id, truncf_id]
  exact matmul_zero_eq_dotGeneral dot_S64x32_S32x1_S64x1_1_0_0_1_n_n none a W

/-- First layer's bias, as a row laid down the 64 rows. -/
theorem head_bias1 (b : (⟨Cert.ReferenceIdeal.S64, .f32⟩ : BufTy).Contents (Elt Ideal)) :
    broadcastTo S64x64 (shapeCast S1x64 (K.brow64 b) shapeCasts_S1x64_S1x64) broadcasts_S1x64_S64x64
      = broadcastInDim Cert.ReferenceIdeal.S64x64 ![0, 1] Cert.ReferenceIdeal.Gen.bcast_S1x64_S64x64_0_1
          (broadcastInDim Cert.ReferenceIdeal.S1x64 ![1] Cert.ReferenceIdeal.Gen.bcast_S64_S1x64_1 b) :=
  bias_rows b _ _ _ _ _

/-- Second layer's bias. -/
theorem head_bias2 (b : (⟨Cert.ReferenceIdeal.S32, .f32⟩ : BufTy).Contents (Elt Ideal)) :
    broadcastTo S64x32 (shapeCast S1x32 (K.brow32 b) shapeCasts_S1x32_S1x32) broadcasts_S1x32_S64x32
      = broadcastInDim Cert.ReferenceIdeal.S64x32 ![0, 1] Cert.ReferenceIdeal.Gen.bcast_S1x32_S64x32_0_1
          (broadcastInDim Cert.ReferenceIdeal.S1x32 ![1] Cert.ReferenceIdeal.Gen.bcast_S32_S1x32_1 b) :=
  bias_rows b _ _ _ _ _

/-- Third layer's bias. -/
theorem head_bias3 (b : (⟨Cert.ReferenceIdeal.S1, .f32⟩ : BufTy).Contents (Elt Ideal)) :
    broadcastTo S64x1 (shapeCast S1x1 (K.brow1 b) shapeCasts_S1x1_S1x1) broadcasts_S1x1_S64x1
      = broadcastInDim Cert.ReferenceIdeal.S64x1 ![0, 1] Cert.ReferenceIdeal.Gen.bcast_S1x1_S64x1_0_1
          (broadcastInDim Cert.ReferenceIdeal.S1x1 ![1] Cert.ReferenceIdeal.Gen.bcast_S1_S1x1_1 b) :=
  bias_rows b _ _ _ _ _

/-- The zero splat a layer takes its maximum against is the reference's broadcast zero constant. -/
theorem head_zero (t : Shape) (h : Cert.ReferenceIdeal.S_.BroadcastsInDim t ![]) :
    broadcast t (Scalar.ofBits (F := Ideal) .f32 0x00000000#32)
      = broadcastInDim t ![] h (constant (F := Ideal) Cert.ReferenceIdeal.S_ .f32 0x00000000#32) :=
  (broadcastInDim_constant (F := Ideal) (s := Cert.ReferenceIdeal.S_) (t := t) (φ := .f32) ![] h 0x00000000#32).symm

end Head

theorem mlp_eq (g : (⟨Cert.ReferenceIdeal.S64x128, .f32⟩ : BufTy).Contents (Elt Ideal))
    (W1 : (⟨Cert.ReferenceIdeal.S128x64, .f32⟩ : BufTy).Contents (Elt Ideal))
    (b1 : (⟨Cert.ReferenceIdeal.S64, .f32⟩ : BufTy).Contents (Elt Ideal))
    (W2 : (⟨Cert.ReferenceIdeal.S64x32, .f32⟩ : BufTy).Contents (Elt Ideal))
    (b2 : (⟨Cert.ReferenceIdeal.S32, .f32⟩ : BufTy).Contents (Elt Ideal))
    (W3 : (⟨Cert.ReferenceIdeal.S32x1, .f32⟩ : BufTy).Contents (Elt Ideal))
    (b3 : (⟨Cert.ReferenceIdeal.S1, .f32⟩ : BufTy).Contents (Elt Ideal)) :
    Cert.KernelIdeal.Gen.k3_pay1 (F := Ideal) g W1 (K.brow64 b1) W2 (K.brow32 b2) W3 (K.brow1 b3)
      = R.mlp g W1 b1 W2 b2 W3 b3 := by
  unfold Cert.KernelIdeal.Gen.k3_pay1 R.mlp
  -- third layer: product plus bias row
  refine congrArg₂ (addf (F := Ideal)) ((head_dot3 _ W3).trans (congrArg (fun a => Host.dotGeneral (F := Ideal) (φ₁ := .f32) (φ₂ := .f32)
    Cert.ReferenceIdeal.dot_S64x32_S32x1_S64x1_1_0_0_1_n_n none a W3) ?_)) (head_bias3 b3)
  -- second layer: maximum against zero of product plus bias row
  refine congrArg₂ (maximumf (F := Ideal)) (congrArg₂ (addf (F := Ideal)) ((head_dot2 _ W2).trans (congrArg (fun a => Host.dotGeneral (F := Ideal) (φ₁ := .f32) (φ₂ := .f32)
    Cert.ReferenceIdeal.dot_S64x64_S64x32_S64x32_1_0_0_1_n_n none a W2) ?_)) (head_bias2 b2))
    (head_zero Cert.ReferenceIdeal.S64x32 Cert.ReferenceIdeal.Gen.bcast_S_S64x32)
  -- first layer
  exact congrArg₂ (maximumf (F := Ideal)) (congrArg₂ (addf (F := Ideal)) (head_dot1 g W1) (head_bias1 b1))
    (head_zero Cert.ReferenceIdeal.S64x64 Cert.ReferenceIdeal.Gen.bcast_S_S64x64)

end Cert.Law

end
-- ==== Proof.KI.Val013.lean ====
/- THE VALUES of regions 0, 1 and 3 of the kernel program at the ideal instance: what each region's output array holds
   after the region, as one whole-array function of the arrays the region found. Regions 0 and 1 write, row block by
   row block, the product of a block of rows with the weights; the blocks tile the rows, and an entry of a block's
   product is the entry of the whole-array product at the row the block's row is in the array — the same sum over
   the contracted axis. Region 3 has one point and every window is its whole array, so its output is the body's
   perceptron of the arrays themselves. -/
import proofs.«420645_j83519934038548_2_alg».proof.Proof.KI.Reg0
import proofs.«420645_j83519934038548_2_alg».proof.Proof.KI.Reg1
import proofs.«420645_j83519934038548_2_alg».proof.Proof.KI.Reg3
import proofs.«420645_j83519934038548_2_alg».proof.Proof.Law.Dense
import Idealize.ShloMosaic.Lib.Pipeline.Value
import Idealize.ShloMosaic.Lib.ValueIdx
import Idealize.ShloMosaic.PureOps.Ideal

set_option maxRecDepth 16384

noncomputable section

open scoped BigOperators

namespace Cert.KernelIdeal.Gen

open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets every access of these bodies is made at. -/
theorem hz : (![0, 0] : Fin 2 → Nat) = fun _ => 0 := funext fun a => by fin_cases a <;> rfl

/-! ## Region 0: the row-blocked product as the whole-array product -/

/-- What region 0's output array ends holding: the whole-array product of the two arrays the region reads. -/
abbrev G0 (c : Dev nD) : S50000x128.Idx → Elt Ideal .f32 := Cert.Law.R.lin (V c main_arg0) (V c main_arg3)

/-- The printed index maps, decided over the grid: the row windows sit at block row `t`, column block 0; the
    weight window at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of the body's product of a row block with the weights is the entry of the whole-array product at the
    row the block's row is in the array: the same sum over the contracted axis, term by term. -/
theorem pay0_block (x0 : Vec Ideal S10000x128 .f32) (x1 : Vec Ideal S128x128 .f32)
    (X : S50000x128.Idx → Elt Ideal .f32) (W : S128x128.Idx → Elt Ideal .f32) (p : Fin 10000) (q : Fin 128) (r : Fin 50000)
    (h0 : ∀ k : Fin 128, x0 (ix2 p k) = X (ix2 r k)) (h1 : ∀ k : Fin 128, x1 (ix2 k q) = W (ix2 k q)) :
    k0_pay1 (F := Ideal) x0 x1 (ix2 p q) = Cert.Law.R.lin X W (ix2 r q) := by
  rw [Cert.Law.pay0_apply, Cert.Law.lin_apply]
  exact Finset.sum_congr rfl fun k _ => by rw [h0 k, h1 k]

/-- What point `t` writes back is block `t` of the whole-array product. -/
theorem flushed0_eq (c : Dev nD) (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e00, e01, e10, e11, e20, e21⟩ := idx_facts0 t
  have ht : t.val < 5 := lt_of_lt_of_eq t.isLt (show cfg0.N = 5 from N_0)
  funext j
  obtain ⟨p, q, rfl⟩ : ∃ (p : Fin 10000) (q : Fin 128), j = ix2 p q := ⟨j 0, j 1, eq_ix2 j⟩
  show k0_pay1 (F := Ideal) (iblk0 V c 0 t) (iblk0 V c 1 t) (ix2 p q) = G0 V c (((cfg0.win 2).blk t).view.emb (ix2 p q))
  have hr : ((cfg0.win 2).blk t).view.emb (ix2 p q) = ix2 (⟨t.val * 10000 + p.val, by omega⟩ : Fin 50000) q := by
    funext a; apply Fin.ext
    match a with
    | ⟨0, _⟩ => show win0_2.index t (0 : Fin 2) * 10000 + 1 * p.val = t.val * 10000 + p.val; rw [e20]; omega
    | ⟨1, _⟩ => show win0_2.index t (1 : Fin 2) * 128 + 1 * q.val = q.val; rw [e21]; omega
  rw [hr]
  refine pay0_block _ _ _ _ p q _ (fun k => ?_) (fun k => ?_)
  · show V c main_arg0 (((cfg0.win 0).blk t).view.emb (ix2 p k)) = V c main_arg0 (ix2 (⟨t.val * 10000 + p.val, by omega⟩ : Fin 50000) k)
    refine congrArg _ ?_
    funext a; apply Fin.ext
    match a with
    | ⟨0, _⟩ => show win0_0.index t (0 : Fin 2) * 10000 + 1 * p.val = t.val * 10000 + p.val; rw [e00]; omega
    | ⟨1, _⟩ => show win0_0.index t (1 : Fin 2) * 128 + 1 * k.val = k.val; rw [e01]; omega
  · show V c main_arg3 (((cfg0.win 1).blk t).view.emb (ix2 k q)) = V c main_arg3 (ix2 k q)
    refine congrArg _ ?_
    funext a; apply Fin.ext
    match a with
    | ⟨0, _⟩ => show win0_1.index t (0 : Fin 2) * 128 + 1 * k.val = k.val; rw [e10]; omega
    | ⟨1, _⟩ => show win0_1.index t (1 : Fin 2) * 128 + 1 * q.val = q.val; rw [e11]; omega

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v21).slice (win0_2.rect t)).set ↔ _
  rw [View.set_slice_whole, Rect.mem_set_unit]
  exact Iff.rfl

/-- Every index of the array is in the block of the point its row falls to: row `r` is in block `r / 10000`. -/
theorem cover0_arr (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 10000 :=
    ⟨⟨(i 0).val / 10000, by rw [show cfg0.N = 5 from N_0]; omega⟩, rfl⟩
  obtain ⟨e00, e01, e10, e11, e20, e21⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e20, ht]; omega
  | ⟨1, _⟩ => show win0_2.index t (1 : Fin 2) * 128 ≤ (i 1).val ∧ (i 1).val < win0_2.index t (1 : Fin 2) * 128 + 128; rw [e21]; omega

/-- Region 0's output array after the region: the whole-array product of the arrays it read. -/
theorem arr0 (c : Dev nD) : (dat0 (F := Ideal) V c).arrAt 2 cfg0.N = Cert.Law.R.lin (V c main_arg0) (V c main_arg3) :=
  (dat0 (F := Ideal) V c).arrAt_eq_of_cover 2 (G0 V c) (fun t _ => flushed0_eq V c t) (cover0_arr)

/-! ## Region 1: the row-blocked product as the whole-array product -/

/-- What region 1's output array ends holding: the whole-array product of the two arrays the region reads. -/
abbrev G1 (c : Dev nD) : S50000x128.Idx → Elt Ideal .f32 := Cert.Law.R.lin (V c main_v44) (V c main_arg5)

/-- The printed index maps, decided over the grid: the row windows sit at block row `t`, column block 0; the
    weight window at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One entry of the body's product of a row block with the weights is the entry of the whole-array product at the
    row the block's row is in the array: the same sum over the contracted axis, term by term. -/
theorem pay1_block (x0 : Vec Ideal S10000x128 .f32) (x1 : Vec Ideal S128x128 .f32)
    (X : S50000x128.Idx → Elt Ideal .f32) (W : S128x128.Idx → Elt Ideal .f32) (p : Fin 10000) (q : Fin 128) (r : Fin 50000)
    (h0 : ∀ k : Fin 128, x0 (ix2 p k) = X (ix2 r k)) (h1 : ∀ k : Fin 128, x1 (ix2 k q) = W (ix2 k q)) :
    k1_pay1 (F := Ideal) x0 x1 (ix2 p q) = Cert.Law.R.lin X W (ix2 r q) := by
  rw [Cert.Law.pay1_apply', Cert.Law.lin_apply]
  exact Finset.sum_congr rfl fun k _ => by rw [h0 k, h1 k]

/-- What point `t` writes back is block `t` of the whole-array product. -/
theorem flushed1_eq (c : Dev nD) (t : Fin cfg1.N) :
    (dat1 (F := Ideal) V c).flushed 2 t = ((cfg1.win 2).blk t).view.read (Elt Ideal) (G1 V c) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  obtain ⟨e00, e01, e10, e11, e20, e21⟩ := idx_facts1 t
  have ht : t.val < 5 := lt_of_lt_of_eq t.isLt (show cfg1.N = 5 from N_1)
  funext j
  obtain ⟨p, q, rfl⟩ : ∃ (p : Fin 10000) (q : Fin 128), j = ix2 p q := ⟨j 0, j 1, eq_ix2 j⟩
  show k1_pay1 (F := Ideal) (iblk1 V c 0 t) (iblk1 V c 1 t) (ix2 p q) = G1 V c (((cfg1.win 2).blk t).view.emb (ix2 p q))
  have hr : ((cfg1.win 2).blk t).view.emb (ix2 p q) = ix2 (⟨t.val * 10000 + p.val, by omega⟩ : Fin 50000) q := by
    funext a; apply Fin.ext
    match a with
    | ⟨0, _⟩ => show win1_2.index t (0 : Fin 2) * 10000 + 1 * p.val = t.val * 10000 + p.val; rw [e20]; omega
    | ⟨1, _⟩ => show win1_2.index t (1 : Fin 2) * 128 + 1 * q.val = q.val; rw [e21]; omega
  rw [hr]
  refine pay1_block _ _ _ _ p q _ (fun k => ?_) (fun k => ?_)
  · show V c main_v44 (((cfg1.win 0).blk t).view.emb (ix2 p k)) = V c main_v44 (ix2 (⟨t.val * 10000 + p.val, by omega⟩ : Fin 50000) k)
    refine congrArg _ ?_
    funext a; apply Fin.ext
    match a with
    | ⟨0, _⟩ => show win1_0.index t (0 : Fin 2) * 10000 + 1 * p.val = t.val * 10000 + p.val; rw [e00]; omega
    | ⟨1, _⟩ => show win1_0.index t (1 : Fin 2) * 128 + 1 * k.val = k.val; rw [e01]; omega
  · show V c main_arg5 (((cfg1.win 1).blk t).view.emb (ix2 k q)) = V c main_arg5 (ix2 k q)
    refine congrArg _ ?_
    funext a; apply Fin.ext
    match a with
    | ⟨0, _⟩ => show win1_1.index t (0 : Fin 2) * 128 + 1 * k.val = k.val; rw [e10]; omega
    | ⟨1, _⟩ => show win1_1.index t (1 : Fin 2) * 128 + 1 * q.val = q.val; rw [e11]; omega

/-- An index of the array is in point `t`'s block iff each coordinate is in the block's range on its axis. -/
theorem mem_blk1 (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v45).slice (win1_2.rect t)).set ↔ _
  rw [View.set_slice_whole, Rect.mem_set_unit]
  exact Iff.rfl

/-- Every index of the array is in the block of the point its row falls to: row `r` is in block `r / 10000`. -/
theorem cover1_arr (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ : ∃ t : Fin cfg1.N, t.val = (i 0).val / 10000 :=
    ⟨⟨(i 0).val / 10000, by rw [show cfg1.N = 5 from N_1]; omega⟩, rfl⟩
  obtain ⟨e00, e01, e10, e11, e20, e21⟩ := idx_facts1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; rw [e20, ht]; omega
  | ⟨1, _⟩ => show win1_2.index t (1 : Fin 2) * 128 ≤ (i 1).val ∧ (i 1).val < win1_2.index t (1 : Fin 2) * 128 + 128; rw [e21]; omega

/-- Region 1's output array after the region: the whole-array product of the arrays it read. -/
theorem arr1 (c : Dev nD) : (dat1 (F := Ideal) V c).arrAt 2 cfg1.N = Cert.Law.R.lin (V c main_v44) (V c main_arg5) :=
  (dat1 (F := Ideal) V c).arrAt_eq_of_cover 2 (G1 V c) (fun t _ => flushed1_eq V c t) (cover1_arr)

/-! ## Region 3: one point, every window its whole array -/

/-- What region 3's output array ends holding: the body's perceptron of the seven arrays the region reads. -/
abbrev G3 (c : Dev nD) : S64x1.Idx → Elt Ideal .f32 :=
  k3_pay1 (F := Ideal) (V c main_v83) (V c main_arg7) (V c main_v84) (V c main_arg9) (V c main_v85) (V c main_arg11) (V c main_v86)

/-- The printed index maps, decided over the one-point grid: every window sits at block (0, 0). -/
theorem idx_facts3 : ∀ t : Fin cfg3.N, win3_0.index t (0 : Fin 2) = 0
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0 :=
  (by decide +kernel : ∀ t : Fin grid3.N, _)

/-- Window 0's block is its whole array: block (0, 0) of a window as large as the array. -/
theorem iblk3_0_eq (c : Dev nD) (t : Fin cfg3.N) : (iblk3 (F := Ideal) V c 0 t : Vec Ideal S64x128 .f32) = V c main_v83 := by
  obtain ⟨e00, e01, e10, e11, e20, e21, e30, e31, e40, e41, e50, e51, e60, e61, e70, e71⟩ := idx_facts3 t
  funext y
  show V c main_v83 (((cfg3.win 0).blk t).view.emb y) = V c main_v83 y
  refine congrArg _ ?_
  funext a; apply Fin.ext
  match a with
  | ⟨0, _⟩ => show win3_0.index t (0 : Fin 2) * 64 + 1 * (y 0).val = (y 0).val; rw [e00]; omega
  | ⟨1, _⟩ => show win3_0.index t (1 : Fin 2) * 128 + 1 * (y 1).val = (y 1).val; rw [e01]; omega

/-- Window 1's block is its whole array: block (0, 0) of a window as large as the array. -/
theorem iblk3_1_eq (c : Dev nD) (t : Fin cfg3.N) : (iblk3 (F := Ideal) V c 1 t : Vec Ideal S128x64 .f32) = V c main_arg7 := by
  obtain ⟨e00, e01, e10, e11, e20, e21, e30, e31, e40, e41, e50, e51, e60, e61, e70, e71⟩ := idx_facts3 t
  funext y
  show V c main_arg7 (((cfg3.win 1).blk t).view.emb y) = V c main_arg7 y
  refine congrArg _ ?_
  funext a; apply Fin.ext
  match a with
  | ⟨0, _⟩ => show win3_1.index t (0 : Fin 2) * 128 + 1 * (y 0).val = (y 0).val; rw [e10]; omega
  | ⟨1, _⟩ => show win3_1.index t (1 : Fin 2) * 64 + 1 * (y 1).val = (y 1).val; rw [e11]; omega

/-- Window 2's block is its whole array: block (0, 0) of a window as large as the array. -/
theorem iblk3_2_eq (c : Dev nD) (t : Fin cfg3.N) : (iblk3 (F := Ideal) V c 2 t : Vec Ideal S1x64 .f32) = V c main_v84 := by
  obtain ⟨e00, e01, e10, e11, e20, e21, e30, e31, e40, e41, e50, e51, e60, e61, e70, e71⟩ := idx_facts3 t
  funext y
  show V c main_v84 (((cfg3.win 2).blk t).view.emb y) = V c main_v84 y
  refine congrArg _ ?_
  funext a; apply Fin.ext
  match a with
  | ⟨0, _⟩ => show win3_2.index t (0 : Fin 2) * 1 + 1 * (y 0).val = (y 0).val; rw [e20]; omega
  | ⟨1, _⟩ => show win3_2.index t (1 : Fin 2) * 64 + 1 * (y 1).val = (y 1).val; rw [e21]; omega

/-- Window 3's block is its whole array: block (0, 0) of a window as large as the array. -/
theorem iblk3_3_eq (c : Dev nD) (t : Fin cfg3.N) : (iblk3 (F := Ideal) V c 3 t : Vec Ideal S64x32 .f32) = V c main_arg9 := by
  obtain ⟨e00, e01, e10, e11, e20, e21, e30, e31, e40, e41, e50, e51, e60, e61, e70, e71⟩ := idx_facts3 t
  funext y
  show V c main_arg9 (((cfg3.win 3).blk t).view.emb y) = V c main_arg9 y
  refine congrArg _ ?_
  funext a; apply Fin.ext
  match a with
  | ⟨0, _⟩ => show win3_3.index t (0 : Fin 2) * 64 + 1 * (y 0).val = (y 0).val; rw [e30]; omega
  | ⟨1, _⟩ => show win3_3.index t (1 : Fin 2) * 32 + 1 * (y 1).val = (y 1).val; rw [e31]; omega

/-- Window 4's block is its whole array: block (0, 0) of a window as large as the array. -/
theorem iblk3_4_eq (c : Dev nD) (t : Fin cfg3.N) : (iblk3 (F := Ideal) V c 4 t : Vec Ideal S1x32 .f32) = V c main_v85 := by
  obtain ⟨e00, e01, e10, e11, e20, e21, e30, e31, e40, e41, e50, e51, e60, e61, e70, e71⟩ := idx_facts3 t
  funext y
  show V c main_v85 (((cfg3.win 4).blk t).view.emb y) = V c main_v85 y
  refine congrArg _ ?_
  funext a; apply Fin.ext
  match a with
  | ⟨0, _⟩ => show win3_4.index t (0 : Fin 2) * 1 + 1 * (y 0).val = (y 0).val; rw [e40]; omega
  | ⟨1, _⟩ => show win3_4.index t (1 : Fin 2) * 32 + 1 * (y 1).val = (y 1).val; rw [e41]; omega

/-- Window 5's block is its whole array: block (0, 0) of a window as large as the array. -/
theorem iblk3_5_eq (c : Dev nD) (t : Fin cfg3.N) : (iblk3 (F := Ideal) V c 5 t : Vec Ideal S32x1 .f32) = V c main_arg11 := by
  obtain ⟨e00, e01, e10, e11, e20, e21, e30, e31, e40, e41, e50, e51, e60, e61, e70, e71⟩ := idx_facts3 t
  funext y
  show V c main_arg11 (((cfg3.win 5).blk t).view.emb y) = V c main_arg11 y
  refine congrArg _ ?_
  funext a; apply Fin.ext
  match a with
  | ⟨0, _⟩ => show win3_5.index t (0 : Fin 2) * 32 + 1 * (y 0).val = (y 0).val; rw [e50]; omega
  | ⟨1, _⟩ => show win3_5.index t (1 : Fin 2) * 1 + 1 * (y 1).val = (y 1).val; rw [e51]; omega

/-- Window 6's block is its whole array: block (0, 0) of a window as large as the array. -/
theorem iblk3_6_eq (c : Dev nD) (t : Fin cfg3.N) : (iblk3 (F := Ideal) V c 6 t : Vec Ideal S1x1 .f32) = V c main_v86 := by
  obtain ⟨e00, e01, e10, e11, e20, e21, e30, e31, e40, e41, e50, e51, e60, e61, e70, e71⟩ := idx_facts3 t
  funext y
  show V c main_v86 (((cfg3.win 6).blk t).view.emb y) = V c main_v86 y
  refine congrArg _ ?_
  funext a; apply Fin.ext
  match a with
  | ⟨0, _⟩ => show win3_6.index t (0 : Fin 2) * 1 + 1 * (y 0).val = (y 0).val; rw [e60]; omega
  | ⟨1, _⟩ => show win3_6.index t (1 : Fin 2) * 1 + 1 * (y 1).val = (y 1).val; rw [e61]; omega

/-- What the one point writes back is the whole of `G3`. -/
theorem flushed3_eq (c : Dev nD) (t : Fin cfg3.N) :
    (dat3 (F := Ideal) V c).flushed 7 t = ((cfg3.win 7).blk t).view.read (Elt Ideal) (G3 V c) := by
  show (cfg3.win 7).cut (grid3.coords t) ((dat3 V c).after 7 t) = _
  rw [after3_7]
  unfold out3_7
  rw [View.canon_unit_zero hz]
  simp only [View.ld_unit_zero (S := S64x128) hz, View.ld_unit_zero (S := S128x64) hz, View.ld_unit_zero (S := S1x64) hz, View.ld_unit_zero (S := S64x32) hz, View.ld_unit_zero (S := S1x32) hz, View.ld_unit_zero (S := S32x1) hz, View.ld_unit_zero (S := S1x1) hz]
  rw [iblk3_0_eq V c t, iblk3_1_eq V c t, iblk3_2_eq V c t, iblk3_3_eq V c t, iblk3_4_eq V c t, iblk3_5_eq V c t, iblk3_6_eq V c t]
  obtain ⟨e00, e01, e10, e11, e20, e21, e30, e31, e40, e41, e50, e51, e60, e61, e70, e71⟩ := idx_facts3 t
  funext j
  show G3 V c j = G3 V c (((cfg3.win 7).blk t).view.emb j)
  refine congrArg _ ?_
  symm
  funext a; apply Fin.ext
  match a with
  | ⟨0, _⟩ => show win3_7.index t (0 : Fin 2) * 64 + 1 * (j 0).val = (j 0).val; rw [e70]; omega
  | ⟨1, _⟩ => show win3_7.index t (1 : Fin 2) * 1 + 1 * (j 1).val = (j 1).val; rw [e71]; omega

/-- An index of the array is in the point's block iff each coordinate is in the block's range on its axis. -/
theorem mem_blk3 (t : Fin cfg3.N) (i : S64x1.Idx) :
    i ∈ ((cfg3.win 7).blk t).view.set ↔ ∀ a : Fin 2, win3_7.index t a * S64x1.size a ≤ (i a).val ∧ (i a).val < win3_7.index t a * S64x1.size a + S64x1.size a := by
  show i ∈ ((View.whole main_v87).slice (win3_7.rect t)).set ↔ _
  rw [View.set_slice_whole, Rect.mem_set_unit]
  exact Iff.rfl

/-- The one point's block is the whole array. -/
theorem cover3_arr (i : S64x1.Idx) :
    ∃ t : Fin cfg3.N, (cfg3.win 7).flush t = true ∧ i ∈ ((cfg3.win 7).blk t).view.set := by
  have hi0 : (i 0).val < 64 := (i 0).isLt
  have hi1 : (i 1).val < 1 := (i 1).isLt
  obtain ⟨e00, e01, e10, e11, e20, e21, e30, e31, e40, e41, e50, e51, e60, e61, e70, e71⟩ := idx_facts3 t3_0
  refine ⟨t3_0, flush3_7 t3_0, ?_⟩
  rw [mem_blk3]
  intro a
  match a with
  | ⟨0, _⟩ => show win3_7.index t3_0 (0 : Fin 2) * 64 ≤ (i 0).val ∧ (i 0).val < win3_7.index t3_0 (0 : Fin 2) * 64 + 64; rw [e70]; omega
  | ⟨1, _⟩ => show win3_7.index t3_0 (1 : Fin 2) * 1 ≤ (i 1).val ∧ (i 1).val < win3_7.index t3_0 (1 : Fin 2) * 1 + 1; rw [e71]; omega

/-- Region 3's output array after the region: the body's perceptron of the arrays it read. -/
theorem arr3 (c : Dev nD) : (dat3 (F := Ideal) V c).arrAt 7 cfg3.N = k3_pay1 (F := Ideal) (V c main_v83) (V c main_arg7) (V c main_v84) (V c main_arg9) (V c main_v85) (V c main_arg11) (V c main_v86) :=
  (dat3 (F := Ideal) V c).arrAt_eq_of_cover 7 (G3 V c) (fun t _ => flushed3_eq V c t) (cover3_arr)

end Cert.KernelIdeal.Gen

end
-- ==== Proof.KI.Val2.lean ====
/-
  The value of the pooled sums at the extended reals: the array the third region leaves is the reference's
  row sums by graph.

  Each grid point adds to an accumulator the product of its membership block, transposed, with its feature
  block; the accumulator starts at zero and is written out once, after the last block. A block's entry (k, ·)
  at point t is the array's entry (10000 t + k, ·), so after the five points the accumulator at (g, col) is the
  table-weighted sum of column col over all 50000 rows; the table is 1 on the rows of graph g and 0 elsewhere.
-/
import proofs.«420645_j83519934038548_2_alg».proof.Proof.KI.Reg2
import proofs.«420645_j83519934038548_2_alg».proof.Proof.Law.Pool
import Idealize.ShloMosaic.Lib.Pipeline.Value
import Idealize.ShloMosaic.Lib.ValueIdx
import Idealize.ShloMosaic.PureOps.Ideal

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat)

variable [Cert.ReferenceIdeal.Facts₀]

variable (V : (c : Dev nD) → (b : Ref sig .tc) → Buf (Elt Ideal) ((c : Thread nD τ).loc b))

/-! ## A block's entry is the array's entry at its row -/

/-- The block index of each window at each point: the row windows move down one block per point on
    the row axis and never on the column axis; the sums window never moves. -/
theorem blockIdx2 : ∀ t : Fin grid2.N, win2_0.index t 0 = t.val ∧ win2_0.index t 1 = 0 ∧ win2_1.index t 0 = t.val ∧ win2_1.index t 1 = 0
    ∧ win2_2.index t 0 = 0 ∧ win2_2.index t 1 = 0 := by decide +kernel

/-- The feature block at point t, at its literal shape. -/
abbrev hblk2 (c : Dev nD) (t : Fin cfg2.N) : Vec Ideal S10000x128 .f32 := iblk2 V c 0 t
/-- The membership block at point t, at its literal shape. -/
abbrev oblk2 (c : Dev nD) (t : Fin cfg2.N) : Vec Ideal S10000x64 .bf16 := iblk2 V c 1 t

/-- Row k of block t is a row of the array. -/
theorem row2_lt (t : Fin cfg2.N) (k : Fin 10000) : 10000 * t.val + k.val < 50000 := by
  have := t.isLt; have h5 : cfg2.N = 5 := N_2; omega

/-- Entry (k, col) of the feature block at point t is the features' entry (10000 t + k, col): on each axis the
    coordinate is the block index times the block's size plus the coordinate inside the block. -/
theorem hblk2_apply (c : Dev nD) (t : Fin cfg2.N) (k : Fin 10000) (col : Fin 128) :
    hblk2 V c t (ix2 k col) = V c main_v68 (ix2 (⟨10000 * t.val + k.val, row2_lt t k⟩ : Fin 50000) col) := by
  have hi := blockIdx2 t
  show iblk2 V c 0 t (ix2 k col) = _
  unfold iblk2
  rw [View.read_apply]
  show V c main_v68 _ = V c main_v68 _
  congr 1
  funext a
  apply Fin.ext
  match a with
  | ⟨0, _⟩ => show win2_0.index t 0 * 10000 + 1 * k.val = 10000 * t.val + k.val; rw [hi.1]; omega
  | ⟨1, _⟩ => show win2_0.index t 1 * 128 + 1 * col.val = col.val; rw [hi.2.1]; omega

/-- Entry (k, g) of the membership block at point t is the table's entry (10000 t + k, g). -/
theorem oblk2_apply (c : Dev nD) (t : Fin cfg2.N) (k : Fin 10000) (g : Fin 64) :
    oblk2 V c t (ix2 k g) = V c main_v75 (ix2 (⟨10000 * t.val + k.val, row2_lt t k⟩ : Fin 50000) g) := by
  have hi := blockIdx2 t
  show iblk2 V c 1 t (ix2 k g) = _
  unfold iblk2
  rw [View.read_apply]
  show V c main_v75 _ = V c main_v75 _
  congr 1
  funext a
  apply Fin.ext
  match a with
  | ⟨0, _⟩ => show win2_1.index t 0 * 10000 + 1 * k.val = 10000 * t.val + k.val; rw [hi.2.2.1]; omega
  | ⟨1, _⟩ => show win2_1.index t 1 * 64 + 1 * g.val = g.val; rw [hi.2.2.2.1]; omega

/-! ## The accumulator after point n: the shares of blocks 0 … n -/

/-- Block t's share of the pooled sum at (g, col): the block's table column g against its feature column col. -/
def share2 (c : Dev nD) (t : ℕ) (g : Fin 64) (col : Fin 128) : EReal :=
  if h : t < cfg2.N then ∑ k : Fin 10000, oblk2 V c ⟨t, h⟩ (ix2 k g) * hblk2 V c ⟨t, h⟩ (ix2 k col) else 0

/-- After point n the accumulator holds the shares of blocks 0 … n: zero plus the first block's at the first
    point, the previous points' plus this block's at every later one. -/
theorem acc2_apply (c : Dev nD) (g : Fin 64) (col : Fin 128) : ∀ (n : ℕ), n < cfg2.N →
    acc2 V c n (ix2 g col) = ∑ t ∈ Finset.range (n + 1), share2 V c t g col
  | 0, h => by
    rw [acc2_zero, Cert.Law.pay2_apply, Cert.Law.pay1_apply, zero_add, Finset.sum_range_one]
    unfold share2
    rw [dif_pos h]
    rfl
  | n + 1, h => by
    rw [acc2_succ V c n h, Cert.Law.pay2_apply, acc2_apply c g col n (Nat.lt_of_succ_lt h), Finset.sum_range_succ _ (n + 1)]
    congr 1
    unfold share2
    rw [dif_pos h]

/-! ## From the last point's block to the array -/

/-- The pooled sums: the accumulator after the last point, as contents of the sums' array (its one block is the array). -/
abbrev sums2 (c : Dev nD) : Buf (Elt Ideal) ((c : Thread nD τ).loc main_v76) := acc2 V c 4

/-- The one write-back, at the last point, writes it: block (0, 0) of the [64,128] array read through zero offsets is
    the array. -/
theorem flushed2_eq (c : Dev nD) (t : Fin cfg2.N) (hf : (cfg2.win 2).flush t = true) :
    (dat2 V c).flushed 2 t = ((cfg2.win 2).blk t).view.read (Elt Ideal) (sums2 V c) := by
  have hN : cfg2.N = 5 := N_2
  have h4 : t.val = 4 := by have := (flush2_2 t).mp hf; have := t.isLt; omega
  obtain rfl : t = t2_4 := Fin.ext h4
  show (cfg2.win 2).cut (grid2.coords t2_4) ((dat2 V c).after 2 t2_4) = _
  rw [after2_2]
  have hi := blockIdx2 t2_4
  have hz' : (fun a => win2_2.index t2_4 a * main_v76.ty.shape.size a) = fun _ => 0 := funext fun a => by
    match a with
    | ⟨0, _⟩ => show win2_2.index t2_4 0 * _ = 0; rw [hi.2.2.2.2.1, Nat.zero_mul]
    | ⟨1, _⟩ => show win2_2.index t2_4 1 * _ = 0; rw [hi.2.2.2.2.2, Nat.zero_mul]
  exact (Memref.read_access_unit_zero (Elt Ideal) main_v76 hz' (fun a => by rw [congrFun hz' a]; simp) (sums2 V c)).symm

/-- So the sums' array ends holding the accumulator after the last point: that point's block covers the array. -/
theorem arrAt2 (c : Dev nD) : (dat2 V c).arrAt 2 cfg2.N = sums2 V c :=
  (dat2 V c).arrAt_eq_of_cover 2 (sums2 V c) (flushed2_eq V c) fun i =>
    ⟨t2_4, (flush2_2 t2_4).mpr rfl, by
      have hi := blockIdx2 t2_4
      show i ∈ ((View.whole main_v76).slice (win2_2.rect t2_4)).set
      rw [View.set_slice_whole, Rect.mem_set_unit]
      intro a
      have h0 : (i 0 : Nat) < 64 := (i 0).isLt
      have h1 : (i 1 : Nat) < 128 := (i 1).isLt
      match a with
      | ⟨0, _⟩ => show win2_2.index t2_4 0 * win2_2.size 0 ≤ (i 0 : Nat) ∧ (i 0 : Nat) < win2_2.index t2_4 0 * win2_2.size 0 + win2_2.xsize (grid2.coords t2_4) 0
                  rw [hi.2.2.2.2.1, show win2_2.xsize (grid2.coords t2_4) 0 = 64 from rfl]; omega
      | ⟨1, _⟩ => show win2_2.index t2_4 1 * win2_2.size 1 ≤ (i 1 : Nat) ∧ (i 1 : Nat) < win2_2.index t2_4 1 * win2_2.size 1 + win2_2.xsize (grid2.coords t2_4) 1
                  rw [hi.2.2.2.2.2, show win2_2.xsize (grid2.coords t2_4) 1 = 128 from rfl]; omega⟩

/-! ## The pooled sums are the reference's -/

/-- With the membership table in the second window's array, the sums' array after the region is the reference's
    row sums by graph: the five blocks' shares are the table-weighted sum over all rows, a table entry is 1 on
    the rows of graph g and 0 elsewhere, and 1 · x = x, 0 · x = 0 on the extended reals. -/
theorem arr2 (c : Dev nD) (batch : (⟨S50000, .i32⟩ : BufTy).Contents (Elt Ideal))
    (hoh : V c main_v75 = Cert.Law.K.onehot batch) :
    (dat2 (F := Ideal) V c).arrAt 2 cfg2.N = Cert.Law.R.pool (V c main_v68) batch := by
  rw [arrAt2]
  funext i
  obtain ⟨g, col, rfl⟩ : ∃ (g : Fin 64) (col : Fin 128), i = ix2 g col := ⟨i 0, i 1, eq_ix2 i⟩
  rw [Cert.Law.pool_apply, zero_add]
  show acc2 V c 4 (ix2 g col) = _
  have h4 : 4 < cfg2.N := by rw [show cfg2.N = 5 from N_2]; decide
  rw [acc2_apply V c g col 4 h4]
  have e5 : ∑ t ∈ Finset.range (4 + 1), share2 V c t g col = ∑ t : Fin 5, share2 V c t.val g col := Finset.sum_range _
  rw [e5]
  refine Eq.trans ?_ (Cert.Law.pool_sum (fun n c' => V c main_v68 (ix2 n c')) (fun n => batch (ix1 n)) g col)
  refine Finset.sum_congr rfl fun t _ => ?_
  have ht : t.val < cfg2.N := by rw [show cfg2.N = 5 from N_2]; exact t.isLt
  unfold share2
  rw [dif_pos ht]
  refine Finset.sum_congr rfl fun k _ => ?_
  rw [oblk2_apply, hblk2_apply, hoh, Cert.Law.onehot_apply]

end Cert.KernelIdeal.Gen

end
-- ==== Proof.Law.Gcn.lean ====
/-
  One graph-convolution layer at the ideal values: the two association orders the two programs print are equal.

  With hl the transformed features [N, C], dv the vector of inverse square-root degrees [N], s and t the source and
  target node of each edge (self loops included) and b the bias, both forms are
      max ( A + b, 0 ),     A[p, c] = ∑ over the edges k with target p of  dv[s k] * hl[s k, c] * dv[p].
  One form scales the rows of hl by dv before the rows are taken along the edges and scales the accumulated rows by dv
  afterwards; the other takes the rows of hl, multiplies each taken row by the product of the two gathered degrees, and
  accumulates. They agree whenever every dv[i] is nonnegative and not +∞: at entry (p, c) both accumulations are 0 plus a
  sum over the same edges k (those whose target index is p); for such k the clamped target index is p itself, so the
  second form's term is hl[s, c] * (dv[s] * dv[p]) = (hl[s, c] * dv[s]) * dv[p] (multiplication of extended reals is
  associative), and a finite sum times x is the sum of the products when 0 ≤ x and x ≠ ⊤. Nothing is asked of hl: its
  entries may be infinite. The inverse square-root degree (1 / √deg where deg is positive, 0 elsewhere) is such a dv.
-/
import proofs.«420645_j83519934038548_2_alg».proof.Proof.Law.GcnDefs
import proofs.«420645_j83519934038548_2_alg».proof.Proof.LibRows
import Idealize.ShloMosaic.PureOps.Ideal
import Idealize.ShloMosaic.PureOps.Ideal.Laws
import Idealize.ShloMosaic.Lib.ValueIdx
import Idealize.ShloMosaic.Lib.Pipeline.Value
import Mathlib.Data.EReal.Operations

noncomputable section

open scoped BigOperators

namespace Cert.Law

open Idealize.ShloMosaic Idealize.ShloMosaic.ValueIdx

/-- A finite sum times a nonnegative factor other than +∞ is the sum of the products. -/
theorem sum_mul_of_nonneg_ne_top {ι : Type*} (s : Finset ι) (f : ι → EReal) (x : EReal) (h0 : 0 ≤ x) (ht : x ≠ ⊤) :
    (∑ i ∈ s, f i) * x = ∑ i ∈ s, f i * x := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-- The dimension numbers of a take from a vector [N] at start indices [K, 1]: result [K]. -/
abbrev gatherVecDims (N K : Nat)
    (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- THE VECTOR TAKE READ AT k: the operand at idx[k, 0], read signed and clamped into [0, N − 1]. -/
theorem gather_vec_apply {α : Type} {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (k : Fin K) :
    Host.gather (gatherVecDims N K wf) x idx (ix1 k)
      = x (ix1 ⟨min (idx (ix2 k (0 : Fin 1))).toInt.toNat (N - 1), by omega⟩) := by
  unfold Host.gather
  congr 1
  funext a
  obtain rfl : a = 0 := Subsingleton.elim _ _
  refine Fin.ext ?_
  show (gatherVecDims N K wf).start (ix1 k) idx 0 + (gatherVecDims N K wf).batchCoord (ix1 k) 0
    + (gatherVecDims N K wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVecDims N K wf).startIndexMap from List.mem_singleton.mpr rfl)]
  have hsi : (gatherVecDims N K wf).siIdx (ix1 k) ⟨List.idxOf (0 : Fin 1) (gatherVecDims N K wf).startIndexMap,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]
  rfl

open Cert.Lib.Rows in
/-- The accumulation law over arbitrary index arrays: scaling the source rows by D before the take and the accumulated
    row by D after equals scaling each taken row by E, when D repeats dv along the columns and E is the product of the
    two degrees gathered at the edge's ends. -/
theorem agg_eq {N C K w : Nat} (hN : 0 < N)
    (wfS : ScatterDims.WF ⟨2, ![N, C]⟩ ⟨2, ![K, 1]⟩ ⟨2, ![K, C]⟩ [1] [0] [0] 1)
    (wfG : GatherDims.WF ⟨2, ![N, C]⟩ ⟨2, ![K, 1]⟩ ⟨2, ![K, C]⟩ [1] [0] [] [0] [] 1 ![1, C])
    (wfV : GatherDims.WF ⟨1, ![N]⟩ ⟨2, ![K, 1]⟩ ⟨1, ![K]⟩ [] [0] [] [0] [] 1 ![1])
    (hl : (⟨2, ![N, C]⟩ : Shape).Idx → EReal) (dv : (⟨1, ![N]⟩ : Shape).Idx → EReal)
    (hdv : ∀ i, 0 ≤ dv i ∧ dv i ≠ ⊤) (n5 n6 : IVec ⟨2, ![K, 1]⟩ w)
    (Z Z' : (⟨2, ![N, C]⟩ : Shape).Idx → EReal)
    (D : (⟨2, ![N, C]⟩ : Shape).Idx → EReal) (hD : ∀ q c, D (ix2 q c) = dv (ix1 q))
    (E : (⟨2, ![K, C]⟩ : Shape).Idx → EReal)
    (hE : ∀ k c, E (ix2 k c) = Host.gather (gatherVecDims N K wfV) dv n5 (ix1 k)
      * Host.gather (gatherVecDims N K wfV) dv n6 (ix1 k))
    (p : Fin N) (c : Fin C) (hZ : Z (ix2 p c) = 0) (hZ' : Z' (ix2 p c) = 0) :
    Ideal.hostScatterAdd (scatterRowsDims N C K wfS) Z n6
        (Host.gather (gatherDims N C K wfG) (fun j => hl j * D j) n5) (ix2 p c) * D (ix2 p c)
      = Ideal.hostScatterAdd (scatterRowsDims N C K wfS) Z' n6
        (fun j => Host.gather (gatherDims N C K wfG) hl n5 j * E j) (ix2 p c) := by
  rw [hostScatterAdd_rows_apply, hostScatterAdd_rows_apply, hZ, hZ', zero_add, zero_add, hD,
    sum_mul_of_nonneg_ne_top _ _ _ (hdv _).1 (hdv _).2]
  refine Finset.sum_congr rfl fun k _ => ?_
  by_cases h : (n6 (ix2 k (0 : Fin 1))).toInt = (p.val : Int)
  · -- the edge's target is p: its clamped target index is p itself
    have hnat : (n6 (ix2 k (0 : Fin 1))).toInt.toNat = p.val := by rw [h]; exact Int.toNat_natCast _
    have hp : (⟨min (n6 (ix2 k (0 : Fin 1))).toInt.toNat (N - 1), by omega⟩ : Fin N) = p :=
      Fin.ext (by show min _ _ = _; rw [hnat]; have := p.isLt; omega)
    rw [if_pos h, if_pos h, gather_rows_apply hN, gather_rows_apply hN, hE, gather_vec_apply hN, gather_vec_apply hN,
      hD, hp, mul_assoc]
  · rw [if_neg h, if_neg h, zero_mul]

/-- The inverse square-root degree is nonnegative and never +∞. -/
theorem dinv_ok [Cert.ReferenceIdeal.Facts₀] (deg : (⟨Cert.ReferenceIdeal.S50000, .f32⟩ : BufTy).Contents (Elt Ideal))
    (i : Cert.ReferenceIdeal.S50000.Idx) : 0 ≤ R.dinv deg i ∧ R.dinv deg i ≠ ⊤ := by
  -- at an index: where 0 < deg the reciprocal square root, elsewhere the zero literal
  show 0 ≤ Scalar.select (Ideal.cmp .ogt (deg i) (Ideal.ofBits .f32 0x00000000#32)) (Ideal.rsqrt (deg i))
      (Ideal.ofBits .f32 0x00000000#32)
    ∧ Scalar.select (Ideal.cmp .ogt (deg i) (Ideal.ofBits .f32 0x00000000#32)) (Ideal.rsqrt (deg i))
      (Ideal.ofBits .f32 0x00000000#32) ≠ ⊤
  rw [Ideal.ofBits_zero_f32]
  generalize deg i = x
  unfold Scalar.select Ideal.cmp
  by_cases hx : (0 : EReal) < x
  · rw [if_pos (by simp [hx])]
    induction x using EReal.rec with
    | bot => exact absurd hx (not_lt_bot)
    | top => rw [Ideal.rsqrt_top]; exact ⟨le_refl _, EReal.zero_ne_top⟩
    | coe r =>
      have hr : 0 < r := by exact_mod_cast hx
      rw [Ideal.rsqrt_coe, if_neg (not_lt.mpr hr.le), if_neg hr.ne']
      exact ⟨by exact_mod_cast (inv_nonneg.mpr (Real.sqrt_nonneg r)), EReal.coe_ne_top _⟩
  · rw [if_neg (by simp [hx])]
    exact ⟨le_refl _, EReal.zero_ne_top⟩

/-- The degree column repeated along the columns reads dv at the row. -/
theorem K.dfull_apply [Cert.KernelIdeal.Facts₀] (dv : (⟨Cert.KernelIdeal.S50000, .f32⟩ : BufTy).Contents (Elt Ideal))
    (q : Fin 50000) (c : Fin 128) :
    broadcastInDim Cert.KernelIdeal.S50000x128 ![0, 1] Cert.KernelIdeal.Facts₀.bcast_S50000x1_S50000x128_0_1
      (K.dcol dv) (ix2 q c) = dv (ix1 q) := by
  rw [broadcastInDim_apply _ Cert.KernelIdeal.Facts₀.bcast_S50000x1_S50000x128_0_1 (K.dcol dv) (ix2 q c)
    (ix2 q (0 : Fin 1)) (fun a => match a with
      | ⟨0, _⟩ => by show q.val = if (50000 : Nat) = 1 then 0 else q.val; rw [if_neg (by decide)]
      | ⟨1, _⟩ => by show 0 = if (1 : Nat) = 1 then 0 else c.val; rw [if_pos rfl])]
  unfold K.dcol
  exact broadcastInDim_apply _ Cert.KernelIdeal.Facts₀.bcast_S50000_S50000x1_0 dv (ix2 q (0 : Fin 1)) (ix1 q)
    (fun a => match a with
      | ⟨0, _⟩ => by show q.val = if (50000 : Nat) = 1 then 0 else q.val; rw [if_neg (by decide)])

/-- A vector [K] made a column and repeated along the columns reads the vector at the row. -/
theorem R.efull_apply [Cert.ReferenceIdeal.Facts₀] (e : (⟨Cert.ReferenceIdeal.S690000, .f32⟩ : BufTy).Contents (Elt Ideal))
    (k : Fin 690000) (c : Fin 128) :
    broadcastInDim Cert.ReferenceIdeal.S690000x128 ![0, 1] Cert.ReferenceIdeal.Facts₀.bcast_S690000x1_S690000x128_0_1
      (broadcastInDim Cert.ReferenceIdeal.S690000x1 ![0] Cert.ReferenceIdeal.Facts₀.bcast_S690000_S690000x1_0 e)
      (ix2 k c) = e (ix1 k) := by
  rw [broadcastInDim_apply _ Cert.ReferenceIdeal.Facts₀.bcast_S690000x1_S690000x128_0_1 _ (ix2 k c)
    (ix2 k (0 : Fin 1)) (fun a => match a with
      | ⟨0, _⟩ => by show k.val = if (690000 : Nat) = 1 then 0 else k.val; rw [if_neg (by decide)]
      | ⟨1, _⟩ => by show 0 = if (1 : Nat) = 1 then 0 else c.val; rw [if_pos rfl])]
  exact broadcastInDim_apply _ Cert.ReferenceIdeal.Facts₀.bcast_S690000_S690000x1_0 e (ix2 k (0 : Fin 1)) (ix1 k)
    (fun a => match a with
      | ⟨0, _⟩ => by show k.val = if (690000 : Nat) = 1 then 0 else k.val; rw [if_neg (by decide)])

/-- The array of zero literals reads 0. -/
theorem K.zfull_apply [Cert.KernelIdeal.Facts₀] (j : Cert.KernelIdeal.S50000x128.Idx) :
    broadcastInDim Cert.KernelIdeal.S50000x128 ![] Cert.KernelIdeal.Facts₀.bcast_S_S50000x128
      (constant (F := Ideal) Cert.KernelIdeal.S_ .f32 0x00000000#32) j = 0 := by
  simp only [broadcastInDim, constant, Ideal.ofBits_def, Ideal.ofBits_zero_f32]

/-- The array of zero literals reads 0. -/
theorem R.zfull_apply [Cert.ReferenceIdeal.Facts₀] (j : Cert.ReferenceIdeal.S50000x128.Idx) :
    broadcastInDim Cert.ReferenceIdeal.S50000x128 ![] Cert.ReferenceIdeal.Facts₀.bcast_S_S50000x128
      (constant (F := Ideal) Cert.ReferenceIdeal.S_ .f32 0x00000000#32) j = 0 := by
  simp only [broadcastInDim, constant, Ideal.ofBits_def, Ideal.ofBits_zero_f32]

/-- The accumulation law with the dimension records, the index arrays and the zero arrays of each side as parameters:
    any records that are the row take, the row accumulation and the vector take. -/
theorem agg_eq_of {N C K w : Nat} (hN : 0 < N)
    (wfS : ScatterDims.WF ⟨2, ![N, C]⟩ ⟨2, ![K, 1]⟩ ⟨2, ![K, C]⟩ [1] [0] [0] 1)
    (wfG : GatherDims.WF ⟨2, ![N, C]⟩ ⟨2, ![K, 1]⟩ ⟨2, ![K, C]⟩ [1] [0] [] [0] [] 1 ![1, C])
    (wfV : GatherDims.WF ⟨1, ![N]⟩ ⟨2, ![K, 1]⟩ ⟨1, ![K]⟩ [] [0] [] [0] [] 1 ![1])
    (dS dS' : ScatterDims ⟨2, ![N, C]⟩ ⟨2, ![K, 1]⟩ ⟨2, ![K, C]⟩)
    (hS : dS = Cert.Lib.Rows.scatterRowsDims N C K wfS) (hS' : dS' = Cert.Lib.Rows.scatterRowsDims N C K wfS)
    (dG dG' : GatherDims ⟨2, ![N, C]⟩ ⟨2, ![K, 1]⟩ ⟨2, ![K, C]⟩)
    (hG : dG = Cert.Lib.Rows.gatherDims N C K wfG) (hG' : dG' = Cert.Lib.Rows.gatherDims N C K wfG)
    (dV : GatherDims ⟨1, ![N]⟩ ⟨2, ![K, 1]⟩ ⟨1, ![K]⟩) (hV : dV = gatherVecDims N K wfV)
    (hl : (⟨2, ![N, C]⟩ : Shape).Idx → EReal) (dv : (⟨1, ![N]⟩ : Shape).Idx → EReal)
    (hdv : ∀ i, 0 ≤ dv i ∧ dv i ≠ ⊤) (n5 n6 n5' n6' : IVec ⟨2, ![K, 1]⟩ w) (h5 : n5' = n5) (h6 : n6' = n6)
    (Z Z' : (⟨2, ![N, C]⟩ : Shape).Idx → EReal)
    (D : (⟨2, ![N, C]⟩ : Shape).Idx → EReal) (hD : ∀ q c, D (ix2 q c) = dv (ix1 q))
    (E : (⟨2, ![K, C]⟩ : Shape).Idx → EReal)
    (hE : ∀ k c, E (ix2 k c) = mulf (F := Ideal) (φ := .f32) (Host.gather dV dv n5') (Host.gather dV dv n6') (ix1 k))
    (p : Fin N) (c : Fin C) (hZ : Z (ix2 p c) = 0) (hZ' : Z' (ix2 p c) = 0) :
    mulf (F := Ideal) (φ := .f32)
        (Host.scatterAdd (F := Ideal) (φ := .f32) dS Z n6 (Host.gather dG (mulf (F := Ideal) (φ := .f32) hl D) n5)) D (ix2 p c)
      = Host.scatterAdd (F := Ideal) (φ := .f32) dS' Z' n6'
        (mulf (F := Ideal) (φ := .f32) (Host.gather dG' hl n5') E) (ix2 p c) := by
  subst hS hS' hG hG' hV h5 h6
  exact agg_eq hN wfS wfG wfV hl dv hdv n5' n6' Z Z' D hD E hE p c hZ hZ'

/-- THE LAYER LAW: the two association orders agree when every degree factor is nonnegative and not +∞. -/
theorem layer_eq [Cert.KernelIdeal.Facts₀] [Cert.ReferenceIdeal.Facts₀]
    (hl : (⟨Cert.KernelIdeal.S50000x128, .f32⟩ : BufTy).Contents (Elt Ideal))
    (dv : (⟨Cert.KernelIdeal.S50000, .f32⟩ : BufTy).Contents (Elt Ideal))
    (hdv : ∀ i, 0 ≤ dv i ∧ dv i ≠ ⊤)
    (s5 d6 : (⟨Cert.KernelIdeal.S690000, .i32⟩ : BufTy).Contents (Elt Ideal))
    (b : (⟨Cert.KernelIdeal.S128, .f32⟩ : BufTy).Contents (Elt Ideal)) :
    K.layer hl (K.dcol dv) s5 d6 b = R.layer hl dv s5 d6 b := by
  unfold K.layer R.layer
  -- the bias and the zero array are the same on both sides: it remains to compare the scaled accumulations
  refine congrArg₂ (maximumf (F := Ideal) (φ := .f32)) (congrArg₂ (addf (F := Ideal) (φ := .f32)) ?_ rfl) rfl
  funext i
  obtain ⟨p, c, rfl⟩ : ∃ (p : Fin 50000) (c : Fin 128), i = ix2 p c := ⟨i 0, i 1, eq_ix2 i⟩
  exact agg_eq_of (N := 50000) (C := 128) (K := 690000) (by decide)
    Cert.KernelIdeal.Facts₀.scatter_S50000x128_S690000x1_S690000x128_1_0_0_1_wf
    Cert.KernelIdeal.Facts₀.gather_S50000x128_S690000x1_S690000x128_1_0_n_n_0_1_1128_wf
    Cert.ReferenceIdeal.Facts₀.gather_S50000_S690000x1_S690000_n_0_n_n_0_1_1_wf
    Cert.KernelIdeal.scatter_S50000x128_S690000x1_S690000x128_1_0_0_1
    Cert.ReferenceIdeal.scatter_S50000x128_S690000x1_S690000x128_1_0_0_1 rfl rfl
    Cert.KernelIdeal.gather_S50000x128_S690000x1_S690000x128_1_0_n_n_0_1_1128
    Cert.ReferenceIdeal.gather_S50000x128_S690000x1_S690000x128_1_0_n_n_0_1_1128 rfl rfl
    Cert.ReferenceIdeal.gather_S50000_S690000x1_S690000_n_0_n_n_0_1_1 rfl
    hl dv hdv (K.nrm s5) (K.nrm d6) (R.nrm s5) (R.nrm d6) rfl rfl _ _ _ (K.dfull_apply dv) _
    (fun k c => R.efull_apply _ k c) p c (K.zfull_apply _) (R.zfull_apply _)

end Cert.Law

end
-- ==== Proof.KI.Host0.lean ====
/-
  The kernel program's first host stretch read back, at the ideal values: the two edge lists with the self loops
  appended and the column of inverse square-root degrees. The statements are the reference program's own first
  statements, one for one, followed by one broadcast of the degree vector to a column.
-/
import proofs.«420645_j83519934038548_2_alg».proof.Proof.Gen.KernelIdeal.Launch
import Idealize.ShloMosaic.Lib.StableHlo.Run
import Idealize.ShloMosaic.PureOps.Ideal
import proofs.«420645_j83519934038548_2_alg».proof.Proof.RefRead
import proofs.«420645_j83519934038548_2_alg».proof.Proof.Law.GcnDefs

set_option maxRecDepth 4000
-- the statements below are independent of one another and are taken one after another
set_option Elab.async false

noncomputable section

namespace Cert.KernelIdeal.Gen

open Idealize.ShloMosaic Idealize.ShloMosaic.TcCoe Idealize.SL.Sem Idealize.ShloMosaic.StableHlo

/-! ## Before the first region: the edge lists with the self loops, and the degree column

The first statements are the reference program's own, one for one: the two rows of the edge array, each joined with
0 … N−1; ones accumulated at the targets; the inverse square root where the count is positive and zero elsewhere. -/

set_option maxHeartbeats 4000000 in
/-- The source list, over any float family. -/
theorem host0_v5_gen {F : FTy → Type} [FloatOps F] (W : Valuation τ sig (Elt F)) :
    StableHlo.after (hostOps0_2 (F := F)) (StableHlo.after (hostOps0_1 (F := F)) (StableHlo.after (hostOps0 (F := F)) W)) main_v5
      = Cert.ReferenceIdeal.ReadP.val_main_v5 (F := F) (W main_arg1) := by
  after_results_simp; rfl

set_option maxHeartbeats 4000000 in
/-- The target list, over any float family. -/
theorem host0_v6_gen {F : FTy → Type} [FloatOps F] (W : Valuation τ sig (Elt F)) :
    StableHlo.after (hostOps0_2 (F := F)) (StableHlo.after (hostOps0_1 (F := F)) (StableHlo.after (hostOps0 (F := F)) W)) main_v6
      = Cert.ReferenceIdeal.ReadP.val_main_v6 (F := F) (W main_arg1) := by
  after_results_simp; rfl

/-- The source list of the edges, self loops appended. -/
theorem host0_v5 (W : Valuation τ sig (Elt Ideal)) :
    StableHlo.after (hostOps0_2 (F := Ideal)) (StableHlo.after (hostOps0_1 (F := Ideal)) (StableHlo.after (hostOps0 (F := Ideal)) W)) main_v5
      = Cert.ReferenceIdeal.ReadP.val_main_v5 (F := Ideal) (W main_arg1) :=
  host0_v5_gen W

/-- The target list of the edges, self loops appended. -/
theorem host0_v6 (W : Valuation τ sig (Elt Ideal)) :
    StableHlo.after (hostOps0_2 (F := Ideal)) (StableHlo.after (hostOps0_1 (F := Ideal)) (StableHlo.after (hostOps0 (F := Ideal)) W)) main_v6
      = Cert.ReferenceIdeal.ReadP.val_main_v6 (F := Ideal) (W main_arg1) :=
  host0_v6_gen W

set_option maxHeartbeats 4000000 in
/-- The inverse square-root degrees, over any float family: the reference's statement 19. -/
theorem host0_v19_gen {F : FTy → Type} [FloatOps F] (W : Valuation τ sig (Elt F)) :
    StableHlo.after (hostOps0_1 (F := F)) (StableHlo.after (hostOps0 (F := F)) W) main_v19
      = Cert.ReferenceIdeal.ReadP.val_main_v19 (F := F) (W main_arg1) := by
  after_results_simp; rfl

/-- The last statement before the first region spreads a vector over a column. -/
theorem host0_2_v20 (V : Valuation τ sig (Elt Ideal)) :
    StableHlo.after (hostOps0_2 (F := Ideal)) V main_v20 = Cert.Law.K.dcol (V main_v19) := by
  after_results; rfl

/-- The degree column: the reference's inverse square-root degrees, as a column. -/
theorem host0_v20 (W : Valuation τ sig (Elt Ideal)) :
    StableHlo.after (hostOps0_2 (F := Ideal)) (StableHlo.after (hostOps0_1 (F := Ideal)) (StableHlo.after (hostOps0 (F := Ideal)) W)) main_v20
      = Cert.Law.K.dcol (Cert.ReferenceIdeal.ReadP.val_main_v19 (F := Ideal) (W main_arg1)) :=
  (host0_2_v20 _).trans (congrArg Cert.Law.K.dcol (host0_v19_gen W))

end Cert.KernelIdeal.Gen

end
-- ==== Proof.KI.Host1.lean ====
/-
  The host stretch after the first linear region read back, at the ideal values: the first layer's tail — the
  rows scaled by the degree column, taken along the sources, accumulated at the targets, scaled again, the bias added,
  the maximum against zero.
-/
import proofs.«420645_j83519934038548_2_alg».proof.Proof.Gen.KernelIdeal.Launch
import Idealize.ShloMosaic.Lib.StableHlo.Run
import Idealize.ShloMosaic.PureOps.Ideal
import proofs.«420645_j83519934038548_2_alg».proof.Proof.Law.GcnDefs

set_option maxRecDepth 4000
-- the statements below are independent of one another and are taken one after another
set_option Elab.async false

noncomputable section

namespace Cert.KernelIdeal.Gen

open Idealize.ShloMosaic Idealize.ShloMosaic.TcCoe Idealize.SL.Sem Idealize.ShloMosaic.StableHlo

/-! ## After a linear region: the layer's tail -/

set_option maxHeartbeats 4000000 in
/-- The first layer: rows scaled, taken along the sources, accumulated at the targets, scaled, bias, maximum against zero. -/
theorem host1_v44 (W : Valuation τ sig (Elt Ideal)) :
    StableHlo.after (hostOps1_1 (F := Ideal)) (StableHlo.after (hostOps1 (F := Ideal)) W) main_v44
      = Cert.Law.K.layer (W main_v21) (W main_v20) (W main_v5) (W main_v6) (W main_arg4) := by
  after_results_simp; rfl

end Cert.KernelIdeal.Gen

end
-- ==== Proof.KI.Host2a.lean ====
/-
  The host stretch after the second linear region read back, at the ideal values: the second layer's tail, the same
  composition as the first layer's over the second region's product and the second bias.
-/
import proofs.«420645_j83519934038548_2_alg».proof.Proof.Gen.KernelIdeal.Launch
import Idealize.ShloMosaic.Lib.StableHlo.Run
import Idealize.ShloMosaic.PureOps.Ideal
import proofs.«420645_j83519934038548_2_alg».proof.Proof.Law.GcnDefs

set_option maxRecDepth 4000
-- the statements below are independent of one another and are taken one after another
set_option Elab.async false

noncomputable section

namespace Cert.KernelIdeal.Gen

open Idealize.ShloMosaic Idealize.ShloMosaic.TcCoe Idealize.SL.Sem Idealize.ShloMosaic.StableHlo

set_option maxHeartbeats 4000000 in
/-- The second layer, the same tail over the second region's product and the second bias. -/
theorem host2_v68 (W : Valuation τ sig (Elt Ideal)) :
    StableHlo.after (hostOps2_2 (F := Ideal)) (StableHlo.after (hostOps2_1 (F := Ideal)) (StableHlo.after (hostOps2 (F := Ideal)) W)) main_v68
      = Cert.Law.K.layer (W main_v45) (W main_v20) (W main_v5) (W main_v6) (W main_arg6) := by
  after_results_simp; rfl

end Cert.KernelIdeal.Gen

end
-- ==== Proof.KI.Host2b.lean ====
/-
  The host stretch after the second linear region read back, at the ideal values: the membership table of the nodes
  in the 64 graphs, the comparison of each node's graph word with 0 … 63 as 0/1.
-/
import proofs.«420645_j83519934038548_2_alg».proof.Proof.Gen.KernelIdeal.Launch
import Idealize.ShloMosaic.Lib.StableHlo.Run
import Idealize.ShloMosaic.PureOps.Ideal
import proofs.«420645_j83519934038548_2_alg».proof.Proof.Law.PoolDefs

set_option maxRecDepth 4000
-- the statements below are independent of one another and are taken one after another
set_option Elab.async false

noncomputable section

namespace Cert.KernelIdeal.Gen

open Idealize.ShloMosaic Idealize.ShloMosaic.TcCoe Idealize.SL.Sem Idealize.ShloMosaic.StableHlo

set_option maxHeartbeats 4000000 in
/-- The membership table of the nodes in the 64 graphs. -/
theorem host2_v75 (W : Valuation τ sig (Elt Ideal)) :
    StableHlo.after (hostOps2_2 (F := Ideal)) (StableHlo.after (hostOps2_1 (F := Ideal)) (StableHlo.after (hostOps2 (F := Ideal)) W)) main_v75
      = Cert.Law.K.onehot (W main_arg2) := by
  after_results_simp; rfl

end Cert.KernelIdeal.Gen

end
-- ==== Proof.KI.Host3.lean ====
/-
  The host stretch after the pooling region read back, at the ideal values: the pooled sums divided by the clamped
  column sums of the membership table, and the three biases re-read as rows.
-/
import proofs.«420645_j83519934038548_2_alg».proof.Proof.Gen.KernelIdeal.Launch
import Idealize.ShloMosaic.Lib.StableHlo.Run
import Idealize.ShloMosaic.PureOps.Ideal
import proofs.«420645_j83519934038548_2_alg».proof.Proof.Law.PoolDefs
import proofs.«420645_j83519934038548_2_alg».proof.Proof.Law.DenseDefs

set_option maxRecDepth 4000
-- the statements below are independent of one another and are taken one after another
set_option Elab.async false

noncomputable section

namespace Cert.KernelIdeal.Gen

open Idealize.ShloMosaic Idealize.ShloMosaic.TcCoe Idealize.SL.Sem Idealize.ShloMosaic.StableHlo

/-! ## After the pooling region: the mean and the three bias rows -/

/-- The pooled sums divided by the clamped counts. -/
theorem host3_v83 (W : Valuation τ sig (Elt Ideal)) :
    StableHlo.after (hostOps3 (F := Ideal)) W main_v83 = Cert.Law.K.mean (W main_v76) (W main_v75) := by
  after_results; rfl

/-- The [64] bias as a [1, 64] row. -/
theorem host3_v84 (W : Valuation τ sig (Elt Ideal)) :
    StableHlo.after (hostOps3 (F := Ideal)) W main_v84 = Cert.Law.K.brow64 (W main_arg8) := by
  after_results; rfl

/-- The [32] bias as a [1, 32] row. -/
theorem host3_v85 (W : Valuation τ sig (Elt Ideal)) :
    StableHlo.after (hostOps3 (F := Ideal)) W main_v85 = Cert.Law.K.brow32 (W main_arg10) := by
  after_results; rfl

/-- The [1] bias as a [1, 1] row. -/
theorem host3_v86 (W : Valuation τ sig (Elt Ideal)) :
    StableHlo.after (hostOps3 (F := Ideal)) W main_v86 = Cert.Law.K.brow1 (W main_arg12) := by
  after_results; rfl

end Cert.KernelIdeal.Gen

end
-- ==== Proof.KI.Host.lean ====
/-
  The kernel program's host stretches, read back as pure functions of the buffers they start from, at the ideal values:
  the edge lists and the degree column (before the first region), the two layers' tails, the membership table, the mean
  and the bias rows, stretch by stretch in program order.
-/
import proofs.«420645_j83519934038548_2_alg».proof.Proof.KI.Host0
import proofs.«420645_j83519934038548_2_alg».proof.Proof.KI.Host1
import proofs.«420645_j83519934038548_2_alg».proof.Proof.KI.Host2a
import proofs.«420645_j83519934038548_2_alg».proof.Proof.KI.Host2b
import proofs.«420645_j83519934038548_2_alg».proof.Proof.KI.Host3
-- ==== Proof.KI.Value.lean ====
import proofs.«420645_j83519934038548_2_alg».proof.Proof.Gen.KernelIdeal.Regions
import proofs.«420645_j83519934038548_2_alg».proof.Proof.RefRead
import proofs.«420645_j83519934038548_2_alg».proof.Proof.Law.GcnDefs
import proofs.«420645_j83519934038548_2_alg».proof.Proof.Law.PoolDefs
import proofs.«420645_j83519934038548_2_alg».proof.Proof.Law.DenseDefs
import proofs.«420645_j83519934038548_2_alg».proof.Proof.Law.RefForms
import proofs.«420645_j83519934038548_2_alg».proof.Proof.KI.Run
import proofs.«420645_j83519934038548_2_alg».proof.Proof.Law.Pool
import proofs.«420645_j83519934038548_2_alg».proof.Proof.Law.Dense
import proofs.«420645_j83519934038548_2_alg».proof.Proof.KI.Val013
import proofs.«420645_j83519934038548_2_alg».proof.Proof.KI.Val2
import proofs.«420645_j83519934038548_2_alg».proof.Proof.Law.Gcn
import proofs.«420645_j83519934038548_2_alg».proof.Proof.KI.Host

/-! # The result of the kernel program is the reference's last stage

Walked backwards from the result buffer: the head over the pooled means, the means over the pooled
sums, the sums over the second layer, the second layer over the first, the first over the
arguments. Between two regions the host lines move named buffers; a region replaces its one
output array. Each named buffer is read where it was last written and is otherwise carried
unchanged from the launch. The kernel's association order of a layer, its one-hot pooling and its
head then meet the reference's by the three laws. -/

set_option maxRecDepth 16384

noncomputable section

namespace Cert.KernelIdeal.Gen

open Idealize.ShloMosaic Idealize.ShloMosaic.TcCoe
open Idealize.SL Idealize.SL.Sem
open Idealize.ShloMosaic.Pipeline (Dat)
open Cert.ReferenceIdeal.ReadP (val_main_v5 val_main_v6 val_main_v15 val_main_v19 val_main_v57 val_main_v111 val_main_v123 val_main_v137)

/-! ## The arguments, and what is carried unchanged between the items -/

namespace Value

variable (m : (ℓ : Loc nD τ sig) → Buf (Elt Ideal) ℓ)

/-- The thirteen argument arrays on core c. -/
abbrev xarg0 (c : Dev nD) : (⟨S50000x128, .f32⟩ : BufTy).Contents (Elt Ideal) := m ((c.tc : Thread nD τ).loc main_arg0)
abbrev xarg1 (c : Dev nD) : (⟨S2x640000, .i32⟩ : BufTy).Contents (Elt Ideal) := m ((c.tc : Thread nD τ).loc main_arg1)
abbrev xarg2 (c : Dev nD) : (⟨S50000, .i32⟩ : BufTy).Contents (Elt Ideal) := m ((c.tc : Thread nD τ).loc main_arg2)
abbrev xarg3 (c : Dev nD) : (⟨S128x128, .f32⟩ : BufTy).Contents (Elt Ideal) := m ((c.tc : Thread nD τ).loc main_arg3)
abbrev xarg4 (c : Dev nD) : (⟨S128, .f32⟩ : BufTy).Contents (Elt Ideal) := m ((c.tc : Thread nD τ).loc main_arg4)
abbrev xarg5 (c : Dev nD) : (⟨S128x128, .f32⟩ : BufTy).Contents (Elt Ideal) := m ((c.tc : Thread nD τ).loc main_arg5)
abbrev xarg6 (c : Dev nD) : (⟨S128, .f32⟩ : BufTy).Contents (Elt Ideal) := m ((c.tc : Thread nD τ).loc main_arg6)
abbrev xarg7 (c : Dev nD) : (⟨S128x64, .f32⟩ : BufTy).Contents (Elt Ideal) := m ((c.tc : Thread nD τ).loc main_arg7)
abbrev xarg8 (c : Dev nD) : (⟨S64, .f32⟩ : BufTy).Contents (Elt Ideal) := m ((c.tc : Thread nD τ).loc main_arg8)
abbrev xarg9 (c : Dev nD) : (⟨S64x32, .f32⟩ : BufTy).Contents (Elt Ideal) := m ((c.tc : Thread nD τ).loc main_arg9)
abbrev xarg10 (c : Dev nD) : (⟨S32, .f32⟩ : BufTy).Contents (Elt Ideal) := m ((c.tc : Thread nD τ).loc main_arg10)
abbrev xarg11 (c : Dev nD) : (⟨S32x1, .f32⟩ : BufTy).Contents (Elt Ideal) := m ((c.tc : Thread nD τ).loc main_arg11)
abbrev xarg12 (c : Dev nD) : (⟨S1, .f32⟩ : BufTy).Contents (Elt Ideal) := m ((c.tc : Thread nD τ).loc main_arg12)

variable (outs : Outs (F := Ideal))

theorem V12_main_arg7 (c : Dev nD) : V12 m outs c main_arg7 = xarg7 m c :=
  (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m c main_arg7 (by decide)).trans <| (V2_of m c main_arg7 (by decide)).trans <| (V1_of m c main_arg7 (by decide)).trans rfl
theorem V12_main_arg9 (c : Dev nD) : V12 m outs c main_arg9 = xarg9 m c :=
  (V12_of m outs c main_arg9 (by decide)).trans <| (V11_of m outs c main_arg9 (by decide)).trans <| (V10_of m outs c main_arg9 (by decide)).trans <| (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m c main_arg9 (by decide)).trans <| (V2_of m c main_arg9 (by decide)).trans <| (V1_of m c main_arg9 (by decide)).trans rfl
theorem V12_main_arg11 (c : Dev nD) : V12 m outs c main_arg11 = xarg11 m c :=
  (V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m c main_arg11 (by decide)).trans <| (V2_of m c main_arg11 (by decide)).trans <| (V1_of m c main_arg11 (by decide)).trans rfl
theorem V11_main_arg8 (c : Dev nD) : V11 m outs c main_arg8 = xarg8 m c :=
  (V11_of m outs c main_arg8 (by decide)).trans <| (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m c main_arg8 (by decide)).trans <| (V2_of m c main_arg8 (by decide)).trans <| (V1_of m c main_arg8 (by decide)).trans rfl
theorem V11_main_arg10 (c : Dev nD) : V11 m outs c main_arg10 = xarg10 m c :=
  (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m c main_arg10 (by decide)).trans <| (V2_of m c main_arg10 (by decide)).trans <| (V1_of m c main_arg10 (by decide)).trans rfl
theorem V11_main_arg12 (c : Dev nD) : V11 m outs c main_arg12 = xarg12 m c :=
  (V11_of m outs c main_arg12 (by decide)).trans <| (V10_of m outs c main_arg12 (by decide)).trans <| (V9_of m outs c main_arg12 (by decide)).trans <| (V8_of m outs c main_arg12 (by decide)).trans <| (V7_of m outs c main_arg12 (by decide)).trans <| (V6_of m outs c main_arg12 (by decide)).trans <| (V5_of m outs c main_arg12 (by decide)).trans <| (V4_of m outs c main_arg12 (by decide)).trans <| (V3_of m c main_arg12 (by decide)).trans <| (V2_of m c main_arg12 (by decide)).trans <| (V1_of m c main_arg12 (by decide)).trans rfl
theorem V7_main_arg6 (c : Dev nD) : V7 m outs c main_arg6 = xarg6 m c :=
  (V7_of m outs c main_arg6 (by decide)).trans <| (V6_of m outs c main_arg6 (by decide)).trans <| (V5_of m outs c main_arg6 (by decide)).trans <| (V4_of m outs c main_arg6 (by decide)).trans <| (V3_of m c main_arg6 (by decide)).trans <| (V2_of m c main_arg6 (by decide)).trans <| (V1_of m c main_arg6 (by decide)).trans rfl
theorem V7_main_arg2 (c : Dev nD) : V7 m outs c main_arg2 = xarg2 m c :=
  (V7_of m outs c main_arg2 (by decide)).trans <| (V6_of m outs c main_arg2 (by decide)).trans <| (V5_of m outs c main_arg2 (by decide)).trans <| (V4_of m outs c main_arg2 (by decide)).trans <| (V3_of m c main_arg2 (by decide)).trans <| (V2_of m c main_arg2 (by decide)).trans <| (V1_of m c main_arg2 (by decide)).trans rfl
theorem V6_main_arg5 (c : Dev nD) : V6 m outs c main_arg5 = xarg5 m c :=
  (V6_of m outs c main_arg5 (by decide)).trans <| (V5_of m outs c main_arg5 (by decide)).trans <| (V4_of m outs c main_arg5 (by decide)).trans <| (V3_of m c main_arg5 (by decide)).trans <| (V2_of m c main_arg5 (by decide)).trans <| (V1_of m c main_arg5 (by decide)).trans rfl
theorem V4_main_arg4 (c : Dev nD) : V4 m outs c main_arg4 = xarg4 m c :=
  (V4_of m outs c main_arg4 (by decide)).trans <| (V3_of m c main_arg4 (by decide)).trans <| (V2_of m c main_arg4 (by decide)).trans <| (V1_of m c main_arg4 (by decide)).trans rfl
theorem V3_main_arg0 (c : Dev nD) : V3 m c main_arg0 = xarg0 m c :=
  (V3_of m c main_arg0 (by decide)).trans <| (V2_of m c main_arg0 (by decide)).trans <| (V1_of m c main_arg0 (by decide)).trans rfl
theorem V3_main_arg3 (c : Dev nD) : V3 m c main_arg3 = xarg3 m c :=
  (V3_of m c main_arg3 (by decide)).trans <| (V2_of m c main_arg3 (by decide)).trans <| (V1_of m c main_arg3 (by decide)).trans rfl
theorem V11_main_v75 (c : Dev nD) : V11 m outs c main_v75 = V10 m outs c main_v75 :=
  (V11_of m outs c main_v75 (by decide))
theorem V7_main_v20 (c : Dev nD) : V7 m outs c main_v20 = V3 m c main_v20 :=
  (V7_of m outs c main_v20 (by decide)).trans <| (V6_of m outs c main_v20 (by decide)).trans <| (V5_of m outs c main_v20 (by decide)).trans <| (V4_of m outs c main_v20 (by decide))
theorem V7_main_v5 (c : Dev nD) : V7 m outs c main_v5 = V3 m c main_v5 :=
  (V7_of m outs c main_v5 (by decide)).trans <| (V6_of m outs c main_v5 (by decide)).trans <| (V5_of m outs c main_v5 (by decide)).trans <| (V4_of m outs c main_v5 (by decide))
theorem V7_main_v6 (c : Dev nD) : V7 m outs c main_v6 = V3 m c main_v6 :=
  (V7_of m outs c main_v6 (by decide)).trans <| (V6_of m outs c main_v6 (by decide)).trans <| (V5_of m outs c main_v6 (by decide)).trans <| (V4_of m outs c main_v6 (by decide))
theorem V4_main_v20 (c : Dev nD) : V4 m outs c main_v20 = V3 m c main_v20 :=
  (V4_of m outs c main_v20 (by decide))
theorem V4_main_v5 (c : Dev nD) : V4 m outs c main_v5 = V3 m c main_v5 :=
  (V4_of m outs c main_v5 (by decide))
theorem V4_main_v6 (c : Dev nD) : V4 m outs c main_v6 = V3 m c main_v6 :=
  (V4_of m outs c main_v6 (by decide))

/-! ## Before the first region: the degree column and the edge ends -/

theorem V3_v20 (c : Dev nD) : V3 m c main_v20 = Cert.Law.K.dcol (val_main_v19 (F := Ideal) (xarg1 m c)) := host0_v20 (V0 m c)
theorem V3_v5 (c : Dev nD) : V3 m c main_v5 = val_main_v5 (F := Ideal) (xarg1 m c) := host0_v5 (V0 m c)
theorem V3_v6 (c : Dev nD) : V3 m c main_v6 = val_main_v6 (F := Ideal) (xarg1 m c) := host0_v6 (V0 m c)

/-- The inverse square-root degrees are nonnegative reals. -/
theorem dv_ok (c : Dev nD) (i) : (0 : EReal) ≤ (val_main_v19 (F := Ideal) (xarg1 m c)) i ∧ (val_main_v19 (F := Ideal) (xarg1 m c)) i ≠ (⊤ : EReal) := by
  rw [Cert.Law.Ref.dinv_eq]; exact Cert.Law.dinv_ok _ i

/-! ## The first layer -/

/-- Region 0 leaves the linear transform of the features. -/
theorem V4_v21 (h0 : ∀ c, V4 m outs c main_v21 = (dat0 (fun c b => V3 m c b) c).arrAt 2 cfg0.N) (c : Dev nD) : V4 m outs c main_v21 = Cert.Law.R.lin (xarg0 m c) (xarg3 m c) :=
  (h0 c).trans ((arr0 (fun c b => V3 m c b) c).trans (by
    show Cert.Law.R.lin (V3 m c main_arg0) (V3 m c main_arg3) = _
    rw [V3_main_arg0 m c, V3_main_arg3 m c]))

theorem V4_v20 (c : Dev nD) : V4 m outs c main_v20 = Cert.Law.K.dcol (val_main_v19 (F := Ideal) (xarg1 m c)) := (V4_main_v20 m outs c).trans (V3_v20 m c)
theorem V4_v5 (c : Dev nD) : V4 m outs c main_v5 = val_main_v5 (F := Ideal) (xarg1 m c) := (V4_main_v5 m outs c).trans (V3_v5 m c)
theorem V4_v6 (c : Dev nD) : V4 m outs c main_v6 = val_main_v6 (F := Ideal) (xarg1 m c) := (V4_main_v6 m outs c).trans (V3_v6 m c)

/-- The host lines after region 0 make the first layer: the two association orders agree. -/
theorem V6_v44 (h0 : ∀ c, V4 m outs c main_v21 = (dat0 (fun c b => V3 m c b) c).arrAt 2 cfg0.N) (c : Dev nD) : V6 m outs c main_v44 = val_main_v57 (F := Ideal) (xarg0 m c) (xarg1 m c) (xarg3 m c) (xarg4 m c) := by
  have e : V6 m outs c main_v44 = Cert.Law.K.layer (V4 m outs c main_v21) (V4 m outs c main_v20) (V4 m outs c main_v5) (V4 m outs c main_v6) (V4 m outs c main_arg4) :=
    host1_v44 (V4 m outs c)
  rw [e, V4_v21 m outs h0 c, V4_v20 m outs c, V4_v5 m outs c, V4_v6 m outs c, V4_main_arg4 m outs c,
    Cert.Law.layer_eq _ _ (dv_ok m c), Cert.Law.Ref.layer1_eq]

/-! ## The second layer -/

theorem V7_v45 (h0 : ∀ c, V4 m outs c main_v21 = (dat0 (fun c b => V3 m c b) c).arrAt 2 cfg0.N) (h1 : ∀ c, V7 m outs c main_v45 = (dat1 (fun c b => V6 m outs c b) c).arrAt 2 cfg1.N) (c : Dev nD) : V7 m outs c main_v45 = Cert.Law.R.lin (val_main_v57 (F := Ideal) (xarg0 m c) (xarg1 m c) (xarg3 m c) (xarg4 m c)) (xarg5 m c) :=
  (h1 c).trans ((arr1 (fun c b => V6 m outs c b) c).trans (by
    show Cert.Law.R.lin (V6 m outs c main_v44) (V6 m outs c main_arg5) = _
    rw [V6_v44 m outs h0 c, V6_main_arg5 m outs c]))

theorem V7_v20 (c : Dev nD) : V7 m outs c main_v20 = Cert.Law.K.dcol (val_main_v19 (F := Ideal) (xarg1 m c)) := (V7_main_v20 m outs c).trans (V3_v20 m c)
theorem V7_v5 (c : Dev nD) : V7 m outs c main_v5 = val_main_v5 (F := Ideal) (xarg1 m c) := (V7_main_v5 m outs c).trans (V3_v5 m c)
theorem V7_v6 (c : Dev nD) : V7 m outs c main_v6 = val_main_v6 (F := Ideal) (xarg1 m c) := (V7_main_v6 m outs c).trans (V3_v6 m c)

theorem V10_v68 (h0 : ∀ c, V4 m outs c main_v21 = (dat0 (fun c b => V3 m c b) c).arrAt 2 cfg0.N) (h1 : ∀ c, V7 m outs c main_v45 = (dat1 (fun c b => V6 m outs c b) c).arrAt 2 cfg1.N) (c : Dev nD) : V10 m outs c main_v68 = val_main_v111 (F := Ideal) (xarg0 m c) (xarg1 m c) (xarg3 m c) (xarg4 m c) (xarg5 m c) (xarg6 m c) := by
  have e : V10 m outs c main_v68 = Cert.Law.K.layer (V7 m outs c main_v45) (V7 m outs c main_v20) (V7 m outs c main_v5) (V7 m outs c main_v6) (V7 m outs c main_arg6) :=
    host2_v68 (V7 m outs c)
  rw [e, V7_v45 m outs h0 h1 c, V7_v20 m outs c, V7_v5 m outs c, V7_v6 m outs c, V7_main_arg6 m outs c,
    Cert.Law.layer_eq _ _ (dv_ok m c), Cert.Law.Ref.layer2_eq]

/-! ## The pooled means -/

/-- The membership table of the graph words. -/
theorem V10_v75 (c : Dev nD) : V10 m outs c main_v75 = Cert.Law.K.onehot (xarg2 m c) :=
  (host2_v75 (V7 m outs c)).trans (by rw [V7_main_arg2 m outs c])

/-- Region 2 leaves the pooled sums. -/
theorem V11_v76 (h0 : ∀ c, V4 m outs c main_v21 = (dat0 (fun c b => V3 m c b) c).arrAt 2 cfg0.N) (h1 : ∀ c, V7 m outs c main_v45 = (dat1 (fun c b => V6 m outs c b) c).arrAt 2 cfg1.N) (h2 : ∀ c, V11 m outs c main_v76 = (dat2 (fun c b => V10 m outs c b) c).arrAt 2 cfg2.N) (c : Dev nD) : V11 m outs c main_v76 = Cert.Law.R.pool (val_main_v111 (F := Ideal) (xarg0 m c) (xarg1 m c) (xarg3 m c) (xarg4 m c) (xarg5 m c) (xarg6 m c)) (xarg2 m c) :=
  (h2 c).trans ((arr2 (fun c b => V10 m outs c b) c (xarg2 m c) (V10_v75 m outs c)).trans (by
    show Cert.Law.R.pool (V10 m outs c main_v68) (xarg2 m c) = _
    rw [V10_v68 m outs h0 h1 c]))

theorem V11_v75 (c : Dev nD) : V11 m outs c main_v75 = Cert.Law.K.onehot (xarg2 m c) := (V11_main_v75 m outs c).trans (V10_v75 m outs c)

theorem V12_v83 (h0 : ∀ c, V4 m outs c main_v21 = (dat0 (fun c b => V3 m c b) c).arrAt 2 cfg0.N) (h1 : ∀ c, V7 m outs c main_v45 = (dat1 (fun c b => V6 m outs c b) c).arrAt 2 cfg1.N) (h2 : ∀ c, V11 m outs c main_v76 = (dat2 (fun c b => V10 m outs c b) c).arrAt 2 cfg2.N) (c : Dev nD) : V12 m outs c main_v83 = val_main_v123 (F := Ideal) (xarg0 m c) (xarg1 m c) (xarg2 m c) (xarg3 m c) (xarg4 m c) (xarg5 m c) (xarg6 m c) := by
  have e : V12 m outs c main_v83 = Cert.Law.K.mean (V11 m outs c main_v76) (V11 m outs c main_v75) := host3_v83 (V11 m outs c)
  rw [e, V11_v76 m outs h0 h1 h2 c, V11_v75 m outs c, Cert.Law.mean_eq, Cert.Law.Ref.mean_eq]

/-! ## The head -/

theorem V12_v84 (c : Dev nD) : V12 m outs c main_v84 = Cert.Law.K.brow64 (xarg8 m c) := (host3_v84 (V11 m outs c)).trans (by rw [V11_main_arg8 m outs c])
theorem V12_v85 (c : Dev nD) : V12 m outs c main_v85 = Cert.Law.K.brow32 (xarg10 m c) := (host3_v85 (V11 m outs c)).trans (by rw [V11_main_arg10 m outs c])
theorem V12_v86 (c : Dev nD) : V12 m outs c main_v86 = Cert.Law.K.brow1 (xarg12 m c) := (host3_v86 (V11 m outs c)).trans (by rw [V11_main_arg12 m outs c])

/-- The result buffer, for any contents the regions leave that are what their write-backs leave. -/
theorem value_of (h0 : ∀ c, V4 m outs c main_v21 = (dat0 (fun c b => V3 m c b) c).arrAt 2 cfg0.N) (h1 : ∀ c, V7 m outs c main_v45 = (dat1 (fun c b => V6 m outs c b) c).arrAt 2 cfg1.N) (h2 : ∀ c, V11 m outs c main_v76 = (dat2 (fun c b => V10 m outs c b) c).arrAt 2 cfg2.N) (h3 : ∀ c, V13 m outs c main_v87 = (dat3 (fun c b => V12 m outs c b) c).arrAt 7 cfg3.N) (c : Dev nD) : V13 m outs c main_v87 = val_main_v137 (F := Ideal) (xarg0 m c) (xarg1 m c) (xarg2 m c) (xarg3 m c) (xarg4 m c) (xarg5 m c) (xarg6 m c) (xarg7 m c) (xarg8 m c) (xarg9 m c) (xarg10 m c) (xarg11 m c) (xarg12 m c) :=
  (h3 c).trans ((arr3 (fun c b => V12 m outs c b) c).trans (by
    show k3_pay1 (V12 m outs c main_v83) (V12 m outs c main_arg7) (V12 m outs c main_v84) (V12 m outs c main_arg9) (V12 m outs c main_v85) (V12 m outs c main_arg11) (V12 m outs c main_v86) = _
    rw [V12_v83 m outs h0 h1 h2 c, V12_main_arg7 m outs c, V12_v84 m outs c, V12_main_arg9 m outs c, V12_v85 m outs c, V12_main_arg11 m outs c, V12_v86 m outs c,
      Cert.Law.mlp_eq, Cert.Law.Ref.mlp_eq]))

end Value

/-- THE VALUE: the result buffer after the run is the reference's last stage of the arguments. -/
theorem value (m : (ℓ : Loc nD τ sig) → Buf (Elt Ideal) ℓ) (c : Dev nD) :
    V13 (F := Ideal) m (outs m) c main_v87 = Cert.ReferenceIdeal.ReadP.val_main_v137 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  Value.value_of m (outs m) (out0_eq m) (out1_eq m) (out2_eq m) (out3_eq m) c

end Cert.KernelIdeal.Gen

end
-- ==== Proof.lean ====
/-
  The certificate of the graph-convolution kernel against its reference.

  Frames. Both printed readings of the kernel (at the machine's words and at the extended reals) are the same
  program text: host stretches around four kernel regions — the two row-blocked linear transforms, the pooled sums
  accumulated over five row blocks in a scratch buffer that lives across the grid, and the dense head. Each region
  is entered from, and left at, every unscoped buffer held at a named valuation; the launch of the segments gives
  termination without a fault and the argument arrays unchanged, at any float family. The reference is a host
  program: its frame is its run with the result dropped.

  Values, at the extended reals. The kernel scales the transformed rows by deg^(-1/2) BEFORE the gather and once
  more AFTER the scatter-add, where the reference scales every message by deg^(-1/2)[source] · deg^(-1/2)[target].
  A message that lands at row p has target p, so the reference's factor at the target is the row's own, and
  (∑ a_k) · r = ∑ (a_k · r) for 0 ≤ r < ⊤ — which the guarded reciprocal square root always is — joins the two
  without any finiteness of the features. The pooled sums are the kernel's 0/1-membership matrix product against
  the reference's row scatter-add (1 · x = x and 0 · x = 0 on every extended real), the counts likewise, and the
  head is the same three affine maps and rectifiers on both sides, the matrix unit's product into a zero
  accumulator being the plain sum at this instance. The precondition (finite float inputs) is not used.
-/
import proofs.«420645_j83519934038548_2_alg».proof.Defs
import proofs.«420645_j83519934038548_2_alg».proof.Proof.Gen.Kernel
import proofs.«420645_j83519934038548_2_alg».proof.Proof.Gen.KernelIdeal
import proofs.«420645_j83519934038548_2_alg».proof.Proof.Gen.ReferenceIdeal
import proofs.«420645_j83519934038548_2_alg».proof.Proof.Gen.Pre_finite_inputs
import proofs.«420645_j83519934038548_2_alg».proof.Proof.K.Run
import proofs.«420645_j83519934038548_2_alg».proof.Proof.KI.Run
import proofs.«420645_j83519934038548_2_alg».proof.Proof.KI.Value
import proofs.«420645_j83519934038548_2_alg».proof.Proof.RefRead
import Idealize.ShloMosaic.Adequacy
import Idealize.ShloMosaic.Init

noncomputable section

namespace Cert.Proof

open Idealize.ShloMosaic Idealize.ShloMosaic.TcCoe Idealize.SL.Sem

/-- The kernel as printed runs and keeps its arguments: the launch of its segments at the machine's words. -/
theorem frame_k : Cert.frame_Kernel := fun m ρ _ => Cert.Kernel.Gen.frame (F := Bits) m ρ

/-- The same text at the extended reals. -/
theorem frame_ki : Cert.frame_KernelIdeal := fun m ρ _ => Cert.KernelIdeal.Gen.frame (F := Ideal) m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two readings are the same text: there is nothing to preserve. -/
theorem preserves : Cert.preserves_Kernel_KernelIdeal := trivial

/-- Both programs end, from memories agreeing on the arguments, with the result array at the reference's last
    stage function of the arguments. -/
theorem algebraic : Cert.algebraic_KernelIdeal_ReferenceIdeal := by
  intro m ρ m' ρ' _ hagree
  refine ⟨fun c => Cert.KernelIdeal.Gen.V13 (F := Ideal) m (Cert.KernelIdeal.Gen.outs m) c Cert.KernelIdeal.main_v87, Cert.KernelIdeal.Gen.run_all (F := Ideal) m ρ, ?_⟩
  refine (θ_run Cert.ReferenceIdeal.defs _ _).mono (fun _ h c => ⟨(h c).1.trans ?_, (h c).2⟩) (Cert.ReferenceIdeal.ValueP.run (F := Ideal) m' ρ')
  rw [Cert.ReferenceIdeal.ReadP.val_main_v137_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (Cert.KernelIdeal.Gen.value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
